-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S_ : Shape := ⟨0, ![]⟩
abbrev S8192 : Shape := ⟨1, ![8192]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_

variable [Facts]

def fn {F : FTy → Type} [FloatOps F] (main_arg0 : FVec F S8192x512 .f32) (main_arg1 : IVec S8192x8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_c_0 : IVec S_ 32 := constantI S_ 32 0#32
  let main_v4 : IVec S8192x8192 32 := broadcastInDim S8192x8192 ![] bcast_S_S8192x8192 main_c_0
  let main_v5 : IVec S8192x8192 1 := cmpi .sle main_arg1 main_v4
  let main_c_1 : IVec S_ 1 := constantI S_ 1 0#1
  let main_v6 : IVec S8192 1 := (fun x v => Host.reduce IntOp.ori x v reducesTo_S8192x8192_S8192_d1 h_S_) main_v5 main_c_1
  let main_c_2 : IVec S_ 1 := constantI S_ 1 1#1
  let main_v7 : IVec S_ 1 := (fun x v => Host.reduce IntOp.andi x v reducesTo_S8192_S_d0 h_S_) main_v6 main_c_2
  let main_v8 : IVec S_ 1 := andi main_v3 main_v7
  main_v8
-- ==== Kernel.lean ====
abbrev S8192x512 : Shape := ⟨2, ![8192, 512]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S2048x512 : Shape := ⟨2, ![2048, 512]⟩
abbrev S512x512 : Shape := ⟨2, ![512, 512]⟩
abbrev S2048x1 : Shape := ⟨2, ![2048, 1]⟩
abbrev S2048 : Shape := ⟨1, ![2048]⟩

abbrev nBuf : Space → Nat
  | .hbm => 18
  | .vmem => 15
  | .smem => 0
  | _ => 0

abbrev bufTy : (tb : Table) → Fin (tcTables nBuf tb) → BufTy
  | .hbm, ⟨0, _⟩ => ⟨S8192x512, .f32⟩
  | .hbm, ⟨1, _⟩ => ⟨S8192x8192, .i32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x512, .f32⟩
  | .hbm, ⟨14, _⟩ => ⟨S8192x512, .f32⟩
  | .hbm, ⟨15, _⟩ => ⟨S8192x512, .bf16⟩
  | .hbm, ⟨16, _⟩ => ⟨S8192x512, .bf16⟩
  | .hbm, ⟨17, _⟩ => ⟨S8192x512, .f32⟩
  | .local _ .vmem, ⟨0, _⟩ => ⟨S2048x512, .bf16⟩
  | .local _ .vmem, ⟨1, _⟩ => ⟨S2048x512, .bf16⟩
  | .local _ .vmem, ⟨2, _⟩ => ⟨S2048x512, .f32⟩
  | .local _ .vmem, ⟨3, _⟩ => ⟨S2048x512, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S2048x512, .i32⟩
  | .local _ .vmem, ⟨9, _⟩ => ⟨S2048x512, .i32⟩
  | .local _ .vmem, ⟨10, _⟩ => ⟨S2048x512, .f32⟩
  | .local _ .vmem, ⟨11, _⟩ => ⟨S2048x512, .f32⟩
  | .local _ .vmem, ⟨12, _⟩ => ⟨S2048x1, .f32⟩
  | .local _ .vmem, ⟨13, _⟩ => ⟨S2048x1, .f32⟩
  | .local _ .vmem, ⟨14, _⟩ => ⟨S2048x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v45 : BitVec 1 := Scalar.cmpi .eq arg1 c15_i32
  let v46 : BitVec 32 := Scalar.extui v45
  let c0_i32_27 : BitVec 32 := 0#32
  let v47 : BitVec 1 := Scalar.cmpi .ne v46 c0_i32_27
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S2048x512_S2048 : S2048x512.Reduces [1] S2048
  shapeCasts_S2048_S2048x1 : S2048.ShapeCasts S2048x1
  broadcasts_S2048x1_S2048x512 : S2048x1.Broadcasts S2048x512
  dot_S2048x512_S512x512_S2048x512_1_1_0_0_n_n_wf : DotDims.WF S2048x512 S512x512 S2048x512 [1] [1] [0] [0] [] []
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .bf16 = 32 ∨ (Rect.block (s := S8192x512) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S8192x512.size a
  hwx0_1 : ∀ i : grid0.Coords, EltTy.bits .f32 = 32 ∨ (Rect.block (s := S8192x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x512.size a
  hwx0_2 : ∀ i : grid0.Coords, EltTy.bits .bf16 = 32 ∨ (Rect.block (s := S8192x512) S512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S8192x512.size a
  hwx0_3 : ∀ i : grid0.Coords, EltTy.bits .bf16 = 32 ∨ (Rect.block (s := S8192x512) S512x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S8192x8192.size a
  hwx0_4 : ∀ i : grid0.Coords, EltTy.bits .i32 = 32 ∨ (Rect.block (s := S8192x8192) S2048x512.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S8192x512.size a
  hwx0_5 : ∀ i : grid0.Coords, EltTy.bits .f32 = 32 ∨ (Rect.block (s := S8192x512) S2048x512.size (cc0_transform_5 i) (hinb0_5 i)).WholeWords (EltTy.packing .f32)

variable [Facts₀]

def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v10) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S2048x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12) S2048x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S512x8192 : Shape := ⟨2, ![512, 8192]⟩

abbrev nBuf : Space → Nat
  | .hbm => 47
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .i32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S8192x512, .f32⟩
  | .hbm, ⟨12, _⟩ => ⟨S512x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S8192x1, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x8192, .f32⟩
  | .hbm, ⟨38, _⟩ => ⟨S8192x8192, .f32⟩
  | .hbm, ⟨39, _⟩ => ⟨S8192x512, .f32⟩
  | .hbm, ⟨40, _⟩ => ⟨S_, .f32⟩
  | .hbm, ⟨41, _⟩ => ⟨S8192x512, .f32⟩
  | .hbm, ⟨42, _⟩ => ⟨S8192x512, .f32⟩
  | .hbm, ⟨43, _⟩ => ⟨S_, .f32⟩
  | .hbm, ⟨44, _⟩ => ⟨S8192x512, .f32⟩
  | .hbm, ⟨45, _⟩ => ⟨S8192x512, .f32⟩
  | .hbm, ⟨46, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  transposes_S8192x512_S512x8192_1_0 : S8192x512.Transposes [1, 0] S512x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  bcast_S8192x1_S8192x8192_0_1 : S8192x1.BroadcastsInDim S8192x8192 (![0, 1] : Fin 2 → Fin S8192x8192.rank)
  bcast_S_S8192x512 : S_.BroadcastsInDim S8192x512 (![] : Fin 0 → Fin S8192x512.rank)
  dot_S8192x512_S512x8192_S8192x8192_1_0_0_1_n_n_wf : DotDims.WF S8192x512 S512x8192 S8192x8192 [1] [0] [0] [1] [] []
  dot_S8192x8192_S8192x512_S8192x512_1_0_0_1_n_n_wf : DotDims.WF S8192x8192 S8192x512 S8192x512 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf

class Facts : Prop extends Facts₀ where

variable [Facts]
-- ==== Proof.K.Runs.lean ====
/-
  What the three runs of the kernel body share.  The body branches twice on the second grid coordinate `k` (the key
  block): at `k = 0` it first resets the three running quantities it keeps in scratch (the running maximum to −∞, the
  two running sums to 0); at `k = 15`, the last key block, it finally divides the weighted sum by the plain one and
  stores the result block.  So a grid point is in one of three cases — first key block, a middle one, last one — and
  the output window is written only in the last.  Here: the two conditions in closed form over the 64 points, where
  the output window is idle and where it is written back, the staging and scratch memrefs the body is called with,
  and each input window's buffer holding its block at every point.  All of it at any float instance and over any
  contents `V` of the buffers at the region's entry.
-/
import proofs.«402759_j45397804319035_3_alg».proof.Proof.Gen.Kernel.Launch
import proofs.«402759_j45397804319035_3_alg».proof.Proof.Gen.Kernel.Skeleton
import proofs.«402759_j45397804319035_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof data
    whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first key block": the condition of the body's first branch, from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last key block": the condition of the body's second branch. -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Window 3 is never idle (an input). -/
theorem liveAt0_3 : ∀ t : Fin cfg0.N, cfg0.idle 3 (grid0.coords t) = false := by decide +kernel
/-- Window 4 is never idle (an input). -/
theorem liveAt0_4 : ∀ t : Fin cfg0.N, cfg0.idle 4 (grid0.coords t) = false := by decide +kernel
/-- Before the last key block the output window is idle: the body stores nothing into it, -/
theorem idleAt0_5 : ∀ t : Fin cfg0.N, ¬cond0_1 (grid0.coords t) → cfg0.idle 5 (grid0.coords t) = true := by decide +kernel
/-- and its block is not written back there. -/
theorem noFlush0_5 : ∀ t : Fin cfg0.N, ¬cond0_1 (grid0.coords t) → (cfg0.win 5).flush t = false := by decide +kernel
/-- At the last key block it is live. -/
theorem liveAt0_5 : ∀ t : Fin cfg0.N, cond0_1 (grid0.coords t) → cfg0.idle 5 (grid0.coords t) = false := by decide +kernel

/-! ## The memrefs the body is called with -/

/-- One staging buffer of the output window, through which its contents are stated. -/
abbrev VO0_5 : View sig .tc .vmem S2048x512 .f32 := (Memref.whole cc0_stg5_0 : Memref sig .tc .vmem S2048x512 .f32).view
abbrev ms0_0 (t : Fin cfg0.N) : Memref sig .tc .vmem S2048x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x512 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x512 .f32 := win0_5.stage (cfg0.slots t 5)
abbrev hs0_5 (t : Fin cfg0.N) : (ms0_5 t).IsWhole := hstage0_5 ((cfg0.slots t 5).cast nbuf0_5)
/-- The scratch operands: the running maximum, the running sum, the running weighted sum. -/
abbrev scM0_0 : Memref sig .tc .vmem S2048x1 .f32 := Memref.whole cc0_scratch0
abbrev scM0_1 : Memref sig .tc .vmem S2048x1 .f32 := Memref.whole cc0_scratch1
abbrev scM0_2 : Memref sig .tc .vmem S2048x512 .f32 := Memref.whole cc0_scratch2
abbrev VS0_0 : View sig .tc .vmem S2048x1 .f32 := scM0_0.view
abbrev VS0_1 : View sig .tc .vmem S2048x1 .f32 := scM0_1.view
abbrev VS0_2 : View sig .tc .vmem S2048x512 .f32 := scM0_2.view

/-- The class invariant with the three scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Hand

end
-- ==== Proof.K.RunA.lean ====
/-
  The kernel body run at a point of the FIRST key block (the first branch taken, the second not): the three scratch operands are reset, then updated.  The run is symbolic: on whole memrefs — the five input buffers at their
  contents, the output buffer at contents it hands back untouched, the scratch operands at anything — the body reaches its
  continuation with the inputs as they were and every buffer it stored into holding the stored pieces, which the run
  itself finds (they are the first components of the result).
-/
import proofs.«402759_j45397804319035_3_alg».proof.Proof.K.Runs

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- The pieces the body's stores leave (last first) in the output buffer and in the three scratch operands, with the proof
    that the body runs to its continuation holding them. -/
noncomputable def kernelRun0_A (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : cond0_0 i) (hc1 : ¬cond0_1 i)
    (x0 : Vec F S2048x512 .bf16) (x1 : Vec F S2048x512 .f32) (x2 : Vec F S512x512 .bf16) (x3 : Vec F S512x512 .bf16) (x4 : Vec F S2048x512 .i32) :
    Σ' (L5 : List (View.Piece (Elt F) S2048x512 .f32)) (LS0 : List (View.Piece (Elt F) S2048x1 .f32)) (LS1 : List (View.Piece (Elt F) S2048x1 .f32)), { LS2 : List (View.Piece (Elt F) S2048x512 .f32) //
      ∀ (xi5 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__cn_kernel i arg2 harg2 arg3 harg3 arg4 harg4 arg5 harg5 arg6 harg6 arg7 harg7 arg8 harg8 arg9 harg9 arg10 harg10) K } := by
  refine ⟨[], ?_, ?_, ?_, fun xi5 E K => ?run⟩
  case run =>
    simp only [cc0__cn_kernel_eq_skeleton]; unfold cc0__cn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Hand

end
-- ==== Proof.K.RunB.lean ====
/-
  The kernel body run at a point of a MIDDLE key block (neither branch taken): the three scratch operands are updated over what the point before left.  The run is symbolic: on whole memrefs — the five input buffers at their
  contents, the output buffer at contents it hands back untouched, the scratch operands at what the point before left — the body reaches its
  continuation with the inputs as they were and every buffer it stored into holding the stored pieces, which the run
  itself finds (they are the first components of the result).
-/
import proofs.«402759_j45397804319035_3_alg».proof.Proof.K.RunA

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- The pieces the body's stores leave (last first) in the output buffer and in the three scratch operands, with the proof
    that the body runs to its continuation holding them. -/
noncomputable def kernelRun0_B (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : ¬cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) :
    Σ' (L5 : List (View.Piece (Elt F) S2048x512 .f32)) (LS0 : List (View.Piece (Elt F) S2048x1 .f32)) (LS1 : List (View.Piece (Elt F) S2048x1 .f32)), { LS2 : List (View.Piece (Elt F) S2048x512 .f32) //
      ∀ (xi5 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__cn_kernel i arg2 harg2 arg3 harg3 arg4 harg4 arg5 harg5 arg6 harg6 arg7 harg7 arg8 harg8 arg9 harg9 arg10 harg10) K } := by
  refine ⟨[], ?_, ?_, ?_, fun xi5 E K => ?run⟩
  case run =>
    simp only [cc0__cn_kernel_eq_skeleton]; unfold cc0__cn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Hand

end
-- ==== Proof.K.RunC.lean ====
/-
  The kernel body run at a point of the LAST key block (the first branch not taken, the second taken): the scratch operands are updated and the result block is stored.  The run is symbolic: on whole memrefs — the five input buffers at their
  contents, the output buffer at anything, the scratch operands at what the point before left — the body reaches its
  continuation with the inputs as they were and every buffer it stored into holding the stored pieces, which the run
  itself finds (they are the first components of the result).
-/
import proofs.«402759_j45397804319035_3_alg».proof.Proof.K.RunB

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- The pieces the body's stores leave (last first) in the output buffer and in the three scratch operands, with the proof
    that the body runs to its continuation holding them. -/
noncomputable def kernelRun0_C (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) :
    Σ' (L5 : List (View.Piece (Elt F) S2048x512 .f32)) (LS0 : List (View.Piece (Elt F) S2048x1 .f32)) (LS1 : List (View.Piece (Elt F) S2048x1 .f32)), { LS2 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__cn_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__cn_kernel_eq_skeleton]; unfold cc0__cn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.Kernel.Hand

end
-- ==== Proof.Shares.lean ====
/-
  How the arrays are held while the kernel runs.  The first and the third input window read one array (the normalised
  rows, once as the query block and once as the key block): each holds half of it.  Every other window holds its
  array whole.
-/
import Idealize.SL.RA.TreeShare

namespace Cert.Spec

open Idealize.SL.RA

/-- The share of its array each of the six windows holds. -/
def qShare (w : Fin 6) : PosShare TreeShare :=
  if w = 0 then fullShare.left else if w = 2 then fullShare.right else fullShare

theorem qShare_0 : qShare 0 = fullShare.left := rfl
theorem qShare_1 : qShare 1 = fullShare := rfl
theorem qShare_2 : qShare 2 = fullShare.right := rfl
theorem qShare_3 : qShare 3 = fullShare := rfl
theorem qShare_4 : qShare 4 = fullShare := rfl
theorem qShare_5 : qShare 5 = fullShare := rfl

end Cert.Spec
-- ==== Proof.K.Frame.lean ====
/-
  What the kernel leaves, case by case and point by point, and the body obligation.  Each of the three runs finds
  the pieces its stores leave in the output buffer and in the three scratch operands; read back, those are the
  contents after the point.  `outsAt0` strings them along the 64 grid points: a first key block resets the scratch
  operands and needs nothing from before; a middle or last key block starts from what the point before left.  The
  region invariant tracks the three scratch operands at exactly those contents, and the body obligation at a point
  is the run of the point's case.
-/
import proofs.«402759_j45397804319035_3_alg».proof.Proof.K.RunC
import proofs.«402759_j45397804319035_3_alg».proof.Proof.Shares

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- This case stores nothing into the output buffer (the window is idle at its points and not written back there): a
    placeholder nothing consults. -/
def out0_A_5 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : cond0_0 i) (hc1 : ¬cond0_1 i)
    (x0 : Vec F S2048x512 .bf16) (x1 : Vec F S2048x512 .f32) (x2 : Vec F S512x512 .bf16) (x3 : Vec F S512x512 .bf16) (x4 : Vec F S2048x512 .i32) : Vec F S2048x512 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 hc0 hc1 x0 x1 x2 x3 x4).1)

/-- This case's stores into scratch operand 0 cover it. -/
theorem scover0_A_0 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : cond0_0 i) (hc1 : ¬cond0_1 i)
    (x0 : Vec F S2048x512 .bf16) (x1 : Vec F S2048x512 .f32) (x2 : Vec F S512x512 .bf16) (x3 : Vec F S512x512 .bf16) (x4 : Vec F S2048x512 .i32) (y : S2048x1.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).2.1 S2048x1.size (by sl_kernel_rfl) y

/-- What this case leaves in scratch operand 0: its pieces read back. -/
def sout0_A_0 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : cond0_0 i) (hc1 : ¬cond0_1 i)
    (x0 : Vec F S2048x512 .bf16) (x1 : Vec F S2048x512 .f32) (x2 : Vec F S512x512 .bf16) (x3 : Vec F S512x512 .bf16) (x4 : Vec F S2048x512 .i32) : Vec F S2048x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4).2.1)

/-- This case's stores into scratch operand 1 cover it. -/
theorem scover0_A_1 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : cond0_0 i) (hc1 : ¬cond0_1 i)
    (x0 : Vec F S2048x512 .bf16) (x1 : Vec F S2048x512 .f32) (x2 : Vec F S512x512 .bf16) (x3 : Vec F S512x512 .bf16) (x4 : Vec F S2048x512 .i32) (y : S2048x1.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).2.2.1 S2048x1.size (by sl_kernel_rfl) y

/-- What this case leaves in scratch operand 1: its pieces read back. -/
def sout0_A_1 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : cond0_0 i) (hc1 : ¬cond0_1 i)
    (x0 : Vec F S2048x512 .bf16) (x1 : Vec F S2048x512 .f32) (x2 : Vec F S512x512 .bf16) (x3 : Vec F S512x512 .bf16) (x4 : Vec F S2048x512 .i32) : Vec F S2048x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1 x2 x3 x4).2.2.1)

/-- This case's stores into scratch operand 2 cover it. -/
theorem scover0_A_2 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : cond0_0 i) (hc1 : ¬cond0_1 i)
    (x0 : Vec F S2048x512 .bf16) (x1 : Vec F S2048x512 .f32) (x2 : Vec F S512x512 .bf16) (x3 : Vec F S512x512 .bf16) (x4 : Vec F S2048x512 .i32) (y : S2048x512.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).2.2.2.1 S2048x512.size (by sl_kernel_rfl) y

/-- What this case leaves in scratch operand 2: its pieces read back. -/
def sout0_A_2 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : cond0_0 i) (hc1 : ¬cond0_1 i)
    (x0 : Vec F S2048x512 .bf16) (x1 : Vec F S2048x512 .f32) (x2 : Vec F S512x512 .bf16) (x3 : Vec F S512x512 .bf16) (x4 : Vec F S2048x512 .i32) : Vec F S2048x512 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 hc0 hc1 x0 x1 x2 x3 x4).2.2.2.1)

/-- This case stores nothing into the output buffer (the window is idle at its points and not written back there): a
    placeholder nothing consults. -/
def out0_B_5 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : ¬cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) : Vec F S2048x512 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 hc0 hc1 x0 x1 x2 x3 x4 xs0 xs1 xs2).1)

/-- This case's stores into scratch operand 0 cover it. -/
theorem scover0_B_0 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : ¬cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) (y : S2048x1.Idx) :
    ∃ pc ∈ (kernelRun0_B c i arg2 harg2 arg3 harg3 arg4 harg4 arg5 harg5 arg6 harg6 arg7 harg7 arg8 harg8 arg9 harg9 arg10 harg10 hc0 hc1 x0 x1 x2 x3 x4 xs0 xs1 xs2).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 xs0 xs1 xs2).2.1 S2048x1.size (by sl_kernel_rfl) y

/-- What this case leaves in scratch operand 0: its pieces read back. -/
def sout0_B_0 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : ¬cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) : Vec F S2048x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 xs0 xs1 xs2).2.1)

/-- This case's stores into scratch operand 1 cover it. -/
theorem scover0_B_1 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : ¬cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) (y : S2048x1.Idx) :
    ∃ pc ∈ (kernelRun0_B c i arg2 harg2 arg3 harg3 arg4 harg4 arg5 harg5 arg6 harg6 arg7 harg7 arg8 harg8 arg9 harg9 arg10 harg10 hc0 hc1 x0 x1 x2 x3 x4 xs0 xs1 xs2).2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 xs0 xs1 xs2).2.2.1 S2048x1.size (by sl_kernel_rfl) y

/-- What this case leaves in scratch operand 1: its pieces read back. -/
def sout0_B_1 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : ¬cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) : Vec F S2048x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 hc0 hc1 x0 x1 x2 x3 x4 xs0 xs1 xs2).2.2.1)

/-- This case's stores into scratch operand 2 cover it. -/
theorem scover0_B_2 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : ¬cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) (y : S2048x512.Idx) :
    ∃ pc ∈ (kernelRun0_B c i arg2 harg2 arg3 harg3 arg4 harg4 arg5 harg5 arg6 harg6 arg7 harg7 arg8 harg8 arg9 harg9 arg10 harg10 hc0 hc1 x0 x1 x2 x3 x4 xs0 xs1 xs2).2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 xs0 xs1 xs2).2.2.2.1 S2048x512.size (by sl_kernel_rfl) y

/-- What this case leaves in scratch operand 2: its pieces read back. -/
def sout0_B_2 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : ¬cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) : Vec F S2048x512 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 hc0 hc1 x0 x1 x2 x3 x4 xs0 xs1 xs2).2.2.2.1)

/-- The last key block's one store into the output buffer tiles its block, so it covers it. -/
theorem cover0_C_5 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) (y : S2048x512.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xs0 xs1 xs2).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xs0 xs1 xs2).1 S2048x512.size (by sl_kernel_rfl) y

/-- What the last key block leaves in the output buffer: its pieces read back. -/
def out0_C_5 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) : Vec F S2048x512 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 hc0 hc1 x0 x1 x2 x3 x4 xs0 xs1 xs2).1)

/-- This case's stores into scratch operand 0 cover it. -/
theorem scover0_C_0 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) (y : S2048x1.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xs0 xs1 xs2).2.1 S2048x1.size (by sl_kernel_rfl) y

/-- What this case leaves in scratch operand 0: its pieces read back. -/
def sout0_C_0 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) : Vec F S2048x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 x4 xs0 xs1 xs2).2.1)

/-- This case's stores into scratch operand 1 cover it. -/
theorem scover0_C_1 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) (y : S2048x1.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xs0 xs1 xs2).2.2.1 S2048x1.size (by sl_kernel_rfl) y

/-- What this case leaves in scratch operand 1: its pieces read back. -/
def sout0_C_1 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) : Vec F S2048x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 x0 x1 x2 x3 x4 xs0 xs1 xs2).2.2.1)

/-- This case's stores into scratch operand 2 cover it. -/
theorem scover0_C_2 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) (y : S2048x512.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xs0 xs1 xs2).2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xs0 xs1 xs2).2.2.2.1 S2048x512.size (by sl_kernel_rfl) y

/-- What this case leaves in scratch operand 2: its pieces read back. -/
def sout0_C_2 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) : Vec F S2048x512 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 hc0 hc1 x0 x1 x2 x3 x4 xs0 xs1 xs2).2.2.2.1)

/-! ## What the output buffer and the scratch operands hold after each point -/

/-- After the body at position `n`: the output buffer, then the running maximum, the running sum and the running weighted
    sum — the case the closed forms select at `n`, run at the point's memrefs and input blocks, over what position
    `n - 1` left in the scratch operands (the first key block resets them and needs nothing). -/
def outsAt0 (c : Dev nD) : (n : ℕ) → n < cfg0.N → Vec F S2048x512 .f32 × Vec F S2048x1 .f32 × Vec F S2048x1 .f32 × Vec F S2048x512 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩))
  | n + 1, hn =>
    if h0 : (n + 1) % 16 = 0 then
      if h1 : (n + 1) % 16 = 15 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩))
    else
      if h1 : (n + 1) % 16 = 15 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn)).2.1 (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn)).2.1 (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn)).2.1 (outsAt0 c n (Nat.lt_of_succ_lt hn)).2.2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn)).2.1 (outsAt0 c n (Nat.lt_of_succ_lt hn)).2.2.1 (outsAt0 c n (Nat.lt_of_succ_lt hn)).2.2.2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn)).2.1 (outsAt0 c n (Nat.lt_of_succ_lt hn)).2.2.1 (outsAt0 c n (Nat.lt_of_succ_lt hn)).2.2.2)

/-- `outsAt0` at a point of the first key block. -/
theorem outsAt0_A (c : Dev nD) (t : Fin cfg0.N) (h0 : t.val % 16 = 0) (h1 : ¬t.val % 16 = 15) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk V c 0 t) (iblk V c 1 t) (iblk V c 2 t) (iblk V c 3 t) (iblk V c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk V c 0 t) (iblk V c 1 t) (iblk V c 2 t) (iblk V c 3 t) (iblk V c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk V c 0 t) (iblk V c 1 t) (iblk V c 2 t) (iblk V c 3 t) (iblk V c 4 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk V c 0 t) (iblk V c 1 t) (iblk V c 2 t) (iblk V c 3 t) (iblk V c 4 t)) := by
  obtain ⟨n, hn⟩ := t
  cases n with
  | zero => exact rfl
  | succ n => exact (dif_pos h0).trans ((dif_neg h1).trans rfl)

/-- `outsAt0` at a point of a middle key block: over what the point before left. -/
theorem outsAt0_B (c : Dev nD) (t : Fin cfg0.N) (h0 : ¬t.val % 16 = 0) (h1 : ¬t.val % 16 = 15) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk V c 0 t) (iblk V c 1 t) (iblk V c 2 t) (iblk V c 3 t) (iblk V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk V c 0 t) (iblk V c 1 t) (iblk V c 2 t) (iblk V c 3 t) (iblk V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk V c 0 t) (iblk V c 1 t) (iblk V c 2 t) (iblk V c 3 t) (iblk V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk V c 0 t) (iblk V c 1 t) (iblk V c 2 t) (iblk V c 3 t) (iblk V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of the last key block: over what the point before left. -/
theorem outsAt0_C (c : Dev nD) (t : Fin cfg0.N) (h0 : ¬t.val % 16 = 0) (h1 : t.val % 16 = 15) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk V c 0 t) (iblk V c 1 t) (iblk V c 2 t) (iblk V c 3 t) (iblk V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk V c 0 t) (iblk V c 1 t) (iblk V c 2 t) (iblk V c 3 t) (iblk V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk V c 0 t) (iblk V c 1 t) (iblk V c 2 t) (iblk V c 3 t) (iblk V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk V c 0 t) (iblk V c 1 t) (iblk V c 2 t) (iblk V c 3 t) (iblk V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch operand at anything);
    afterwards the three scratch operands at what the point before left in them, and the generator register at some state. -/
def PhiS (c : Dev nD) : (n : ℕ) → n ≤ cfg0.N → sProp 𝕄
  | 0, _ => Pipeline.ΦA spec0 c
  | n + 1, hn => iprop(iprop(owns (c : Thread nD τ) scM0_0 fullShare (outsAt0 V c n hn).2.1 ∗ owns (c : Thread nD τ) scM0_1 fullShare (outsAt0 V c n hn).2.2.1 ∗ owns (c : Thread nD τ) scM0_2 fullShare (outsAt0 V c n hn).2.2.2) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (outsAt0 V c n hn).2.1 ∗ owns (c : Thread nD τ) scM0_1 fullShare (outsAt0 V c n hn).2.2.1 ∗ owns (c : Thread nD τ) scM0_2 fullShare (outsAt0 V c n hn).2.2.2) ∗ (∃ r, prngReg c r)) := rfl

theorem PhiS_pos (c : Dev nD) (n : ℕ) (h : n ≤ cfg0.N) (hz : n ≠ 0) :
    PhiS V c n h = iprop(iprop(owns (c : Thread nD τ) scM0_0 fullShare (outsAt0 V c (n - 1) (by omega)).2.1 ∗ owns (c : Thread nD τ) scM0_1 fullShare (outsAt0 V c (n - 1) (by omega)).2.2.1 ∗ owns (c : Thread nD τ) scM0_2 fullShare (outsAt0 V c (n - 1) (by omega)).2.2.2) ∗ (∃ r, prngReg c r)) := by
  cases n with
  | zero => exact absurd rfl hz
  | succ n => rfl

/-! ## The pipeline's proof data -/

/-- The proof data on core `c`: the arrays as the region finds them; after the body at point `t` each input's buffer at
    its block and the output's at `outsAt0`'s first component; the tracking invariant; the two windows on one array
    holding half of it each; nothing owed. -/
def dats (_ : Fin 1) (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt0 V c t.val t.isLt).1
  Φ t := PhiS V c t.val (Nat.le_of_lt_succ t.isLt)
  q := Cert.Spec.qShare
  owed _ := 0

theorem A_eq (c : Dev nD) (w : Fin cfg0.W) : (dats V 0 c).A w = V c (Pipeline.arrRef spec0 w) := by
  dsimp only [dats]

theorem q_eq (c : Dev nD) (w : Fin cfg0.W) : (dats V 0 c).q w = Cert.Spec.qShare w := by
  dsimp only [dats]

theorem PhiS_castSucc (c : Dev nD) (t : Fin cfg0.N) :
    (dats V 0 c).Φ t.castSucc = PhiS V c t.val (Nat.le_of_lt t.isLt) := by
  dsimp only [dats]; simp only [Fin.coe_castSucc]

theorem after0_0 (c : Dev nD) (t : Fin cfg0.N) : (dats V 0 c).after 0 t = iblk V c 0 t := by dsimp only [dats]
theorem after0_1 (c : Dev nD) (t : Fin cfg0.N) : (dats V 0 c).after 1 t = iblk V c 1 t := by dsimp only [dats]
theorem after0_2 (c : Dev nD) (t : Fin cfg0.N) : (dats V 0 c).after 2 t = iblk V c 2 t := by dsimp only [dats]
theorem after0_3 (c : Dev nD) (t : Fin cfg0.N) : (dats V 0 c).after 3 t = iblk V c 3 t := by dsimp only [dats]
theorem after0_4 (c : Dev nD) (t : Fin cfg0.N) : (dats V 0 c).after 4 t = iblk V c 4 t := by dsimp only [dats]
theorem after0_5 (c : Dev nD) (t : Fin cfg0.N) : (dats V 0 c).after 5 t = (outsAt0 V c t.val t.isLt).1 := by dsimp only [dats]

theorem before0_0 (c : Dev nD) (t : Fin cfg0.N) (d) : (dats V 0 c).before 0 t d = iblk V c 0 t :=
  before0_0_of V (dats V 0 c) (A_eq V c 0) (after0_0 V c) t d
theorem before0_1 (c : Dev nD) (t : Fin cfg0.N) (d) : (dats V 0 c).before 1 t d = iblk V c 1 t :=
  before0_1_of V (dats V 0 c) (A_eq V c 1) (after0_1 V c) t d
theorem before0_2 (c : Dev nD) (t : Fin cfg0.N) (d) : (dats V 0 c).before 2 t d = iblk V c 2 t :=
  before0_2_of V (dats V 0 c) (A_eq V c 2) (after0_2 V c) t d
theorem before0_3 (c : Dev nD) (t : Fin cfg0.N) (d) : (dats V 0 c).before 3 t d = iblk V c 3 t :=
  before0_3_of V (dats V 0 c) (A_eq V c 3) (after0_3 V c) t d
theorem before0_4 (c : Dev nD) (t : Fin cfg0.N) (d) : (dats V 0 c).before 4 t d = iblk V c 4 t :=
  before0_4_of V (dats V 0 c) (A_eq V c 4) (after0_4 V c) t d

/-! ## The body obligation, at a generic point -/

/-- What the body is called with at point `t`, -/
def bodyPre (c : Dev nD) (t : Fin cfg0.N) : sProp 𝕄 :=
  iprop((dats V 0 c).Φ t.castSucc ∗ (dats V 0 c).owesAt () t.castSucc
    ∗ (∃ d, owns (c : Thread nD τ) (ms0_0 t) fullShare ((dats V 0 c).before 0 t d))
    ∗ (∃ d, owns (c : Thread nD τ) (ms0_1 t) fullShare ((dats V 0 c).before 1 t d))
    ∗ (∃ d, owns (c : Thread nD τ) (ms0_2 t) fullShare ((dats V 0 c).before 2 t d))
    ∗ (∃ d, owns (c : Thread nD τ) (ms0_3 t) fullShare ((dats V 0 c).before 3 t d))
    ∗ (∃ d, owns (c : Thread nD τ) (ms0_4 t) fullShare ((dats V 0 c).before 4 t d))
    ∗ (∃ d, owns (c : Thread nD τ) (ms0_5 t) fullShare ((dats V 0 c).before 5 t d)))

/-- and what it returns. -/
def bodyPost (c : Dev nD) (t : Fin cfg0.N) : sProp 𝕄 :=
  iprop((dats V 0 c).Φ t.succ ∗ (dats V 0 c).owesAt () t.succ
    ∗ (dats V 0 c).leavesExact 0 t
    ∗ (dats V 0 c).leavesExact 1 t
    ∗ (dats V 0 c).leavesExact 2 t
    ∗ (dats V 0 c).leavesExact 3 t
    ∗ (dats V 0 c).leavesExact 4 t
    ∗ (dats V 0 c).leavesExact 5 t)

set_option maxHeartbeats 8000000 in
/-- The body at any point: the inputs' buffers hold their blocks; the closed forms say which case the point is in; the
    invariant hands the body the scratch operands at what the point before left (at anything at the very first point)
    and takes them back at this point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4]
  rw [show (dats V 0 c).owesAt () t.succ = (dats V 0 c).owesAt () t.castSucc from rfl]
  rw [show (dats V 0 c).Φ t.succ = PhiS V c (t.val + 1) t.isLt from rfl, PhiS_succ]
  have hN : t.val < 64 := lt_of_lt_of_eq t.isLt (show cfg0.N = 64 from N_0)
  by_cases h0 : t.val % 16 = 0
  · by_cases h1 : t.val % 16 = 15
    · exfalso; omega
    ·
      rw [show (dats V 0 c).leavesExact 0 t = owns (c : Thread nD τ) (ms0_0 t) fullShare ((dats V 0 c).after 0 t) from by
        unfold Dat.leavesExact; rw [liveAt0_0 t], after0_0]
      rw [show (dats V 0 c).leavesExact 1 t = owns (c : Thread nD τ) (ms0_1 t) fullShare ((dats V 0 c).after 1 t) from by
        unfold Dat.leavesExact; rw [liveAt0_1 t], after0_1]
      rw [show (dats V 0 c).leavesExact 2 t = owns (c : Thread nD τ) (ms0_2 t) fullShare ((dats V 0 c).after 2 t) from by
        unfold Dat.leavesExact; rw [liveAt0_2 t], after0_2]
      rw [show (dats V 0 c).leavesExact 3 t = owns (c : Thread nD τ) (ms0_3 t) fullShare ((dats V 0 c).after 3 t) from by
        unfold Dat.leavesExact; rw [liveAt0_3 t], after0_3]
      rw [show (dats V 0 c).leavesExact 4 t = owns (c : Thread nD τ) (ms0_4 t) fullShare ((dats V 0 c).after 4 t) from by
        unfold Dat.leavesExact; rw [liveAt0_4 t], after0_4]
      rw [Dat.leavesExact_idle (dats V 0 c) 5 t (idleAt0_5 t (fun h => h1 ((hcond0_1 t).mp h))) (noFlush0_5 t (fun h => h1 ((hcond0_1 t).mp h)))]
      rw [outsAt0_A V c t h0 h1]
      unfold sout0_A_0 sout0_A_1 sout0_A_2; (try dsimp only)
      by_cases hz : t.val = 0
      ·
        rw [PhiS_castSucc V c t, PhiS_zero V c _ _ hz, PhiA0_eq]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ _ _ ((hcond0_0 t).mpr h0) (fun h => h1 ((hcond0_1 t).mp h)) (iblk V c 0 t) (iblk V c 1 t) (iblk V c 2 t) (iblk V c 3 t) (iblk V c 4 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      ·
        rw [PhiS_castSucc V c t, PhiS_pos V c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ _ _ ((hcond0_0 t).mpr h0) (fun h => h1 ((hcond0_1 t).mp h)) (iblk V c 0 t) (iblk V c 1 t) (iblk V c 2 t) (iblk V c 3 t) (iblk V c 4 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        isplitl [HS2]; · iexists _; iexact HS2
        iintro ⟨H0, H1, H2, H3, H4, H5, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 16 = 15
    ·
      rw [show (dats V 0 c).leavesExact 0 t = owns (c : Thread nD τ) (ms0_0 t) fullShare ((dats V 0 c).after 0 t) from by
        unfold Dat.leavesExact; rw [liveAt0_0 t], after0_0]
      rw [show (dats V 0 c).leavesExact 1 t = owns (c : Thread nD τ) (ms0_1 t) fullShare ((dats V 0 c).after 1 t) from by
        unfold Dat.leavesExact; rw [liveAt0_1 t], after0_1]
      rw [show (dats V 0 c).leavesExact 2 t = owns (c : Thread nD τ) (ms0_2 t) fullShare ((dats V 0 c).after 2 t) from by
        unfold Dat.leavesExact; rw [liveAt0_2 t], after0_2]
      rw [show (dats V 0 c).leavesExact 3 t = owns (c : Thread nD τ) (ms0_3 t) fullShare ((dats V 0 c).after 3 t) from by
        unfold Dat.leavesExact; rw [liveAt0_3 t], after0_3]
      rw [show (dats V 0 c).leavesExact 4 t = owns (c : Thread nD τ) (ms0_4 t) fullShare ((dats V 0 c).after 4 t) from by
        unfold Dat.leavesExact; rw [liveAt0_4 t], after0_4]
      rw [show (dats V 0 c).leavesExact 5 t = owns (c : Thread nD τ) (ms0_5 t) fullShare ((dats V 0 c).after 5 t) from by
        unfold Dat.leavesExact; rw [liveAt0_5 t ((hcond0_1 t).mpr h1)], after0_5]
      rw [outsAt0_C V c t h0 h1]
      unfold out0_C_5 sout0_C_0 sout0_C_1 sout0_C_2; (try dsimp only)
      by_cases hz : t.val = 0
      · exfalso; omega
      ·
        rw [PhiS_castSucc V c t, PhiS_pos V c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ _ _ (fun h => h0 ((hcond0_0 t).mp h)) ((hcond0_1 t).mpr h1) (iblk V c 0 t) (iblk V c 1 t) (iblk V c 2 t) (iblk V c 3 t) (iblk V c 4 t) _ _ _).2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        iintro ⟨H0, H1, H2, H3, H4, ⟨%e5, H5⟩, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _)
            unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _ _ _ _ _ _ _)
    ·
      rw [show (dats V 0 c).leavesExact 0 t = owns (c : Thread nD τ) (ms0_0 t) fullShare ((dats V 0 c).after 0 t) from by
        unfold Dat.leavesExact; rw [liveAt0_0 t], after0_0]
      rw [show (dats V 0 c).leavesExact 1 t = owns (c : Thread nD τ) (ms0_1 t) fullShare ((dats V 0 c).after 1 t) from by
        unfold Dat.leavesExact; rw [liveAt0_1 t], after0_1]
      rw [show (dats V 0 c).leavesExact 2 t = owns (c : Thread nD τ) (ms0_2 t) fullShare ((dats V 0 c).after 2 t) from by
        unfold Dat.leavesExact; rw [liveAt0_2 t], after0_2]
      rw [show (dats V 0 c).leavesExact 3 t = owns (c : Thread nD τ) (ms0_3 t) fullShare ((dats V 0 c).after 3 t) from by
        unfold Dat.leavesExact; rw [liveAt0_3 t], after0_3]
      rw [show (dats V 0 c).leavesExact 4 t = owns (c : Thread nD τ) (ms0_4 t) fullShare ((dats V 0 c).after 4 t) from by
        unfold Dat.leavesExact; rw [liveAt0_4 t], after0_4]
      rw [Dat.leavesExact_idle (dats V 0 c) 5 t (idleAt0_5 t (fun h => h1 ((hcond0_1 t).mp h))) (noFlush0_5 t (fun h => h1 ((hcond0_1 t).mp h)))]
      rw [outsAt0_B V c t h0 h1]
      unfold sout0_B_0 sout0_B_1 sout0_B_2; (try dsimp only)
      by_cases hz : t.val = 0
      · exfalso; omega
      ·
        rw [PhiS_castSucc V c t, PhiS_pos V c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ _ _ (fun h => h0 ((hcond0_0 t).mp h)) (fun h => h1 ((hcond0_1 t).mp h)) (iblk V c 0 t) (iblk V c 1 t) (iblk V c 2 t) (iblk V c 3 t) (iblk V c 4 t) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _)
            unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation (c : Dev nD) : BodyObligation (dats (F := F) V 0 c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dats V 0 c).Φ 0 := by
  rw [show (dats V 0 c).Φ 0 = PhiS V c 0 (Nat.zero_le _) from rfl, PhiS_zero V c 0 _ rfl]
  try exact Idealize.SL.BI.Entails.refl _

/-- After any point but the first the invariant gives the class's back: the scratch operands' contents are forgotten. -/
theorem Phi_out (c : Dev nD) (t : Fin (cfg0.N + 1)) (ht : t.val ≠ 0) : (dats V 0 c).Φ t ⊢ Pipeline.ΦA spec0 c := by
  rw [show (dats V 0 c).Φ t = PhiS V c t.val (Nat.le_of_lt_succ t.isLt) from rfl, PhiS_pos V c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-- The same after the last point. -/
theorem hout (c : Dev nD) : (dats V 0 c).Φ (Fin.last cfg0.N) ⊢ Pipeline.ΦA spec0 c :=
  Phi_out V c _ (by rw [Fin.val_last]; have : cfg0.N = 64 := N_0; omega)

end Cert.Kernel.Hand

end
-- ==== Proof.LibSharedTrack.lean ====
/-
  A pipelined kernel region whose INPUT windows may stage one array several times over (two input windows reading one
  operand at different blocks), with an invariant the certificate states grid point by grid point.

  With distinct arrays the region holds each array whole.  Here the certificate says how ownership of the buffers
  behind the arrays, each whole at its contents when the region is entered, is dealt among the windows (`hsplit`: an
  array read through two windows is split in two fractions, one per window).  The proof data's invariant is free: it
  may say what the body carries in its scratch buffers from one grid point to the next, provided the class invariant
  (every scratch buffer at anything, the generator register at some state) yields it before the first point (`hin`)
  and it yields the class invariant back after the last (`hout`).  The region is the last thing the program does:
  host lines may come before it (`hmain`), none after.  The conclusion reads, in the final state, every window's
  array at what the write-backs made of it and every other unscoped buffer at what it held when the region was
  entered.
-/
import Idealize.ShloMosaic.Lib.Pipeline.Frame

noncomputable section

namespace Idealize.ShloMosaic

open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}

namespace Pipeline

open Idealize.ShloMosaic.Rounds

section SharedTrack

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- THE RUN of a program that ends in a region whose windows may share arrays, with a TRACKING invariant: at the
    compiled mesh, for any values, from any memory with zero counters, every weakly fair execution of the program on
    the TensorCores terminates, and every final state has each window's array at what the library computes from the
    proof data (`Dat.arrAt … N`: windows on one array end holding the same contents) and every other unscoped buffer at
    its contents `V` at the region's entry.  The certificate supplies the windows' layout but for the arrays'
    distinctness (`hw`), the proof data with its body obligation, the program up to the region (`hmain`) with the
    buffers' contents there (`V`), how the buffers behind the arrays, each whole at `V`, make the windows' holdings at
    entry (`hsplit`), and the two ends of its invariant (`hin`, `hout`). -/
theorem θ_run_frame_shared_track
    (hcell : Function.Injective (cellOf (nD := nD) (τ := τ) cfgs))
    (hw : WinFacts₀ (cfg).spec)
    (hne : ∀ w : Fin (cfg).W, 0 < ((cfg).spec w).block.numel)
    (harr : ∀ w : Fin (cfg).W, ((cfg).spec w).arr.IsWhole)
    (hstage : ∀ (w : Fin (cfg).W) (s : Fin ((cfg).spec w).nbuf), (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hin : ∀ c, ΦA (cfg).spec c ⊢ (dats p c).Φ 0)
    (hout : ∀ c, (dats p c).Φ (Fin.last (cfg).N) ⊢ ΦA (cfg).spec c) :
    θ_run 𝔻 (onTc main) (s₀ m g) (FramePost cfgs dats p V) := by
  classical
  exact θ_run_region_pf (fun q => (cfgs q).toPCfg (Val := Val)) (fun q => (cfgs q).toPCfg_adm) dats () hcell p hw
    (OwnSemFacts.none (cfg).spec) (PreFacts.none _) emb₁ defs₀ 𝒱₀ m g main hbody hne harr hstage howed
    (G := fun _ => iprop(emp))
    (u₀ := initOf (cells (pin (fun q => (cfgs q).toPCfg (Val := Val)) (fun q => (cfgs q).toPCfg_adm)) hcell)
      (launchToks (pin (fun q => (cfgs q).toPCfg (Val := Val)) (fun q => (cfgs q).toPCfg_adm)) hcell))
    (hu₀ := by
      iintro Hu; imodintro
      isplitl [Hu]
      · iapply (show (ownU _ : sProp 𝕄) ⊢ BI.own (emb₁ (initOf (cells (pin (fun q => (cfgs q).toPCfg (Val := Val)) (fun q => (cfgs q).toPCfg_adm)) hcell)
          (launchToks (pin (fun q => (cfgs q).toPCfg (Val := Val)) (fun q => (cfgs q).toPCfg_adm)) hcell))) from .rfl); iexact Hu
      iapply (show (BI.emp : sProp 𝕄) ⊢ bigSep Finset.univ (fun _ : Dev nD => (BI.emp : sProp 𝕄)) from by rw [BI.bigSep_emp_const])
      iempintro)
    (V := V) (hmain := hmain) (hsplit := hsplit)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfg).spec c (V c))
    (hX := fun c => by
      iintro ⟨HU, -, -, -, Hp, -⟩; imodintro
      isplitl [Hp]; · iexists _; iexact Hp
      iexact HU)
    (hin := fun c => (show _ ⊢ ΦA (cfg).spec c from by
      unfold ΦA
      iintro ⟨Hp, -, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (QY := fun c s => ∀ b ∈ restRefsP sig Prefetch.none (cfg).spec, s.mem ((c.tc : Thread nD τ).loc b) = V c b)
    (hY := fun c s' => by
      iintro ⟨-, HU, HSI⟩
      unfold unscopedRestP
      imodintro
      iapply (pointsTo_read_all (restRefsP sig Prefetch.none (cfg).spec) (fun b => (c.tc : Thread nD τ).loc b) (V c) s')
      isplitl [HU] <;> iassumption)
    (hQ := fun s h c => ⟨(h c).1, fun b hb => (h c).2.2 b (Finset.mem_sdiff.mpr ⟨hb, fun hk => by
      obtain ⟨k, -, -⟩ := Finset.mem_image.mp hk
      exact k.elim0⟩)⟩)

end SharedTrack

end Pipeline

end Idealize.ShloMosaic

end
-- ==== Proof.K.Launch.lean ====
/-
  The launch of the kernel: from an obligation on the kernel's body to the run of the whole program.

  The program runs its host operations, which leave the rows scaled to unit length and the rows in the narrower
  format beside the two arguments, and then one pipelined region over a grid of 64 points; nothing follows the region.
  The region's first and third input windows read one array, the scaled rows; each holds half of it while the region
  runs.  The invariant carried from grid point to grid point is the proof data's own: it may say what the kernel's
  scratch holds after each point.
-/
import proofs.«402759_j45397804319035_3_alg».proof.Proof.Gen.Kernel.Launch
import proofs.«402759_j45397804319035_3_alg».proof.Proof.Gen.Kernel.Skeleton
import proofs.«402759_j45397804319035_3_alg».proof.Proof.Gen.Kernel.Points
import proofs.«402759_j45397804319035_3_alg».proof.Proof.Shares
import proofs.«402759_j45397804319035_3_alg».proof.Proof.LibSharedTrack
import Idealize.ShloMosaic.Lib.Pipeline.Frame
import Idealize.ShloMosaic.Lib.StableHlo.Run
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Facts₀

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffer contents when the region is entered, as a valuation: the launch contents after the host
    operations before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host operation writes the first argument. -/
theorem V_main_arg0 (c : Dev nD) : V m c main_arg0 = m ((c : Thread nD τ).loc main_arg0) := by
  dsimp only [V, V0]; simp only [hostOps0, List.flatten_cons, List.flatten_nil, List.append_nil]; after_results

/-- No host operation writes the second argument. -/
theorem V_main_arg1 (c : Dev nD) : V m c main_arg1 = m ((c : Thread nD τ).loc main_arg1) := by
  dsimp only [V, V0]; simp only [hostOps0, List.flatten_cons, List.flatten_nil, List.append_nil]; after_results

/-! ## The program up to the region -/

/-- The host operations allocate nothing. -/
theorem hostOps0_fresh : (hostOps0 : List (HloOp τ sig (Elt F))).Forall fun op => op.fresh = ∅ := by
  simp only [List.Forall]; repeat' constructor

/-- The program is its host operations and then the region: holding the unscoped buffers at the launch contents, it
    reduces to the region and the return holding them at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (show List.Forall _ [hostOps0] from hostOps0_sub)
    (show List.Forall _ [hostOps0] from hostOps0_fresh) main_chain

/-! ## The arrays dealt among the windows -/

/-- Each window's share of its array: the proof data's own for an input, the whole for the output. -/
theorem share_eq {c : Dev nD} (dat : Dat τ (Elt F) Unit ℕ (UR sig nD τ) ℕ cfg0 c)
    (hq : ∀ w, dat.q w = Cert.Spec.qShare w) (w : Fin 6) : dat.share w = Cert.Spec.qShare w := by
  unfold Dat.share
  fin_cases w
  · exact (if_neg Bool.false_ne_true).trans (hq 0)
  · exact (if_neg Bool.false_ne_true).trans (hq 1)
  · exact (if_neg Bool.false_ne_true).trans (hq 2)
  · exact (if_neg Bool.false_ne_true).trans (hq 3)
  · exact (if_neg Bool.false_ne_true).trans (hq 4)
  · exact if_pos rfl

/-- The buffers behind the windows' arrays, one by one: five buffers for six windows. -/
theorem arrBufs0_eq (c : Dev nD) (W : (b : Ref sig .tc) → Buf (Elt F) ((c : Thread nD τ).loc b)) :
    (Pipeline.arrBufs spec0 c W : sProp 𝕄)
      = iprop((((c : Thread nD τ).loc main_v10) ↦{fullShare} W main_v10) ∗ (((c : Thread nD τ).loc main_arg0) ↦{fullShare} W main_arg0)
          ∗ (((c : Thread nD τ).loc main_v11) ↦{fullShare} W main_v11) ∗ (((c : Thread nD τ).loc main_arg1) ↦{fullShare} W main_arg1)
          ∗ (((c : Thread nD τ).loc main_v12) ↦{fullShare} W main_v12)) :=
  Idealize.SL.BI.bigSep_eq_bigSepL_of_eq [main_v10, main_arg0, main_v11, main_arg1, main_v12] (by decide) (by decide) _

/-- The five buffers behind the six windows' arrays, each whole at contents `W`, make the windows' holdings at the
    same contents: the scaled rows, read by the first and the third window, are split in two halves, one per window;
    every other buffer goes whole to its one window. -/
theorem arrays_split0 {c : Dev nD} (dat : Dat τ (Elt F) Unit ℕ (UR sig nD τ) ℕ cfg0 c)
    (hq : ∀ w, dat.q w = Cert.Spec.qShare w)
    (W : (b : Ref sig .tc) → Buf (Elt F) ((c : Thread nD τ).loc b))
    (G : (w : Fin cfg0.W) → Buf (Elt F) ((cfg0.win w).arr.view.loc (c : Thread nD τ)))
    (hG : ∀ w, G w = W (Pipeline.arrRef spec0 w)) :
    (Pipeline.arrBufs spec0 c W : sProp 𝕄) ⊢ dat.arrays G := by
  unfold Dat.arrays
  rw [bigSep_W0, arrBufs0_eq]
  rw [share_eq dat hq 0, share_eq dat hq 1, share_eq dat hq 2, share_eq dat hq 3, share_eq dat hq 4, share_eq dat hq 5,
    hG 0, hG 1, hG 2, hG 3, hG 4, hG 5,
    (arr_whole0 0).set_eq_univ, (arr_whole0 1).set_eq_univ, (arr_whole0 3).set_eq_univ,
    (arr_whole0 4).set_eq_univ, (arr_whole0 5).set_eq_univ]
  iintro ⟨H10, H0, H11, H1, H12⟩
  ihave HS := (pointsTo_share (PosShare.mem_left_op_right fullShare)).1 $$ H10
  icases HS with ⟨HL, HR⟩
  isplitl [HL]; · iexact HL
  isplitl [H0]; · iexact H0
  isplitl [HR]; · iexact HR
  isplitl [H11]; · iexact H11
  isplitl [H1]; · iexact H1
  iexact H12

/-! ## The run -/

/-- THE RUN from a body obligation. For proof data whose windows hold the shares of `Cert.Spec.qShare` (`hq`), whose
    arrays are the contents at the region's entry (`hA`), that owe nothing, that meet the body obligation at every grid
    point, and whose invariant the class invariant yields before the first point and that yields it back after the last:
    at the compiled mesh, for any values, from any memory with zero counters, every weakly fair execution of the program
    on the TensorCores terminates, and every final state has each window's array at what the write-backs made of it
    and every other unscoped buffer at what it held when the region was entered. -/
theorem run_of_body (dats : (p : Fin 1) → (c : Dev nD) → Pipeline.Dat τ (Elt F) Unit ℕ (UR sig nD τ) ℕ (cfgs p) c)
    (hq : ∀ c w, (dats 0 c).q w = Cert.Spec.qShare w)
    (hbody : ∀ c, Pipeline.BodyObligationLoose (dats 0 c) defs₀ Variants.none () Set.univ)
    (howed : ∀ c t, (dats 0 c).owed t = 0)
    (hA : ∀ c w, (dats 0 c).A w = V m c (Pipeline.arrRef spec0 w))
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) ⟨m, fun _ => 0, ρ⟩ (fun r => ∀ c : Dev nD,
      (∀ w, r.2.mem ((spec0 w).arr.view.loc (c.tc : Thread nD τ)) = (dats 0 c).arrAt w cfg0.N)
      ∧ ∀ b ∈ Pipeline.restRefs sig spec0, r.2.mem ((c.tc : Thread nD τ).loc b) = V m c b) :=
  Pipeline.θ_run_frame_shared_track cfgs dats (0 : Fin 1) defs₀ Variants.none cellOf_inj winFacts₀0 block_pos0 arr_whole0 stage_whole0
    m ρ main hbody howed (V m) (hmain m Variants.none)
    (fun c => arrays_split0 (dats 0 c) (hq c) (V m c) _ fun w => hA c w) hin hout

/-- THE FRAME from a body obligation: under the same hypotheses the program leaves both of its arguments as it found
    them. The first argument is the second window's array and the second argument the fifth window's, both inputs: an
    input's array is never written, and at the region's entry each holds its launch contents. -/
theorem frame_of_body (dats : (p : Fin 1) → (c : Dev nD) → Pipeline.Dat τ (Elt F) Unit ℕ (UR sig nD τ) ℕ (cfgs p) c)
    (hq : ∀ c w, (dats 0 c).q w = Cert.Spec.qShare w)
    (hbody : ∀ c, Pipeline.BodyObligationLoose (dats 0 c) defs₀ Variants.none () Set.univ)
    (howed : ∀ c t, (dats 0 c).owed t = 0)
    (hA : ∀ c w, (dats 0 c).A w = V m c (Pipeline.arrRef spec0 w))
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 1).trans (((dats 0 c).arrAt_in 1 rfl _).trans ((hA c 1).trans (V_main_arg0 m c))),
     ((h c).1 4).trans (((dats 0 c).arrAt_in 4 rfl _).trans ((hA c 4).trans (V_main_arg1 m c)))⟩)
    (run_of_body m ρ dats hq hbody howed hA hin hout)

end Cert.Kernel.Hand

end
-- ==== Proof.KI.Runs.lean ====
/-
  What the three runs of the kernel body share.  The body branches twice on the second grid coordinate `k` (the key
  block): at `k = 0` it first resets the three running quantities it keeps in scratch (the running maximum to −∞, the
  two running sums to 0); at `k = 15`, the last key block, it finally divides the weighted sum by the plain one and
  stores the result block.  So a grid point is in one of three cases — first key block, a middle one, last one — and
  the output window is written only in the last.  Here: the two conditions in closed form over the 64 points, where
  the output window is idle and where it is written back, the staging and scratch memrefs the body is called with,
  and each input window's buffer holding its block at every point.  All of it at any float instance and over any
  contents `V` of the buffers at the region's entry.
-/
import proofs.«402759_j45397804319035_3_alg».proof.Proof.Gen.KernelIdeal.Launch
import proofs.«402759_j45397804319035_3_alg».proof.Proof.Gen.KernelIdeal.Skeleton
import proofs.«402759_j45397804319035_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof data
    whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first key block": the condition of the body's first branch, from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last key block": the condition of the body's second branch. -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Window 3 is never idle (an input). -/
theorem liveAt0_3 : ∀ t : Fin cfg0.N, cfg0.idle 3 (grid0.coords t) = false := by decide +kernel
/-- Window 4 is never idle (an input). -/
theorem liveAt0_4 : ∀ t : Fin cfg0.N, cfg0.idle 4 (grid0.coords t) = false := by decide +kernel
/-- Before the last key block the output window is idle: the body stores nothing into it, -/
theorem idleAt0_5 : ∀ t : Fin cfg0.N, ¬cond0_1 (grid0.coords t) → cfg0.idle 5 (grid0.coords t) = true := by decide +kernel
/-- and its block is not written back there. -/
theorem noFlush0_5 : ∀ t : Fin cfg0.N, ¬cond0_1 (grid0.coords t) → (cfg0.win 5).flush t = false := by decide +kernel
/-- At the last key block it is live. -/
theorem liveAt0_5 : ∀ t : Fin cfg0.N, cond0_1 (grid0.coords t) → cfg0.idle 5 (grid0.coords t) = false := by decide +kernel

/-! ## The memrefs the body is called with -/

/-- One staging buffer of the output window, through which its contents are stated. -/
abbrev VO0_5 : View sig .tc .vmem S2048x512 .f32 := (Memref.whole cc0_stg5_0 : Memref sig .tc .vmem S2048x512 .f32).view
abbrev ms0_0 (t : Fin cfg0.N) : Memref sig .tc .vmem S2048x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x512 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x512 .f32 := win0_5.stage (cfg0.slots t 5)
abbrev hs0_5 (t : Fin cfg0.N) : (ms0_5 t).IsWhole := hstage0_5 ((cfg0.slots t 5).cast nbuf0_5)
/-- The scratch operands: the running maximum, the running sum, the running weighted sum. -/
abbrev scM0_0 : Memref sig .tc .vmem S2048x1 .f32 := Memref.whole cc0_scratch0
abbrev scM0_1 : Memref sig .tc .vmem S2048x1 .f32 := Memref.whole cc0_scratch1
abbrev scM0_2 : Memref sig .tc .vmem S2048x512 .f32 := Memref.whole cc0_scratch2
abbrev VS0_0 : View sig .tc .vmem S2048x1 .f32 := scM0_0.view
abbrev VS0_1 : View sig .tc .vmem S2048x1 .f32 := scM0_1.view
abbrev VS0_2 : View sig .tc .vmem S2048x512 .f32 := scM0_2.view

/-- The class invariant with the three scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.KI.RunA.lean ====
/-
  The kernel body run at a point of the FIRST key block (the first branch taken, the second not): the three scratch operands are reset, then updated.  The run is symbolic: on whole memrefs — the five input buffers at their
  contents, the output buffer at contents it hands back untouched, the scratch operands at anything — the body reaches its
  continuation with the inputs as they were and every buffer it stored into holding the stored pieces, which the run
  itself finds (they are the first components of the result).
-/
import proofs.«402759_j45397804319035_3_alg».proof.Proof.KI.Runs

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the run's proof term is large
set_option maxHeartbeats 4000000 in
/-- The pieces the body's stores leave (last first) in the output buffer and in the three scratch operands, with the proof
    that the body runs to its continuation holding them. -/
noncomputable def kernelRun0_A (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : cond0_0 i) (hc1 : ¬cond0_1 i)
    (x0 : Vec F S2048x512 .bf16) (x1 : Vec F S2048x512 .f32) (x2 : Vec F S512x512 .bf16) (x3 : Vec F S512x512 .bf16) (x4 : Vec F S2048x512 .i32) :
    Σ' (L5 : List (View.Piece (Elt F) S2048x512 .f32)) (LS0 : List (View.Piece (Elt F) S2048x1 .f32)) (LS1 : List (View.Piece (Elt F) S2048x1 .f32)), { LS2 : List (View.Piece (Elt F) S2048x512 .f32) //
      ∀ (xi5 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__cn_kernel i arg2 harg2 arg3 harg3 arg4 harg4 arg5 harg5 arg6 harg6 arg7 harg7 arg8 harg8 arg9 harg9 arg10 harg10) K } := by
  refine ⟨[], ?_, ?_, ?_, fun xi5 E K => ?run⟩
  case run =>
    simp only [cc0__cn_kernel_eq_skeleton]; unfold cc0__cn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Hand

end
-- ==== Proof.KI.RunB.lean ====
/-
  The kernel body run at a point of a MIDDLE key block (neither branch taken): the three scratch operands are updated over what the point before left.  The run is symbolic: on whole memrefs — the five input buffers at their
  contents, the output buffer at contents it hands back untouched, the scratch operands at what the point before left — the body reaches its
  continuation with the inputs as they were and every buffer it stored into holding the stored pieces, which the run
  itself finds (they are the first components of the result).
-/
import proofs.«402759_j45397804319035_3_alg».proof.Proof.KI.RunA

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the run's proof term is large
set_option maxHeartbeats 4000000 in
/-- The pieces the body's stores leave (last first) in the output buffer and in the three scratch operands, with the proof
    that the body runs to its continuation holding them. -/
noncomputable def kernelRun0_B (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : ¬cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) :
    Σ' (L5 : List (View.Piece (Elt F) S2048x512 .f32)) (LS0 : List (View.Piece (Elt F) S2048x1 .f32)) (LS1 : List (View.Piece (Elt F) S2048x1 .f32)), { LS2 : List (View.Piece (Elt F) S2048x512 .f32) //
      ∀ (xi5 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__cn_kernel i arg2 harg2 arg3 harg3 arg4 harg4 arg5 harg5 arg6 harg6 arg7 harg7 arg8 harg8 arg9 harg9 arg10 harg10) K } := by
  refine ⟨[], ?_, ?_, ?_, fun xi5 E K => ?run⟩
  case run =>
    simp only [cc0__cn_kernel_eq_skeleton]; unfold cc0__cn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Hand

end
-- ==== Proof.KI.RunC.lean ====
/-
  The kernel body run at a point of the LAST key block (the first branch not taken, the second taken): the scratch operands are updated and the result block is stored.  The run is symbolic: on whole memrefs — the five input buffers at their
  contents, the output buffer at anything, the scratch operands at what the point before left — the body reaches its
  continuation with the inputs as they were and every buffer it stored into holding the stored pieces, which the run
  itself finds (they are the first components of the result).
-/
import proofs.«402759_j45397804319035_3_alg».proof.Proof.KI.RunB

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the run's proof term is large
set_option maxHeartbeats 4000000 in
/-- The pieces the body's stores leave (last first) in the output buffer and in the three scratch operands, with the proof
    that the body runs to its continuation holding them. -/
noncomputable def kernelRun0_C (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) :
    Σ' (L5 : List (View.Piece (Elt F) S2048x512 .f32)) (LS0 : List (View.Piece (Elt F) S2048x1 .f32)) (LS1 : List (View.Piece (Elt F) S2048x1 .f32)), { LS2 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__cn_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__cn_kernel_eq_skeleton]; unfold cc0__cn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.KernelIdeal.Hand

end
-- ==== Proof.KI.Frame.lean ====
/-
  What the kernel leaves, case by case and point by point, and the body obligation.  Each of the three runs finds
  the pieces its stores leave in the output buffer and in the three scratch operands; read back, those are the
  contents after the point.  `outsAt0` strings them along the 64 grid points: a first key block resets the scratch
  operands and needs nothing from before; a middle or last key block starts from what the point before left.  The
  region invariant tracks the three scratch operands at exactly those contents, and the body obligation at a point
  is the run of the point's case.
-/
import proofs.«402759_j45397804319035_3_alg».proof.Proof.KI.RunC
import proofs.«402759_j45397804319035_3_alg».proof.Proof.Shares

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- This case stores nothing into the output buffer (the window is idle at its points and not written back there): a
    placeholder nothing consults. -/
def out0_A_5 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : cond0_0 i) (hc1 : ¬cond0_1 i)
    (x0 : Vec F S2048x512 .bf16) (x1 : Vec F S2048x512 .f32) (x2 : Vec F S512x512 .bf16) (x3 : Vec F S512x512 .bf16) (x4 : Vec F S2048x512 .i32) : Vec F S2048x512 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 hc0 hc1 x0 x1 x2 x3 x4).1)

/-- This case's stores into scratch operand 0 cover it. -/
theorem scover0_A_0 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : cond0_0 i) (hc1 : ¬cond0_1 i)
    (x0 : Vec F S2048x512 .bf16) (x1 : Vec F S2048x512 .f32) (x2 : Vec F S512x512 .bf16) (x3 : Vec F S512x512 .bf16) (x4 : Vec F S2048x512 .i32) (y : S2048x1.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).2.1 S2048x1.size (by sl_kernel_rfl) y

/-- What this case leaves in scratch operand 0: its pieces read back. -/
def sout0_A_0 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : cond0_0 i) (hc1 : ¬cond0_1 i)
    (x0 : Vec F S2048x512 .bf16) (x1 : Vec F S2048x512 .f32) (x2 : Vec F S512x512 .bf16) (x3 : Vec F S512x512 .bf16) (x4 : Vec F S2048x512 .i32) : Vec F S2048x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4).2.1)

/-- This case's stores into scratch operand 1 cover it. -/
theorem scover0_A_1 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : cond0_0 i) (hc1 : ¬cond0_1 i)
    (x0 : Vec F S2048x512 .bf16) (x1 : Vec F S2048x512 .f32) (x2 : Vec F S512x512 .bf16) (x3 : Vec F S512x512 .bf16) (x4 : Vec F S2048x512 .i32) (y : S2048x1.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).2.2.1 S2048x1.size (by sl_kernel_rfl) y

/-- What this case leaves in scratch operand 1: its pieces read back. -/
def sout0_A_1 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : cond0_0 i) (hc1 : ¬cond0_1 i)
    (x0 : Vec F S2048x512 .bf16) (x1 : Vec F S2048x512 .f32) (x2 : Vec F S512x512 .bf16) (x3 : Vec F S512x512 .bf16) (x4 : Vec F S2048x512 .i32) : Vec F S2048x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1 x2 x3 x4).2.2.1)

/-- This case's stores into scratch operand 2 cover it. -/
theorem scover0_A_2 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : cond0_0 i) (hc1 : ¬cond0_1 i)
    (x0 : Vec F S2048x512 .bf16) (x1 : Vec F S2048x512 .f32) (x2 : Vec F S512x512 .bf16) (x3 : Vec F S512x512 .bf16) (x4 : Vec F S2048x512 .i32) (y : S2048x512.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).2.2.2.1 S2048x512.size (by sl_kernel_rfl) y

/-- What this case leaves in scratch operand 2: its pieces read back. -/
def sout0_A_2 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : cond0_0 i) (hc1 : ¬cond0_1 i)
    (x0 : Vec F S2048x512 .bf16) (x1 : Vec F S2048x512 .f32) (x2 : Vec F S512x512 .bf16) (x3 : Vec F S512x512 .bf16) (x4 : Vec F S2048x512 .i32) : Vec F S2048x512 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 hc0 hc1 x0 x1 x2 x3 x4).2.2.2.1)

/-- This case stores nothing into the output buffer (the window is idle at its points and not written back there): a
    placeholder nothing consults. -/
def out0_B_5 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : ¬cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) : Vec F S2048x512 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 hc0 hc1 x0 x1 x2 x3 x4 xs0 xs1 xs2).1)

/-- This case's stores into scratch operand 0 cover it. -/
theorem scover0_B_0 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : ¬cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) (y : S2048x1.Idx) :
    ∃ pc ∈ (kernelRun0_B c i arg2 harg2 arg3 harg3 arg4 harg4 arg5 harg5 arg6 harg6 arg7 harg7 arg8 harg8 arg9 harg9 arg10 harg10 hc0 hc1 x0 x1 x2 x3 x4 xs0 xs1 xs2).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 xs0 xs1 xs2).2.1 S2048x1.size (by sl_kernel_rfl) y

/-- What this case leaves in scratch operand 0: its pieces read back. -/
def sout0_B_0 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : ¬cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) : Vec F S2048x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 xs0 xs1 xs2).2.1)

/-- This case's stores into scratch operand 1 cover it. -/
theorem scover0_B_1 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : ¬cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) (y : S2048x1.Idx) :
    ∃ pc ∈ (kernelRun0_B c i arg2 harg2 arg3 harg3 arg4 harg4 arg5 harg5 arg6 harg6 arg7 harg7 arg8 harg8 arg9 harg9 arg10 harg10 hc0 hc1 x0 x1 x2 x3 x4 xs0 xs1 xs2).2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 xs0 xs1 xs2).2.2.1 S2048x1.size (by sl_kernel_rfl) y

/-- What this case leaves in scratch operand 1: its pieces read back. -/
def sout0_B_1 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : ¬cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) : Vec F S2048x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 hc0 hc1 x0 x1 x2 x3 x4 xs0 xs1 xs2).2.2.1)

/-- This case's stores into scratch operand 2 cover it. -/
theorem scover0_B_2 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : ¬cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) (y : S2048x512.Idx) :
    ∃ pc ∈ (kernelRun0_B c i arg2 harg2 arg3 harg3 arg4 harg4 arg5 harg5 arg6 harg6 arg7 harg7 arg8 harg8 arg9 harg9 arg10 harg10 hc0 hc1 x0 x1 x2 x3 x4 xs0 xs1 xs2).2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 xs0 xs1 xs2).2.2.2.1 S2048x512.size (by sl_kernel_rfl) y

/-- What this case leaves in scratch operand 2: its pieces read back. -/
def sout0_B_2 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : ¬cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) : Vec F S2048x512 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 hc0 hc1 x0 x1 x2 x3 x4 xs0 xs1 xs2).2.2.2.1)

/-- The last key block's one store into the output buffer tiles its block, so it covers it. -/
theorem cover0_C_5 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) (y : S2048x512.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xs0 xs1 xs2).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xs0 xs1 xs2).1 S2048x512.size (by sl_kernel_rfl) y

/-- What the last key block leaves in the output buffer: its pieces read back. -/
def out0_C_5 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) : Vec F S2048x512 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 hc0 hc1 x0 x1 x2 x3 x4 xs0 xs1 xs2).1)

/-- This case's stores into scratch operand 0 cover it. -/
theorem scover0_C_0 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) (y : S2048x1.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xs0 xs1 xs2).2.1 S2048x1.size (by sl_kernel_rfl) y

/-- What this case leaves in scratch operand 0: its pieces read back. -/
def sout0_C_0 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) : Vec F S2048x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 x4 xs0 xs1 xs2).2.1)

/-- This case's stores into scratch operand 1 cover it. -/
theorem scover0_C_1 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) (y : S2048x1.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xs0 xs1 xs2).2.2.1 S2048x1.size (by sl_kernel_rfl) y

/-- What this case leaves in scratch operand 1: its pieces read back. -/
def sout0_C_1 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) : Vec F S2048x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 x0 x1 x2 x3 x4 xs0 xs1 xs2).2.2.1)

/-- This case's stores into scratch operand 2 cover it. -/
theorem scover0_C_2 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) (y : S2048x512.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xs0 xs1 xs2).2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xs0 xs1 xs2).2.2.2.1 S2048x512.size (by sl_kernel_rfl) y

/-- What this case leaves in scratch operand 2: its pieces read back. -/
def sout0_C_2 (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) : Vec F S2048x512 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 hc0 hc1 x0 x1 x2 x3 x4 xs0 xs1 xs2).2.2.2.1)

/-! ## What the output buffer and the scratch operands hold after each point -/

/-- After the body at position `n`: the output buffer, then the running maximum, the running sum and the running weighted
    sum — the case the closed forms select at `n`, run at the point's memrefs and input blocks, over what position
    `n - 1` left in the scratch operands (the first key block resets them and needs nothing). -/
def outsAt0 (c : Dev nD) : (n : ℕ) → n < cfg0.N → Vec F S2048x512 .f32 × Vec F S2048x1 .f32 × Vec F S2048x1 .f32 × Vec F S2048x512 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩))
  | n + 1, hn =>
    if h0 : (n + 1) % 16 = 0 then
      if h1 : (n + 1) % 16 = 15 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩))
    else
      if h1 : (n + 1) % 16 = 15 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn)).2.1 (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn)).2.1 (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn)).2.1 (outsAt0 c n (Nat.lt_of_succ_lt hn)).2.2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn)).2.1 (outsAt0 c n (Nat.lt_of_succ_lt hn)).2.2.1 (outsAt0 c n (Nat.lt_of_succ_lt hn)).2.2.2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn)).2.1 (outsAt0 c n (Nat.lt_of_succ_lt hn)).2.2.1 (outsAt0 c n (Nat.lt_of_succ_lt hn)).2.2.2)

/-- `outsAt0` at a point of the first key block. -/
theorem outsAt0_A (c : Dev nD) (t : Fin cfg0.N) (h0 : t.val % 16 = 0) (h1 : ¬t.val % 16 = 15) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk V c 0 t) (iblk V c 1 t) (iblk V c 2 t) (iblk V c 3 t) (iblk V c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk V c 0 t) (iblk V c 1 t) (iblk V c 2 t) (iblk V c 3 t) (iblk V c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk V c 0 t) (iblk V c 1 t) (iblk V c 2 t) (iblk V c 3 t) (iblk V c 4 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk V c 0 t) (iblk V c 1 t) (iblk V c 2 t) (iblk V c 3 t) (iblk V c 4 t)) := by
  obtain ⟨n, hn⟩ := t
  cases n with
  | zero => exact rfl
  | succ n => exact (dif_pos h0).trans ((dif_neg h1).trans rfl)

/-- `outsAt0` at a point of a middle key block: over what the point before left. -/
theorem outsAt0_B (c : Dev nD) (t : Fin cfg0.N) (h0 : ¬t.val % 16 = 0) (h1 : ¬t.val % 16 = 15) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk V c 0 t) (iblk V c 1 t) (iblk V c 2 t) (iblk V c 3 t) (iblk V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk V c 0 t) (iblk V c 1 t) (iblk V c 2 t) (iblk V c 3 t) (iblk V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk V c 0 t) (iblk V c 1 t) (iblk V c 2 t) (iblk V c 3 t) (iblk V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk V c 0 t) (iblk V c 1 t) (iblk V c 2 t) (iblk V c 3 t) (iblk V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of the last key block: over what the point before left. -/
theorem outsAt0_C (c : Dev nD) (t : Fin cfg0.N) (h0 : ¬t.val % 16 = 0) (h1 : t.val % 16 = 15) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk V c 0 t) (iblk V c 1 t) (iblk V c 2 t) (iblk V c 3 t) (iblk V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk V c 0 t) (iblk V c 1 t) (iblk V c 2 t) (iblk V c 3 t) (iblk V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk V c 0 t) (iblk V c 1 t) (iblk V c 2 t) (iblk V c 3 t) (iblk V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk V c 0 t) (iblk V c 1 t) (iblk V c 2 t) (iblk V c 3 t) (iblk V c 4 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch operand at anything);
    afterwards the three scratch operands at what the point before left in them, and the generator register at some state. -/
def PhiS (c : Dev nD) : (n : ℕ) → n ≤ cfg0.N → sProp 𝕄
  | 0, _ => Pipeline.ΦA spec0 c
  | n + 1, hn => iprop(iprop(owns (c : Thread nD τ) scM0_0 fullShare (outsAt0 V c n hn).2.1 ∗ owns (c : Thread nD τ) scM0_1 fullShare (outsAt0 V c n hn).2.2.1 ∗ owns (c : Thread nD τ) scM0_2 fullShare (outsAt0 V c n hn).2.2.2) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (outsAt0 V c n hn).2.1 ∗ owns (c : Thread nD τ) scM0_1 fullShare (outsAt0 V c n hn).2.2.1 ∗ owns (c : Thread nD τ) scM0_2 fullShare (outsAt0 V c n hn).2.2.2) ∗ (∃ r, prngReg c r)) := rfl

theorem PhiS_pos (c : Dev nD) (n : ℕ) (h : n ≤ cfg0.N) (hz : n ≠ 0) :
    PhiS V c n h = iprop(iprop(owns (c : Thread nD τ) scM0_0 fullShare (outsAt0 V c (n - 1) (by omega)).2.1 ∗ owns (c : Thread nD τ) scM0_1 fullShare (outsAt0 V c (n - 1) (by omega)).2.2.1 ∗ owns (c : Thread nD τ) scM0_2 fullShare (outsAt0 V c (n - 1) (by omega)).2.2.2) ∗ (∃ r, prngReg c r)) := by
  cases n with
  | zero => exact absurd rfl hz
  | succ n => rfl

/-! ## The pipeline's proof data -/

/-- The proof data on core `c`: the arrays as the region finds them; after the body at point `t` each input's buffer at
    its block and the output's at `outsAt0`'s first component; the tracking invariant; the two windows on one array
    holding half of it each; nothing owed. -/
def dats (_ : Fin 1) (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt0 V c t.val t.isLt).1
  Φ t := PhiS V c t.val (Nat.le_of_lt_succ t.isLt)
  q := Cert.Spec.qShare
  owed _ := 0

theorem A_eq (c : Dev nD) (w : Fin cfg0.W) : (dats V 0 c).A w = V c (Pipeline.arrRef spec0 w) := by
  dsimp only [dats]

theorem q_eq (c : Dev nD) (w : Fin cfg0.W) : (dats V 0 c).q w = Cert.Spec.qShare w := by
  dsimp only [dats]

theorem PhiS_castSucc (c : Dev nD) (t : Fin cfg0.N) :
    (dats V 0 c).Φ t.castSucc = PhiS V c t.val (Nat.le_of_lt t.isLt) := by
  dsimp only [dats]; simp only [Fin.coe_castSucc]

theorem after0_0 (c : Dev nD) (t : Fin cfg0.N) : (dats V 0 c).after 0 t = iblk V c 0 t := by dsimp only [dats]
theorem after0_1 (c : Dev nD) (t : Fin cfg0.N) : (dats V 0 c).after 1 t = iblk V c 1 t := by dsimp only [dats]
theorem after0_2 (c : Dev nD) (t : Fin cfg0.N) : (dats V 0 c).after 2 t = iblk V c 2 t := by dsimp only [dats]
theorem after0_3 (c : Dev nD) (t : Fin cfg0.N) : (dats V 0 c).after 3 t = iblk V c 3 t := by dsimp only [dats]
theorem after0_4 (c : Dev nD) (t : Fin cfg0.N) : (dats V 0 c).after 4 t = iblk V c 4 t := by dsimp only [dats]
theorem after0_5 (c : Dev nD) (t : Fin cfg0.N) : (dats V 0 c).after 5 t = (outsAt0 V c t.val t.isLt).1 := by dsimp only [dats]

theorem before0_0 (c : Dev nD) (t : Fin cfg0.N) (d) : (dats V 0 c).before 0 t d = iblk V c 0 t :=
  before0_0_of V (dats V 0 c) (A_eq V c 0) (after0_0 V c) t d
theorem before0_1 (c : Dev nD) (t : Fin cfg0.N) (d) : (dats V 0 c).before 1 t d = iblk V c 1 t :=
  before0_1_of V (dats V 0 c) (A_eq V c 1) (after0_1 V c) t d
theorem before0_2 (c : Dev nD) (t : Fin cfg0.N) (d) : (dats V 0 c).before 2 t d = iblk V c 2 t :=
  before0_2_of V (dats V 0 c) (A_eq V c 2) (after0_2 V c) t d
theorem before0_3 (c : Dev nD) (t : Fin cfg0.N) (d) : (dats V 0 c).before 3 t d = iblk V c 3 t :=
  before0_3_of V (dats V 0 c) (A_eq V c 3) (after0_3 V c) t d
theorem before0_4 (c : Dev nD) (t : Fin cfg0.N) (d) : (dats V 0 c).before 4 t d = iblk V c 4 t :=
  before0_4_of V (dats V 0 c) (A_eq V c 4) (after0_4 V c) t d

/-! ## The body obligation, at a generic point -/

/-- What the body is called with at point `t`, -/
def bodyPre (c : Dev nD) (t : Fin cfg0.N) : sProp 𝕄 :=
  iprop((dats V 0 c).Φ t.castSucc ∗ (dats V 0 c).owesAt () t.castSucc
    ∗ (∃ d, owns (c : Thread nD τ) (ms0_0 t) fullShare ((dats V 0 c).before 0 t d))
    ∗ (∃ d, owns (c : Thread nD τ) (ms0_1 t) fullShare ((dats V 0 c).before 1 t d))
    ∗ (∃ d, owns (c : Thread nD τ) (ms0_2 t) fullShare ((dats V 0 c).before 2 t d))
    ∗ (∃ d, owns (c : Thread nD τ) (ms0_3 t) fullShare ((dats V 0 c).before 3 t d))
    ∗ (∃ d, owns (c : Thread nD τ) (ms0_4 t) fullShare ((dats V 0 c).before 4 t d))
    ∗ (∃ d, owns (c : Thread nD τ) (ms0_5 t) fullShare ((dats V 0 c).before 5 t d)))

/-- and what it returns. -/
def bodyPost (c : Dev nD) (t : Fin cfg0.N) : sProp 𝕄 :=
  iprop((dats V 0 c).Φ t.succ ∗ (dats V 0 c).owesAt () t.succ
    ∗ (dats V 0 c).leavesExact 0 t
    ∗ (dats V 0 c).leavesExact 1 t
    ∗ (dats V 0 c).leavesExact 2 t
    ∗ (dats V 0 c).leavesExact 3 t
    ∗ (dats V 0 c).leavesExact 4 t
    ∗ (dats V 0 c).leavesExact 5 t)

set_option maxHeartbeats 8000000 in
/-- The body at any point: the inputs' buffers hold their blocks; the closed forms say which case the point is in; the
    invariant hands the body the scratch operands at what the point before left (at anything at the very first point)
    and takes them back at this point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4]
  rw [show (dats V 0 c).owesAt () t.succ = (dats V 0 c).owesAt () t.castSucc from rfl]
  rw [show (dats V 0 c).Φ t.succ = PhiS V c (t.val + 1) t.isLt from rfl, PhiS_succ]
  have hN : t.val < 64 := lt_of_lt_of_eq t.isLt (show cfg0.N = 64 from N_0)
  by_cases h0 : t.val % 16 = 0
  · by_cases h1 : t.val % 16 = 15
    · exfalso; omega
    ·
      rw [show (dats V 0 c).leavesExact 0 t = owns (c : Thread nD τ) (ms0_0 t) fullShare ((dats V 0 c).after 0 t) from by
        unfold Dat.leavesExact; rw [liveAt0_0 t], after0_0]
      rw [show (dats V 0 c).leavesExact 1 t = owns (c : Thread nD τ) (ms0_1 t) fullShare ((dats V 0 c).after 1 t) from by
        unfold Dat.leavesExact; rw [liveAt0_1 t], after0_1]
      rw [show (dats V 0 c).leavesExact 2 t = owns (c : Thread nD τ) (ms0_2 t) fullShare ((dats V 0 c).after 2 t) from by
        unfold Dat.leavesExact; rw [liveAt0_2 t], after0_2]
      rw [show (dats V 0 c).leavesExact 3 t = owns (c : Thread nD τ) (ms0_3 t) fullShare ((dats V 0 c).after 3 t) from by
        unfold Dat.leavesExact; rw [liveAt0_3 t], after0_3]
      rw [show (dats V 0 c).leavesExact 4 t = owns (c : Thread nD τ) (ms0_4 t) fullShare ((dats V 0 c).after 4 t) from by
        unfold Dat.leavesExact; rw [liveAt0_4 t], after0_4]
      rw [Dat.leavesExact_idle (dats V 0 c) 5 t (idleAt0_5 t (fun h => h1 ((hcond0_1 t).mp h))) (noFlush0_5 t (fun h => h1 ((hcond0_1 t).mp h)))]
      rw [outsAt0_A V c t h0 h1]
      unfold sout0_A_0 sout0_A_1 sout0_A_2; (try dsimp only)
      by_cases hz : t.val = 0
      ·
        rw [PhiS_castSucc V c t, PhiS_zero V c _ _ hz, PhiA0_eq]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ _ _ ((hcond0_0 t).mpr h0) (fun h => h1 ((hcond0_1 t).mp h)) (iblk V c 0 t) (iblk V c 1 t) (iblk V c 2 t) (iblk V c 3 t) (iblk V c 4 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      ·
        rw [PhiS_castSucc V c t, PhiS_pos V c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ _ _ ((hcond0_0 t).mpr h0) (fun h => h1 ((hcond0_1 t).mp h)) (iblk V c 0 t) (iblk V c 1 t) (iblk V c 2 t) (iblk V c 3 t) (iblk V c 4 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        isplitl [HS2]; · iexists _; iexact HS2
        iintro ⟨H0, H1, H2, H3, H4, H5, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 16 = 15
    ·
      rw [show (dats V 0 c).leavesExact 0 t = owns (c : Thread nD τ) (ms0_0 t) fullShare ((dats V 0 c).after 0 t) from by
        unfold Dat.leavesExact; rw [liveAt0_0 t], after0_0]
      rw [show (dats V 0 c).leavesExact 1 t = owns (c : Thread nD τ) (ms0_1 t) fullShare ((dats V 0 c).after 1 t) from by
        unfold Dat.leavesExact; rw [liveAt0_1 t], after0_1]
      rw [show (dats V 0 c).leavesExact 2 t = owns (c : Thread nD τ) (ms0_2 t) fullShare ((dats V 0 c).after 2 t) from by
        unfold Dat.leavesExact; rw [liveAt0_2 t], after0_2]
      rw [show (dats V 0 c).leavesExact 3 t = owns (c : Thread nD τ) (ms0_3 t) fullShare ((dats V 0 c).after 3 t) from by
        unfold Dat.leavesExact; rw [liveAt0_3 t], after0_3]
      rw [show (dats V 0 c).leavesExact 4 t = owns (c : Thread nD τ) (ms0_4 t) fullShare ((dats V 0 c).after 4 t) from by
        unfold Dat.leavesExact; rw [liveAt0_4 t], after0_4]
      rw [show (dats V 0 c).leavesExact 5 t = owns (c : Thread nD τ) (ms0_5 t) fullShare ((dats V 0 c).after 5 t) from by
        unfold Dat.leavesExact; rw [liveAt0_5 t ((hcond0_1 t).mpr h1)], after0_5]
      rw [outsAt0_C V c t h0 h1]
      unfold out0_C_5 sout0_C_0 sout0_C_1 sout0_C_2; (try dsimp only)
      by_cases hz : t.val = 0
      · exfalso; omega
      ·
        rw [PhiS_castSucc V c t, PhiS_pos V c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ _ _ (fun h => h0 ((hcond0_0 t).mp h)) ((hcond0_1 t).mpr h1) (iblk V c 0 t) (iblk V c 1 t) (iblk V c 2 t) (iblk V c 3 t) (iblk V c 4 t) _ _ _).2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        iintro ⟨H0, H1, H2, H3, H4, ⟨%e5, H5⟩, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _)
            unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _ _ _ _ _ _ _)
    ·
      rw [show (dats V 0 c).leavesExact 0 t = owns (c : Thread nD τ) (ms0_0 t) fullShare ((dats V 0 c).after 0 t) from by
        unfold Dat.leavesExact; rw [liveAt0_0 t], after0_0]
      rw [show (dats V 0 c).leavesExact 1 t = owns (c : Thread nD τ) (ms0_1 t) fullShare ((dats V 0 c).after 1 t) from by
        unfold Dat.leavesExact; rw [liveAt0_1 t], after0_1]
      rw [show (dats V 0 c).leavesExact 2 t = owns (c : Thread nD τ) (ms0_2 t) fullShare ((dats V 0 c).after 2 t) from by
        unfold Dat.leavesExact; rw [liveAt0_2 t], after0_2]
      rw [show (dats V 0 c).leavesExact 3 t = owns (c : Thread nD τ) (ms0_3 t) fullShare ((dats V 0 c).after 3 t) from by
        unfold Dat.leavesExact; rw [liveAt0_3 t], after0_3]
      rw [show (dats V 0 c).leavesExact 4 t = owns (c : Thread nD τ) (ms0_4 t) fullShare ((dats V 0 c).after 4 t) from by
        unfold Dat.leavesExact; rw [liveAt0_4 t], after0_4]
      rw [Dat.leavesExact_idle (dats V 0 c) 5 t (idleAt0_5 t (fun h => h1 ((hcond0_1 t).mp h))) (noFlush0_5 t (fun h => h1 ((hcond0_1 t).mp h)))]
      rw [outsAt0_B V c t h0 h1]
      unfold sout0_B_0 sout0_B_1 sout0_B_2; (try dsimp only)
      by_cases hz : t.val = 0
      · exfalso; omega
      ·
        rw [PhiS_castSucc V c t, PhiS_pos V c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ _ _ (fun h => h0 ((hcond0_0 t).mp h)) (fun h => h1 ((hcond0_1 t).mp h)) (iblk V c 0 t) (iblk V c 1 t) (iblk V c 2 t) (iblk V c 3 t) (iblk V c 4 t) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _)
            unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation (c : Dev nD) : BodyObligation (dats (F := F) V 0 c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dats V 0 c).Φ 0 := by
  rw [show (dats V 0 c).Φ 0 = PhiS V c 0 (Nat.zero_le _) from rfl, PhiS_zero V c 0 _ rfl]
  try exact Idealize.SL.BI.Entails.refl _

/-- After any point but the first the invariant gives the class's back: the scratch operands' contents are forgotten. -/
theorem Phi_out (c : Dev nD) (t : Fin (cfg0.N + 1)) (ht : t.val ≠ 0) : (dats V 0 c).Φ t ⊢ Pipeline.ΦA spec0 c := by
  rw [show (dats V 0 c).Φ t = PhiS V c t.val (Nat.le_of_lt_succ t.isLt) from rfl, PhiS_pos V c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-- The same after the last point. -/
theorem hout (c : Dev nD) : (dats V 0 c).Φ (Fin.last cfg0.N) ⊢ Pipeline.ΦA spec0 c :=
  Phi_out V c _ (by rw [Fin.val_last]; have : cfg0.N = 64 := N_0; omega)

end Cert.KernelIdeal.Hand

end
-- ==== Proof.KI.Launch.lean ====
/-
  The launch of the kernel: from an obligation on the kernel's body to the run of the whole program.

  The program runs its host operations, which leave the rows scaled to unit length and the rows in the narrower
  format beside the two arguments, and then one pipelined region over a grid of 64 points; nothing follows the region.
  The region's first and third input windows read one array, the scaled rows; each holds half of it while the region
  runs.  The invariant carried from grid point to grid point is the proof data's own: it may say what the kernel's
  scratch holds after each point.
-/
import proofs.«402759_j45397804319035_3_alg».proof.Proof.Gen.KernelIdeal.Launch
import proofs.«402759_j45397804319035_3_alg».proof.Proof.Gen.KernelIdeal.Skeleton
import proofs.«402759_j45397804319035_3_alg».proof.Proof.Gen.KernelIdeal.Points
import proofs.«402759_j45397804319035_3_alg».proof.Proof.Shares
import proofs.«402759_j45397804319035_3_alg».proof.Proof.LibSharedTrack
import Idealize.ShloMosaic.Lib.Pipeline.Frame
import Idealize.ShloMosaic.Lib.StableHlo.Run
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts₀

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffer contents when the region is entered, as a valuation: the launch contents after the host
    operations before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host operation writes the first argument. -/
theorem V_main_arg0 (c : Dev nD) : V m c main_arg0 = m ((c : Thread nD τ).loc main_arg0) := by
  dsimp only [V, V0]; simp only [hostOps0, List.flatten_cons, List.flatten_nil, List.append_nil]; after_results

/-- No host operation writes the second argument. -/
theorem V_main_arg1 (c : Dev nD) : V m c main_arg1 = m ((c : Thread nD τ).loc main_arg1) := by
  dsimp only [V, V0]; simp only [hostOps0, List.flatten_cons, List.flatten_nil, List.append_nil]; after_results

/-! ## The program up to the region -/

/-- The host operations allocate nothing. -/
theorem hostOps0_fresh : (hostOps0 : List (HloOp τ sig (Elt F))).Forall fun op => op.fresh = ∅ := by
  simp only [List.Forall]; repeat' constructor

/-- The program is its host operations and then the region: holding the unscoped buffers at the launch contents, it
    reduces to the region and the return holding them at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (show List.Forall _ [hostOps0] from hostOps0_sub)
    (show List.Forall _ [hostOps0] from hostOps0_fresh) main_chain

/-! ## The arrays dealt among the windows -/

/-- Each window's share of its array: the proof data's own for an input, the whole for the output. -/
theorem share_eq {c : Dev nD} (dat : Dat τ (Elt F) Unit ℕ (UR sig nD τ) ℕ cfg0 c)
    (hq : ∀ w, dat.q w = Cert.Spec.qShare w) (w : Fin 6) : dat.share w = Cert.Spec.qShare w := by
  unfold Dat.share
  fin_cases w
  · exact (if_neg Bool.false_ne_true).trans (hq 0)
  · exact (if_neg Bool.false_ne_true).trans (hq 1)
  · exact (if_neg Bool.false_ne_true).trans (hq 2)
  · exact (if_neg Bool.false_ne_true).trans (hq 3)
  · exact (if_neg Bool.false_ne_true).trans (hq 4)
  · exact if_pos rfl

/-- The buffers behind the windows' arrays, one by one: five buffers for six windows. -/
theorem arrBufs0_eq (c : Dev nD) (W : (b : Ref sig .tc) → Buf (Elt F) ((c : Thread nD τ).loc b)) :
    (Pipeline.arrBufs spec0 c W : sProp 𝕄)
      = iprop((((c : Thread nD τ).loc main_v10) ↦{fullShare} W main_v10) ∗ (((c : Thread nD τ).loc main_arg0) ↦{fullShare} W main_arg0)
          ∗ (((c : Thread nD τ).loc main_v11) ↦{fullShare} W main_v11) ∗ (((c : Thread nD τ).loc main_arg1) ↦{fullShare} W main_arg1)
          ∗ (((c : Thread nD τ).loc main_v12) ↦{fullShare} W main_v12)) :=
  Idealize.SL.BI.bigSep_eq_bigSepL_of_eq [main_v10, main_arg0, main_v11, main_arg1, main_v12] (by decide) (by decide) _

/-- The five buffers behind the six windows' arrays, each whole at contents `W`, make the windows' holdings at the
    same contents: the scaled rows, read by the first and the third window, are split in two halves, one per window;
    every other buffer goes whole to its one window. -/
theorem arrays_split0 {c : Dev nD} (dat : Dat τ (Elt F) Unit ℕ (UR sig nD τ) ℕ cfg0 c)
    (hq : ∀ w, dat.q w = Cert.Spec.qShare w)
    (W : (b : Ref sig .tc) → Buf (Elt F) ((c : Thread nD τ).loc b))
    (G : (w : Fin cfg0.W) → Buf (Elt F) ((cfg0.win w).arr.view.loc (c : Thread nD τ)))
    (hG : ∀ w, G w = W (Pipeline.arrRef spec0 w)) :
    (Pipeline.arrBufs spec0 c W : sProp 𝕄) ⊢ dat.arrays G := by
  unfold Dat.arrays
  rw [bigSep_W0, arrBufs0_eq]
  rw [share_eq dat hq 0, share_eq dat hq 1, share_eq dat hq 2, share_eq dat hq 3, share_eq dat hq 4, share_eq dat hq 5,
    hG 0, hG 1, hG 2, hG 3, hG 4, hG 5,
    (arr_whole0 0).set_eq_univ, (arr_whole0 1).set_eq_univ, (arr_whole0 3).set_eq_univ,
    (arr_whole0 4).set_eq_univ, (arr_whole0 5).set_eq_univ]
  iintro ⟨H10, H0, H11, H1, H12⟩
  ihave HS := (pointsTo_share (PosShare.mem_left_op_right fullShare)).1 $$ H10
  icases HS with ⟨HL, HR⟩
  isplitl [HL]; · iexact HL
  isplitl [H0]; · iexact H0
  isplitl [HR]; · iexact HR
  isplitl [H11]; · iexact H11
  isplitl [H1]; · iexact H1
  iexact H12

/-! ## The run -/

/-- THE RUN from a body obligation. For proof data whose windows hold the shares of `Cert.Spec.qShare` (`hq`), whose
    arrays are the contents at the region's entry (`hA`), that owe nothing, that meet the body obligation at every grid
    point, and whose invariant the class invariant yields before the first point and that yields it back after the last:
    at the compiled mesh, for any values, from any memory with zero counters, every weakly fair execution of the program
    on the TensorCores terminates, and every final state has each window's array at what the write-backs made of it
    and every other unscoped buffer at what it held when the region was entered. -/
theorem run_of_body (dats : (p : Fin 1) → (c : Dev nD) → Pipeline.Dat τ (Elt F) Unit ℕ (UR sig nD τ) ℕ (cfgs p) c)
    (hq : ∀ c w, (dats 0 c).q w = Cert.Spec.qShare w)
    (hbody : ∀ c, Pipeline.BodyObligationLoose (dats 0 c) defs₀ Variants.none () Set.univ)
    (howed : ∀ c t, (dats 0 c).owed t = 0)
    (hA : ∀ c w, (dats 0 c).A w = V m c (Pipeline.arrRef spec0 w))
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) ⟨m, fun _ => 0, ρ⟩ (fun r => ∀ c : Dev nD,
      (∀ w, r.2.mem ((spec0 w).arr.view.loc (c.tc : Thread nD τ)) = (dats 0 c).arrAt w cfg0.N)
      ∧ ∀ b ∈ Pipeline.restRefs sig spec0, r.2.mem ((c.tc : Thread nD τ).loc b) = V m c b) :=
  Pipeline.θ_run_frame_shared_track cfgs dats (0 : Fin 1) defs₀ Variants.none cellOf_inj winFacts₀0 block_pos0 arr_whole0 stage_whole0
    m ρ main hbody howed (V m) (hmain m Variants.none)
    (fun c => arrays_split0 (dats 0 c) (hq c) (V m c) _ fun w => hA c w) hin hout

/-- THE FRAME from a body obligation: under the same hypotheses the program leaves both of its arguments as it found
    them. The first argument is the second window's array and the second argument the fifth window's, both inputs: an
    input's array is never written, and at the region's entry each holds its launch contents. -/
theorem frame_of_body (dats : (p : Fin 1) → (c : Dev nD) → Pipeline.Dat τ (Elt F) Unit ℕ (UR sig nD τ) ℕ (cfgs p) c)
    (hq : ∀ c w, (dats 0 c).q w = Cert.Spec.qShare w)
    (hbody : ∀ c, Pipeline.BodyObligationLoose (dats 0 c) defs₀ Variants.none () Set.univ)
    (howed : ∀ c t, (dats 0 c).owed t = 0)
    (hA : ∀ c w, (dats 0 c).A w = V m c (Pipeline.arrRef spec0 w))
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 1).trans (((dats 0 c).arrAt_in 1 rfl _).trans ((hA c 1).trans (V_main_arg0 m c))),
     ((h c).1 4).trans (((dats 0 c).arrAt_in 4 rfl _).trans ((hA c 4).trans (V_main_arg1 m c)))⟩)
    (run_of_body m ρ dats hq hbody howed hA hin hout)

end Cert.KernelIdeal.Hand

end
-- ==== Proof.KI.HostTerm.lean ====
/-
  What the host lines before the kernel compute from the argument `x`: the rows scaled to unit length (the array two
  of the kernel's windows read), and `x` itself in the narrower format (the array the value window reads).  Stated
  once, at any float instance, as the very operations of the printed program.
-/
import proofs.«402759_j45397804319035_3_alg».proof.KernelIdeal

noncomputable section

namespace Cert.KernelIdeal.Hand

open Idealize.ShloMosaic Cert.KernelIdeal Cert.KernelIdeal.Facts₀

variable {F : FTy → Type} [FloatOps F] [Named F] [Cert.KernelIdeal.Facts]

/-- Each row of `x` times the reciprocal of its length (the length kept above the small constant). -/
def hostNrm (X : FVec F S8192x512 .f32) : FVec F S8192x512 .bf16 :=
  truncf .bf16
    (mulf X
      (broadcastInDim S8192x512 ![0, 1] bcast_S8192x1_S8192x512_0_1
        (Host.divf (broadcastInDim S8192x1 ![] bcast_S_S8192x1 (constant S_ .f32 0x3F800000#32))
          (maximumf
            (Host.sqrt
              (broadcastInDim S8192x1 ![0] bcast_S8192_S8192x1_0
                (Host.reduceAdd (mulf X X) (constant S_ .f32 0x00000000#32) reducesTo_S8192x512_S8192_d1 h_S_)))
            (broadcastInDim S8192x1 ![] bcast_S_S8192x1 (constant S_ .f32 0x2B8CBCCC#32))))))
    bitsLt_bf16_f32

/-- `x` in the narrower format. -/
def hostVal (X : FVec F S8192x512 .f32) : FVec F S8192x512 .bf16 := truncf .bf16 X bitsLt_bf16_f32

end Cert.KernelIdeal.Hand

end
-- ==== Proof.KI.LaunchHost.lean ====
/-
  What the two arrays the host operations prepare for the kernel hold when the region is entered: the rows of the first
  argument scaled to unit length, and the first argument in the narrower format.
-/
import proofs.«402759_j45397804319035_3_alg».proof.Proof.KI.Launch
import proofs.«402759_j45397804319035_3_alg».proof.Proof.KI.HostTerm

noncomputable section

namespace Cert.KernelIdeal.Hand

open Idealize.ShloMosaic Idealize.ShloMosaic.TcCoe Idealize.ShloMosaic.Tactic
open Idealize.SL.Sem
open Cert.KernelIdeal Cert.KernelIdeal.Gen Cert.KernelIdeal.Facts₀

variable {F : FTy → Type} [FloatOps F] [Named F]

variable (m : (ℓ : Loc nD τ sig) → Buf (Elt F) ℓ)

/-- The array two windows read holds the rows of the first argument scaled to unit length. -/
theorem V_main_v10 (c : Dev nD) : V m c main_v10 = hostNrm (m ((c : Thread nD τ).loc main_arg0)) := by
  unfold hostNrm
  dsimp only [V, V0]; simp only [hostOps0, List.flatten_cons, List.flatten_nil, List.append_nil]; after_results

/-- The value window's array holds the first argument in the narrower format. -/
theorem V_main_v11 (c : Dev nD) : V m c main_v11 = hostVal (m ((c : Thread nD τ).loc main_arg0)) := by
  unfold hostVal
  dsimp only [V, V0]; simp only [hostOps0, List.flatten_cons, List.flatten_nil, List.append_nil]; after_results

end Cert.KernelIdeal.Hand

end
-- ==== Proof.Spec.lean ====
/-
  The mathematics of the statement, free of both programs.

  A row `i` of the result is `2·xᵢ − Σⱼ softmax(sᵢ)ⱼ · xⱼ`, where `sᵢⱼ` is the inner product of the
  L2-normalised rows `i` and `j`, replaced by `−∞` wherever `aᵢⱼ > 0`.  One program takes the softmax of a whole
  row at once.  The other visits the row in blocks of `B` columns and carries three running quantities: the maximum
  of the scores seen so far, the sum of `exp (s − maximum)` over them, and the same sum weighted by the rows `xⱼ`;
  when a block raises the maximum the two sums are rescaled by `exp (old maximum − new maximum)`.  Both are stated
  here over plain functions of the indices; `pmax`, `pden`, `pacc` are the running quantities in closed form, over
  the positions below `n`.
-/
import Idealize.ShloMosaic.PureOps.Ideal

noncomputable section

namespace Cert.Spec

open Idealize.ShloMosaic

/-! ## A running softmax over one row of scores -/

section Row

variable {N : ℕ} (s : Fin N → EReal) (v : Fin N → EReal)

/-- The positions before `n`. -/
def below (N n : ℕ) : Finset (Fin N) := Finset.univ.filter fun j => j.val < n

/-- The largest score among the positions before `n` (`−∞` when there is none). -/
def pmax (n : ℕ) : EReal := (below N n).fold max ⊥ s

/-- The sum of `exp (score − running maximum)` over the positions before `n`. -/
def pden (n : ℕ) : EReal := ∑ j ∈ below N n, Ideal.exp (s j - pmax s n)

/-- The same sum with each term weighted by `v`. -/
def pacc (n : ℕ) : EReal := ∑ j ∈ below N n, Ideal.exp (s j - pmax s n) * v j

/-- Position `jj` of the block of `B` positions that starts at `n`. -/
def blk (n B : ℕ) (h : n + B ≤ N) (jj : Fin B) : Fin N := ⟨n + jj.val, by have := jj.isLt; omega⟩

/-- The largest score in that block. -/
def bmax (n B : ℕ) (h : n + B ≤ N) : EReal := Finset.univ.fold max ⊥ fun jj : Fin B => s (blk n B h jj)

end Row

/-! ## The statement's two sides -/

variable (x : Fin 8192 → Fin 512 → EReal) (a : Fin 8192 → Fin 8192 → BitVec 32)

/-- The length of row `i`, kept away from zero by the small constant both programs carry. -/
def rowNorm (i : Fin 8192) : EReal := max (Ideal.sqrt (∑ d, x i d * x i d)) (Ideal.ofBits .f32 0x2B8CBCCC#32)

/-- Row `i` scaled to unit length. -/
def nrm (i : Fin 8192) (d : Fin 512) : EReal := x i d * (rowNorm x i)⁻¹

/-- The similarity of rows `i` and `j`. -/
def score (i j : Fin 8192) : EReal := ∑ d, nrm x i d * nrm x j d

/-- The similarity, or `−∞` where the pair is masked (`a i j > 0`). -/
def masked (i j : Fin 8192) : EReal := if 0 < (a i j).toInt then ⊥ else score x i j

/-- The result with the softmax of a whole row: `2·x − 1·Σⱼ (exp (sᵢⱼ − Mᵢ) / Σⱼ' exp (sᵢⱼ' − Mᵢ))·xⱼ`. -/
def refOut (i : Fin 8192) (d : Fin 512) : EReal :=
  Ideal.ofBits .f32 0x40000000#32 * x i d
    - Ideal.ofBits .f32 0x3F800000#32 *
      ∑ j, Ideal.div (Ideal.exp (masked x a i j - Finset.univ.fold max ⊥ (masked x a i)))
          (∑ j', Ideal.exp (masked x a i j' - Finset.univ.fold max ⊥ (masked x a i))) * x j d

/-- The result from the running quantities after the whole row: the weighted sum divided by the plain one (by one
    where that is not positive). -/
def kerOut (i : Fin 8192) (d : Fin 512) : EReal :=
  Ideal.ofBits .f32 0x40000000#32 * x i d
    - Ideal.ofBits .f32 0x3F800000#32 *
      Ideal.div (pacc (masked x a i) (fun j => x j d) 8192)
        (if 0 < pden (masked x a i) 8192 then pden (masked x a i) 8192 else Ideal.ofBits .f32 0x3F800000#32)

/-- Every entry of `x` is a real number. -/
def Finite : Prop := ∀ i d, x i d ≠ ⊤ ∧ x i d ≠ ⊥

/-- Every row of `a` has a pair that is not masked. -/
def RowsOpen : Prop := ∀ i, ∃ j, (a i j).toInt ≤ 0

end Cert.Spec

end
-- ==== Proof.KI.Payload.lean ====
/-
  The arithmetic of the idealized kernel's body, read one entry at a time.

  The body works on a block of 2048 rows against a block of 512 columns.  For row `r` and column `jj` of the block it
  forms the masked score `s r jj` (the inner product of row `r` of `q` with row `jj` of `k`, or `−∞` where the mask entry is
  positive), then updates three running quantities of row `r`: the maximum `m' = max m (max_jj s r jj)`, the sum of weights
  `l' = exp (m − m') · l + Σ_jj exp (s r jj − m')`, and the weighted sum of the value rows
  `acc' = exp (m − m') · acc + Σ_jj exp (s r jj − m') · v jj`.  After the last block the result is `2·x − 1·(acc / l)`, the
  divisor replaced by one where `l` is not positive.  Each theorem below states one of these values at one index as a
  formula in the extended reals; a sum or a maximum along a row appears as a sum or a fold over `Fin 512`.

  Each step is stated once for arbitrary vectors (the lemmas of `PayAux`); the body's values are instances.

  The last two theorems read the two arrays the host lines prepare from `x`: its rows scaled to unit length (the length
  kept above a small positive constant, so that one over it is its inverse), and `x` itself.
-/
import proofs.«402759_j45397804319035_3_alg».proof.Proof.Gen.KernelIdeal.Skeleton
import proofs.«402759_j45397804319035_3_alg».proof.Proof.KI.HostTerm
import proofs.«402759_j45397804319035_3_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

namespace Cert.KernelIdeal.Hand

open Cert.KernelIdeal Cert.KernelIdeal.Gen
open Idealize.ShloMosaic Idealize.ShloMosaic.ValueIdx

variable [Cert.KernelIdeal.Facts]
namespace PayAux

/-! ## Two layout forms: a column kept as a unit axis -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, c)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

end Layout

/-! ## Words -/

/-- A select on "the word is positive as a signed integer" is the `if` on its integer value. -/
theorem select_sgt_zero {α : Type} (x : BitVec 32) (A B : α) :
    Scalar.select (IntOp.cmpi .sgt x 0#32) A B = if 0 < x.toInt then A else B := by
  unfold Scalar.select IntOp.cmpi
  by_cases h : 0 < x.toInt
  · rw [if_pos h, if_pos]
    simp [BitVec.slt, h]
  · rw [if_neg h, if_neg]
    simp [BitVec.slt, h]

/-- The mask constant the program names is `−∞`. -/
theorem neg_big_eq : Named.named (F := Ideal) Cert.KernelIdeal.κ "neg_big" (φ := .f32) 0xFF333332#32 = (⊥ : EReal) :=
  IdealRules.named_const.ideal_named_scalar _ _ _ _ rfl

/-! ## A row's maximum and a row's sum -/

/-- The index the row reductions insert coordinate `jj` into: row `r` at column `jj`. -/
theorem lift_row (r : Fin 2048) (jj : Fin 512) : reduces_S2048x512_S2048.lift (ix1 r) jj = ix2 r jj :=
  funext fun ax => match ax with | ⟨0, _⟩ => rfl | ⟨1, _⟩ => rfl

/-- The word the maximum starts from is `−∞`. -/
theorem neg_inf_word : Ideal.ofBits .f32 0xFF800000#32 = (⊥ : EReal) := by simp [Ideal.ofBits, Ideal.ieee]

/-- The maximum over the columns of row `r`, started from `−∞`. -/
theorem rowMax_apply (src : FVec Ideal S2048x512 .f32) (hφ : FKind.Formats .f32)
    (hacc : (0xFF800000#32 : BitVec 32) = FKind.maximumf.neutral .f32 hφ) (r : Fin 2048) :
    multiReduction .maximumf [1] S2048 src 0xFF800000#32 reduces_S2048x512_S2048 hφ hacc (ix1 r)
      = Finset.univ.fold max ⊥ fun jj : Fin 512 => src (ix2 r jj) := by
  refine (Ideal.multiReduction_maximumf_single src 0xFF800000#32 reduces_S2048x512_S2048 hφ hacc (ix1 r)).trans ?_
  show (Finset.univ : Finset (Fin 512)).fold max (Ideal.ofBits .f32 0xFF800000#32)
      (fun jj : Fin 512 => src (reduces_S2048x512_S2048.lift (ix1 r) jj)) = _
  rw [neg_inf_word]
  exact congrArg (Finset.univ.fold max ⊥) (funext fun jj => congrArg src (lift_row r jj))

/-- The sum over the columns of row `r`. -/
theorem rowSum_apply (src : FVec Ideal S2048x512 .f32) (hφ : FKind.Formats .f32)
    (hacc : (0x00000000#32 : BitVec 32) = FKind.add.neutral .f32 hφ) (r : Fin 2048) :
    multiReduction .add [1] S2048 src 0x00000000#32 reduces_S2048x512_S2048 hφ hacc (ix1 r)
      = ∑ jj : Fin 512, src (ix2 r jj) := by
  refine (Ideal.multiReduction_add_single src 0x00000000#32 reduces_S2048x512_S2048 hφ hacc (ix1 r)).trans ?_
  show ∑ jj : Fin 512, src (reduces_S2048x512_S2048.lift (ix1 r) jj) = _
  exact Finset.sum_congr rfl fun jj _ => congrArg src (lift_row r jj)

/-! ## The block's steps over arbitrary vectors

Each step of the block is read at an index once, over vectors that are plain variables; the program's values are
instances. -/

/-- A column against the row maxima of a matrix. -/
theorem max_rowMax_apply (m : FVec Ideal S2048x1 .f32) (s : FVec Ideal S2048x512 .f32) (hφ : FKind.Formats .f32)
    (hacc : (0xFF800000#32 : BitVec 32) = FKind.maximumf.neutral .f32 hφ) (r : Fin 2048) :
    maximumf m (shapeCast S2048x1 (multiReduction .maximumf [1] S2048 s 0xFF800000#32 reduces_S2048x512_S2048 hφ hacc)
        shapeCasts_S2048_S2048x1) (ix2 r (0 : Fin 1))
      = max (m (ix2 r 0)) (Finset.univ.fold max ⊥ fun jj : Fin 512 => s (ix2 r jj)) := by
  refine (maximumf_apply _ _ _).trans (congrArg (max (m (ix2 r 0))) ?_)
  exact (shapeCast_a_a1_apply _ _ r 0).trans (rowMax_apply s hφ hacc r)

/-- `exp` of a difference of two vectors of one shape. -/
theorem exp_sub_apply {s : Shape} (a b : FVec Ideal s .f32) (i : s.Idx) : exp (subf a b) i = Ideal.exp (a i - b i) := rfl

/-- `exp` of a matrix less a column spread along the rows. -/
theorem exp_sub_col_apply (s : FVec Ideal S2048x512 .f32) (m : FVec Ideal S2048x1 .f32) (r : Fin 2048) (jj : Fin 512) :
    exp (subf s (broadcastTo S2048x512 m broadcasts_S2048x1_S2048x512)) (ix2 r jj) = Ideal.exp (s (ix2 r jj) - m (ix2 r 0)) :=
  (exp_sub_apply _ _ _).trans (congrArg (fun z => Ideal.exp (s (ix2 r jj) - z)) (broadcastTo_a1_ab_apply m _ r jj))

/-- A column times a column, plus the row sums of a matrix. -/
theorem mul_add_rowSum_apply (e l : FVec Ideal S2048x1 .f32) (s : FVec Ideal S2048x512 .f32) (hφ : FKind.Formats .f32)
    (hacc : (0x00000000#32 : BitVec 32) = FKind.add.neutral .f32 hφ) (r : Fin 2048) :
    shapeCast S2048x1 (addf (mulf e l) (shapeCast S2048x1 (multiReduction .add [1] S2048 s 0x00000000#32 reduces_S2048x512_S2048 hφ hacc)
        shapeCasts_S2048_S2048x1)) shapeCasts_S2048x1_S2048x1 (ix2 r (0 : Fin 1))
      = e (ix2 r 0) * l (ix2 r 0) + ∑ jj : Fin 512, s (ix2 r jj) := by
  refine (congrFun (shapeCast_self _ _) _).trans ((addf_apply _ _ _).trans ?_)
  refine congrArg₂ (· + ·) (mulf_apply e l _) ?_
  exact (shapeCast_a_a1_apply _ _ r 0).trans (rowSum_apply s hφ hacc r)

/-! ## The first product: rows of `q` against rows of `k` -/

theorem lhs_qk_0 (i : S2048x512.Idx) (c : dot_S2048x512_S512x512_S2048x512_1_1_0_0_n_n.contr.Idx) :
    (dot_S2048x512_S512x512_S2048x512_1_1_0_0_n_n.lhsIdx i c 0).val = (i 0).val := by
  unfold DotDims.lhsIdx
  rw [dif_neg (show ¬(0 : Fin S2048x512.rank) ∈ dot_S2048x512_S512x512_S2048x512_1_1_0_0_n_n.lhsBatch by decide), dif_pos (show (0 : Fin S2048x512.rank) ∈ dot_S2048x512_S512x512_S2048x512_1_1_0_0_n_n.lhsNonContracting by decide)]
  rfl
theorem lhs_qk_1 (i : S2048x512.Idx) (c : dot_S2048x512_S512x512_S2048x512_1_1_0_0_n_n.contr.Idx) :
    (dot_S2048x512_S512x512_S2048x512_1_1_0_0_n_n.lhsIdx i c 1).val = (c ⟨0, by decide⟩).val :=
  dot_S2048x512_S512x512_S2048x512_1_1_0_0_n_n.lhsIdx_val_of_single rfl i c
theorem rhs_qk_0 (i : S2048x512.Idx) (c : dot_S2048x512_S512x512_S2048x512_1_1_0_0_n_n.contr.Idx) :
    (dot_S2048x512_S512x512_S2048x512_1_1_0_0_n_n.rhsIdx i c 0).val = (i 1).val := by
  unfold DotDims.rhsIdx
  rw [dif_neg (show ¬(0 : Fin S512x512.rank) ∈ dot_S2048x512_S512x512_S2048x512_1_1_0_0_n_n.rhsBatch by decide), dif_pos (show (0 : Fin S512x512.rank) ∈ dot_S2048x512_S512x512_S2048x512_1_1_0_0_n_n.rhsNonContracting by decide)]
  rfl
theorem rhs_qk_1 (i : S2048x512.Idx) (c : dot_S2048x512_S512x512_S2048x512_1_1_0_0_n_n.contr.Idx) :
    (dot_S2048x512_S512x512_S2048x512_1_1_0_0_n_n.rhsIdx i c 1).val = (c ⟨0, by decide⟩).val :=
  dot_S2048x512_S512x512_S2048x512_1_1_0_0_n_n.rhsIdx_val_of_single rfl i c

/-- Into the zero accumulator, entry `(r, jj)` of the first product is the inner product of row `r` of the left
    operand with row `jj` of the right one: both operands are contracted along their second axis. -/
theorem qk_apply (a : FVec Ideal S2048x512 .bf16) (b : FVec Ideal S512x512 .bf16) (r : Fin 2048) (jj : Fin 512) :
    matmul dot_S2048x512_S512x512_S2048x512_1_1_0_0_n_n none a b (constant (F := Ideal) S2048x512 .f32 0x00000000#32) (ix2 r jj)
      = ∑ e : Fin 512, a (ix2 r e) * b (ix2 jj e) := by
  simp only [matmul]
  rw [Ideal.matmul_constant_zero_apply, ← Equiv.sum_comp (contrEquiv1 dot_S2048x512_S512x512_S2048x512_1_1_0_0_n_n 512 rfl rfl).symm]
  refine Finset.sum_congr rfl fun e _ => ?_
  have he := contrEquiv1_symm_val dot_S2048x512_S512x512_S2048x512_1_1_0_0_n_n 512 rfl rfl e
  have el : dot_S2048x512_S512x512_S2048x512_1_1_0_0_n_n.lhsIdx (ix2 r jj) ((contrEquiv1 dot_S2048x512_S512x512_S2048x512_1_1_0_0_n_n 512 rfl rfl).symm e) = ix2 r e := funext fun ax => Fin.ext (by
    match ax with
    | ⟨0, _⟩ => exact lhs_qk_0 _ _
    | ⟨1, _⟩ => exact (lhs_qk_1 _ _).trans he)
  have er : dot_S2048x512_S512x512_S2048x512_1_1_0_0_n_n.rhsIdx (ix2 r jj) ((contrEquiv1 dot_S2048x512_S512x512_S2048x512_1_1_0_0_n_n 512 rfl rfl).symm e) = ix2 jj e := funext fun ax => Fin.ext (by
    match ax with
    | ⟨0, _⟩ => exact rhs_qk_0 _ _
    | ⟨1, _⟩ => exact (rhs_qk_1 _ _).trans he)
  rw [el, er]

/-! ## The second product: rows of the weights against columns of `v` -/

theorem lhs_pv_0 (i : S2048x512.Idx) (c : dot_S2048x512_S512x512_S2048x512_1_0_0_1_n_n.contr.Idx) :
    (dot_S2048x512_S512x512_S2048x512_1_0_0_1_n_n.lhsIdx i c 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem lhs_pv_1 (i : S2048x512.Idx) (c : dot_S2048x512_S512x512_S2048x512_1_0_0_1_n_n.contr.Idx) :
    (dot_S2048x512_S512x512_S2048x512_1_0_0_1_n_n.lhsIdx i c 1).val = (c ⟨0, by decide⟩).val :=
  dot_S2048x512_S512x512_S2048x512_1_0_0_1_n_n.lhsIdx_val_of_single rfl i c
theorem rhs_pv_0 (i : S2048x512.Idx) (c : dot_S2048x512_S512x512_S2048x512_1_0_0_1_n_n.contr.Idx) :
    (dot_S2048x512_S512x512_S2048x512_1_0_0_1_n_n.rhsIdx i c 0).val = (c ⟨0, by decide⟩).val :=
  dot_S2048x512_S512x512_S2048x512_1_0_0_1_n_n.rhsIdx_val_of_single rfl i c
theorem rhs_pv_1 (i : S2048x512.Idx) (c : dot_S2048x512_S512x512_S2048x512_1_0_0_1_n_n.contr.Idx) :
    (dot_S2048x512_S512x512_S2048x512_1_0_0_1_n_n.rhsIdx i c 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- Into the zero accumulator, entry `(r, d)` of the second product is row `r` of the left operand against column `d` of
    the right one: the left operand's second axis is contracted with the right operand's first. -/
theorem pv_apply (a : FVec Ideal S2048x512 .bf16) (b : FVec Ideal S512x512 .bf16) (r : Fin 2048) (d : Fin 512) :
    matmul dot_S2048x512_S512x512_S2048x512_1_0_0_1_n_n none a b (constant (F := Ideal) S2048x512 .f32 0x00000000#32) (ix2 r d)
      = ∑ jj : Fin 512, a (ix2 r jj) * b (ix2 jj d) := by
  simp only [matmul]
  rw [Ideal.matmul_constant_zero_apply, ← Equiv.sum_comp (contrEquiv1 dot_S2048x512_S512x512_S2048x512_1_0_0_1_n_n 512 rfl rfl).symm]
  refine Finset.sum_congr rfl fun jj _ => ?_
  have hj := contrEquiv1_symm_val dot_S2048x512_S512x512_S2048x512_1_0_0_1_n_n 512 rfl rfl jj
  have el : dot_S2048x512_S512x512_S2048x512_1_0_0_1_n_n.lhsIdx (ix2 r d) ((contrEquiv1 dot_S2048x512_S512x512_S2048x512_1_0_0_1_n_n 512 rfl rfl).symm jj) = ix2 r jj := funext fun ax => Fin.ext (by
    match ax with
    | ⟨0, _⟩ => exact lhs_pv_0 _ _
    | ⟨1, _⟩ => exact (lhs_pv_1 _ _).trans hj)
  have er : dot_S2048x512_S512x512_S2048x512_1_0_0_1_n_n.rhsIdx (ix2 r d) ((contrEquiv1 dot_S2048x512_S512x512_S2048x512_1_0_0_1_n_n 512 rfl rfl).symm jj) = ix2 jj d := funext fun ax => Fin.ext (by
    match ax with
    | ⟨0, _⟩ => exact (rhs_pv_0 _ _).trans hj
    | ⟨1, _⟩ => exact rhs_pv_1 _ _)
  rw [el, er]

/-- A select on "the first is greater" between extended reals is the `if` on the order. -/
theorem select_ogt {α : Type} (x y : EReal) (A B : α) :
    Scalar.select (Ideal.cmp .ogt x y) A B = if y < x then A else B := by
  unfold Scalar.select Ideal.cmp
  by_cases h : y < x
  · rw [if_pos h, if_pos]
    simp [h]
  · rw [if_neg h, if_neg]
    simp [h]

/-! ## The host lines before the kernel -/

section HostLines
variable {α : Type}

/-- A vector of length 8192 laid as a column reads its entry of the row. -/
theorem toCol_apply (v : S8192.Idx → α) (i : Fin 8192) :
    broadcastInDim S8192x1 ![0] bcast_S8192_S8192x1_0 v (ix2 i (0 : Fin 1)) = v (ix1 i) :=
  broadcastInDim_apply _ bcast_S8192_S8192x1_0 v (ix2 i (0 : Fin 1)) (ix1 i) (fun a => match a with
    | ⟨0, _⟩ => by show i.val = if (8192 : Nat) = 1 then 0 else i.val; rw [if_neg (by decide)])

/-- A scalar spread over a column reads the scalar. -/
theorem ofScalar_apply (v : S_.Idx → α) (j : S8192x1.Idx) :
    broadcastInDim S8192x1 ![] bcast_S_S8192x1 v j = v ix0 :=
  broadcastInDim_apply _ bcast_S_S8192x1 v j ix0 (fun a => a.elim0)

/-- A column spread along the rows reads the column's entry of the row. -/
theorem colSpread_apply (v : S8192x1.Idx → α) (i : Fin 8192) (d : Fin 512) :
    broadcastInDim S8192x512 ![0, 1] bcast_S8192x1_S8192x512_0_1 v (ix2 i d) = v (ix2 i (0 : Fin 1)) :=
  broadcastInDim_apply _ bcast_S8192x1_S8192x512_0_1 v (ix2 i d) (ix2 i (0 : Fin 1)) (fun a => match a with
    | ⟨0, _⟩ => by show i.val = if (8192 : Nat) = 1 then 0 else i.val; rw [if_neg (by decide)]
    | ⟨1, _⟩ => by show 0 = if (1 : Nat) = 1 then 0 else d.val; rw [if_pos rfl])

end HostLines

theorem reduces_S8192x512_S8192 : S8192x512.Reduces [1] S8192 := by decide

/-- The index the host's row sum inserts coordinate `e` into: row `i` at column `e`. -/
theorem lift_hostRow (i : Fin 8192) (e : Fin 512) : reduces_S8192x512_S8192.lift (ix1 i) e = ix2 i e :=
  funext fun ax => match ax with | ⟨0, _⟩ => rfl | ⟨1, _⟩ => rfl

/-- The host's sum of squares along row `i`, started from the zero word. -/
theorem sumSq_apply (X : FVec Ideal S8192x512 .f32) (i : Fin 8192) :
    Host.reduceAdd (mulf X X) (constant (F := Ideal) S_ .f32 0x00000000#32) reducesTo_S8192x512_S8192_d1 h_S_ (ix1 i)
      = ∑ e : Fin 512, X (ix2 i e) * X (ix2 i e) := by
  simp only [Host.reduceAdd, Ideal.hostReduceAdd_def]
  rw [Ideal.hostReduceAdd_single reducesTo_S8192x512_S8192_d1 reduces_S8192x512_S8192]
  show Ideal.ofBits .f32 0x00000000#32
      + ∑ e : Fin 512, X (reduces_S8192x512_S8192.lift (ix1 i) e) * X (reduces_S8192x512_S8192.lift (ix1 i) e) = _
  rw [Ideal.ofBits_zero_f32, zero_add]
  exact Finset.sum_congr rfl fun e _ => by rw [lift_hostRow]

/-- The word for one is one. -/
theorem one_word : Ideal.ofBits .f32 0x3F800000#32 = (1 : EReal) := by
  simp [Ideal.ofBits, Ideal.ieee]
  rw [← EReal.coe_mul, ← EReal.coe_one, EReal.coe_eq_coe_iff]
  norm_num

/-- The small constant that keeps a row's length away from zero is a positive real. -/
theorem small_word_pos : (0 : EReal) < Ideal.ofBits .f32 0x2B8CBCCC#32 := by
  simp [Ideal.ofBits, Ideal.ieee]
  rw [← EReal.coe_mul, EReal.coe_pos]
  positivity

/-- One divided by a positive length is its inverse. -/
theorem one_div_pos (R : EReal) (hR : 0 < R) : Ideal.div (Ideal.ofBits .f32 0x3F800000#32) R = R⁻¹ := by
  unfold Ideal.div
  rw [if_neg (ne_of_gt hR), one_word, one_mul]

end PayAux

open PayAux

/-! ## The body's values at an index -/

section Block
variable (q : Vec Ideal S2048x512 .bf16) (k vv : Vec Ideal S512x512 .bf16) (aj : Vec Ideal S2048x512 .i32)
  (mo mo' lo lo' : Vec Ideal S2048x1 .f32) (acc xq : Vec Ideal S2048x512 .f32) (p abc : FVec Ideal S2048x512 .f32)
  (r : Fin 2048) (jj d : Fin 512)

/-- A masked score: `−∞` where the mask entry is positive, else the inner product of row `r` of `q` with row `jj` of `k`. -/
theorem pay7_apply : k0_pay7 (F := Ideal) q k aj (ix2 r jj)
    = if 0 < (aj (ix2 r jj)).toInt then ⊥ else ∑ e : Fin 512, q (ix2 r e) * k (ix2 jj e) := by
  unfold k0_pay7
  show Scalar.select (IntOp.cmpi .sgt (aj (ix2 r jj)) 0#32)
      (Named.named (F := Ideal) Cert.KernelIdeal.κ "neg_big" (φ := .f32) 0xFF333332#32)
      (matmul dot_S2048x512_S512x512_S2048x512_1_1_0_0_n_n none
        (shapeCast S2048x512 q shapeCasts_S2048x512_S2048x512) (shapeCast S512x512 k shapeCasts_S512x512_S512x512)
        (constant (F := Ideal) S2048x512 .f32 0x00000000#32) (ix2 r jj)) = _
  rw [shapeCast_self, shapeCast_self, select_sgt_zero, neg_big_eq]
  exact congrArg (fun z => if 0 < (aj (ix2 r jj)).toInt then (⊥ : EReal) else z) (qk_apply q k r jj)

/-- The running maximum after the block: the old one against the block's largest masked score. -/
theorem pay8_apply : k0_pay8 (F := Ideal) q k aj mo (ix2 r (0 : Fin 1))
    = max (mo (ix2 r 0)) (Finset.univ.fold max ⊥ fun jj : Fin 512 => k0_pay7 (F := Ideal) q k aj (ix2 r jj)) := by
  unfold k0_pay8
  exact max_rowMax_apply mo (k0_pay7 (F := Ideal) q k aj) _ _ r

/-- The weight of a score: `exp` of the score less the new running maximum. -/
theorem pay10_apply : k0_pay10 (F := Ideal) q k aj mo (ix2 r jj)
    = Ideal.exp (k0_pay7 (F := Ideal) q k aj (ix2 r jj) - k0_pay8 (F := Ideal) q k aj mo (ix2 r 0)) := by
  unfold k0_pay10
  exact exp_sub_col_apply (k0_pay7 (F := Ideal) q k aj) (k0_pay8 (F := Ideal) q k aj mo) r jj

/-- The rescaling factor: `exp` of the old maximum less the new one. -/
theorem pay9_apply : k0_pay9 (F := Ideal) q k aj mo mo' (ix2 r (0 : Fin 1))
    = Ideal.exp (mo' (ix2 r 0) - k0_pay8 (F := Ideal) q k aj mo (ix2 r 0)) := by
  unfold k0_pay9
  exact exp_sub_apply mo' (k0_pay8 (F := Ideal) q k aj mo) (ix2 r (0 : Fin 1))

/-- The running sum of weights after the block: the old one rescaled, plus the block's weights. -/
theorem pay11_apply : k0_pay11 (F := Ideal) q k aj mo mo' lo (ix2 r (0 : Fin 1))
    = k0_pay9 (F := Ideal) q k aj mo mo' (ix2 r 0) * lo (ix2 r 0) + ∑ jj : Fin 512, k0_pay10 (F := Ideal) q k aj mo (ix2 r jj) := by
  unfold k0_pay11
  exact mul_add_rowSum_apply (k0_pay9 (F := Ideal) q k aj mo mo') lo (k0_pay10 (F := Ideal) q k aj mo) _ _ r

/-- The rescaling factor spread along the row. -/
theorem pay12_apply : k0_pay12 (F := Ideal) q k aj mo mo' (ix2 r d) = k0_pay9 (F := Ideal) q k aj mo mo' (ix2 r 0) := by
  unfold k0_pay12
  exact broadcastTo_a1_ab_apply (k0_pay9 (F := Ideal) q k aj mo mo') _ r d

/-- The running weighted sum after the block: the old one rescaled, plus the block's weights against the value rows.
    The weights enter the product in the narrower format, which changes nothing in the extended reals. -/
theorem pay1_apply : k0_pay1 (F := Ideal) p acc abc vv (ix2 r d)
    = abc (ix2 r d) * acc (ix2 r d) + ∑ jj : Fin 512, p (ix2 r jj) * vv (ix2 jj d) := by
  unfold k0_pay1
  refine (congrFun (shapeCast_self _ _) _).trans ((addf_apply _ _ _).trans ?_)
  refine congrArg₂ (· + ·) (mulf_apply abc acc _) ?_
  rw [shapeCast_self]
  exact pv_apply (truncf .bf16 p bitsLt_bf16_f32) vv r d

/-- The result after the last block: `2·x − 1·(acc / l')`, where the divisor `l'` is the stored sum of weights where
    the sum is positive and one where it is not. -/
theorem pay3_apply : k0_pay3 (F := Ideal) lo lo' acc xq (ix2 r d)
    = Ideal.ofBits .f32 0x40000000#32 * xq (ix2 r d)
      - Ideal.ofBits .f32 0x3F800000#32 * Ideal.div (acc (ix2 r d))
          (if 0 < lo (ix2 r 0) then lo' (ix2 r 0) else Ideal.ofBits .f32 0x3F800000#32) := by
  unfold k0_pay3
  show Ideal.ofBits .f32 0x40000000#32 * xq (ix2 r d)
      - Ideal.ofBits .f32 0x3F800000#32 * Ideal.div (acc (ix2 r d))
          (broadcastTo S2048x512
            (select (cmpf .ogt lo (broadcast S2048x1 (Ideal.ofBits .f32 0x00000000#32))) lo'
              (broadcast S2048x1 (Ideal.ofBits .f32 0x3F800000#32)))
            broadcasts_S2048x1_S2048x512 (ix2 r d)) = _
  rw [broadcastTo_a1_ab_apply]
  show Ideal.ofBits .f32 0x40000000#32 * xq (ix2 r d)
      - Ideal.ofBits .f32 0x3F800000#32 * Ideal.div (acc (ix2 r d))
          (Scalar.select (Ideal.cmp .ogt (lo (ix2 r 0)) (Ideal.ofBits .f32 0x00000000#32)) (lo' (ix2 r 0))
            (Ideal.ofBits .f32 0x3F800000#32)) = _
  rw [select_ogt, Ideal.ofBits_zero_f32]
/-- The running maximum starts at `−∞`. -/
theorem pay4_apply : k0_pay4 (F := Ideal) (ix2 r (0 : Fin 1)) = ⊥ := by
  unfold k0_pay4
  exact (congrFun (shapeCast_self _ _) _).trans neg_inf_word

/-- The running sum of weights starts at zero. -/
theorem pay5_apply : k0_pay5 (F := Ideal) (ix2 r (0 : Fin 1)) = 0 := by
  unfold k0_pay5
  exact (congrFun (shapeCast_self _ _) _).trans Ideal.ofBits_zero_f32

/-- The running weighted sum starts at zero. -/
theorem pay6_apply : k0_pay6 (F := Ideal) (ix2 r d) = 0 := by
  unfold k0_pay6
  exact (congrFun (shapeCast_self _ _) _).trans Ideal.ofBits_zero_f32

end Block

/-- The running maximum is stored as it is. -/
theorem pay2_apply (mo : FVec Ideal S2048x1 .f32) (r : Fin 2048) : k0_pay2 (F := Ideal) mo (ix2 r (0 : Fin 1)) = mo (ix2 r 0) := by
  unfold k0_pay2
  exact congrFun (shapeCast_self mo _) _

/-! ## The two arrays the host prepares -/

section HostArrays
variable (X : FVec Ideal S8192x512 .f32) (i : Fin 8192) (d : Fin 512)

/-- The first array the host prepares: row `i` of `x` scaled to unit length. -/
theorem hostNrm_apply : hostNrm (F := Ideal) X (ix2 i d) = Cert.Spec.nrm (fun i d => X (ix2 i d)) i d := by
  unfold hostNrm
  show _ = X (ix2 i d) * (max (Ideal.sqrt (∑ e : Fin 512, X (ix2 i e) * X (ix2 i e))) (Ideal.ofBits .f32 0x2B8CBCCC#32))⁻¹
  refine (truncf_apply (ψ := .bf16) (φ := .f32) _ bitsLt_bf16_f32 (ix2 i d)).trans
    ((mulf_apply X _ (ix2 i d)).trans (congrArg (X (ix2 i d) * ·) ?_))
  refine (colSpread_apply _ i d).trans ?_
  show Ideal.div
      (broadcastInDim S8192x1 ![] bcast_S_S8192x1 (constant (F := Ideal) S_ .f32 0x3F800000#32) (ix2 i (0 : Fin 1)))
      (max (Ideal.sqrt (broadcastInDim S8192x1 ![0] bcast_S8192_S8192x1_0
              (Host.reduceAdd (mulf X X) (constant (F := Ideal) S_ .f32 0x00000000#32) reducesTo_S8192x512_S8192_d1 h_S_)
              (ix2 i (0 : Fin 1))))
        (broadcastInDim S8192x1 ![] bcast_S_S8192x1 (constant (F := Ideal) S_ .f32 0x2B8CBCCC#32) (ix2 i (0 : Fin 1)))) = _
  rw [ofScalar_apply, ofScalar_apply, toCol_apply, sumSq_apply]
  exact one_div_pos _ (lt_max_of_lt_right small_word_pos)

/-- The second array the host prepares is `x` itself: the narrower format changes nothing in the extended reals. -/
theorem hostVal_apply : hostVal (F := Ideal) X (ix2 i d) = X (ix2 i d) := by
  unfold hostVal
  rfl

end HostArrays

end Cert.KernelIdeal.Hand

end
-- ==== Proof.OnlineSoftmax.lean ====
/-
  A running softmax over a row equals the softmax of the whole row.

  The running maximum, the running sum of `exp (score − maximum)` and the running weighted sum are given in closed
  form over the positions below `n`.  Visiting one more block of `B` positions replaces the maximum `M` by the
  larger `M'` and multiplies both sums by `exp (M − M')` before the block's own terms are added: each earlier
  term `exp (s j − M)` becomes `exp (M − M') · exp (s j − M) = exp (s j − M')`.  Every score is `−∞` or a real
  number, so every term is a non-negative real and the factor distributes over the sums; while the maximum is
  still `−∞` every earlier term is `exp (−∞) = 0` and so is the factor.  After the whole row the quotient of the
  two sums is the softmax-weighted sum.
-/
import proofs.«402759_j45397804319035_3_alg».proof.Proof.Spec
import Mathlib.Data.Finset.Fold
import Mathlib.Data.EReal.Inv
import Mathlib.Algebra.BigOperators.Group.Finset.Basic
import Mathlib.Algebra.BigOperators.Ring.Finset
import Mathlib.Algebra.Order.BigOperators.Group.Finset
import Mathlib.Analysis.Complex.Exponential
import Mathlib.Analysis.SpecialFunctions.Sqrt

noncomputable section

namespace Cert.Spec

open Idealize.ShloMosaic

/-! ## Sums and products of extended reals that are real numbers -/

/-- A finite sum of real numbers, taken in the extended reals, is the real sum. -/
theorem coe_sum {ι : Type} (t : Finset ι) (g : ι → ℝ) :
    ((∑ j ∈ t, g j : ℝ) : EReal) = ∑ j ∈ t, (g j : EReal) := by
  classical
  induction t using Finset.induction_on with
  | empty => simp
  | insert a t ha ih => rw [Finset.sum_insert ha, Finset.sum_insert ha, EReal.coe_add, ih]

/-- A real factor distributes over a finite sum whose terms are all real numbers. -/
theorem coe_mul_sum {ι : Type} (t : Finset ι) (c : ℝ) (f : ι → EReal)
    (hf : ∀ j ∈ t, f j ≠ ⊤ ∧ f j ≠ ⊥) :
    (c : EReal) * ∑ j ∈ t, f j = ∑ j ∈ t, (c : EReal) * f j := by
  have h1 : ∀ j ∈ t, f j = ((f j).toReal : EReal) :=
    fun j hj => (EReal.coe_toReal (hf j hj).1 (hf j hj).2).symm
  have h2 : ∀ j ∈ t, (c : EReal) * f j = ((c * (f j).toReal : ℝ) : EReal) := by
    intro j hj
    rw [EReal.coe_mul, ← h1 j hj]
  rw [Finset.sum_congr rfl h1, Finset.sum_congr rfl h2, ← coe_sum, ← coe_sum, ← EReal.coe_mul,
    Finset.mul_sum]

/-! ## Terms `exp (a − m)` with `a` not `+∞` and `m` a real number -/

/-- A product of two real numbers is a real number. -/
theorem mul_real {a b : EReal} (ha : a ≠ ⊤ ∧ a ≠ ⊥) (hb : b ≠ ⊤ ∧ b ≠ ⊥) : a * b ≠ ⊤ ∧ a * b ≠ ⊥ := by
  lift a to ℝ using ha
  lift b to ℝ using hb
  rw [← EReal.coe_mul]
  exact ⟨EReal.coe_ne_top _, EReal.coe_ne_bot _⟩

/-- A real factor distributes over a finite sum whose terms are all real numbers. -/
theorem real_mul_sum {ι : Type} (t : Finset ι) (k : EReal) (hk : k ≠ ⊤ ∧ k ≠ ⊥) (f : ι → EReal)
    (hf : ∀ j ∈ t, f j ≠ ⊤ ∧ f j ≠ ⊥) :
    k * ∑ j ∈ t, f j = ∑ j ∈ t, k * f j := by
  lift k to ℝ using hk
  exact coe_mul_sum t k f hf

/-- `exp (a − m)` is a real number: `0` at `a = −∞`, the real exponential otherwise. -/
theorem exp_sub_coe_real (a : EReal) (ha : a ≠ ⊤) (m : ℝ) :
    Ideal.exp (a - m) ≠ ⊤ ∧ Ideal.exp (a - m) ≠ ⊥ := by
  induction a with
  | bot =>
    rw [EReal.bot_sub, Ideal.exp_bot]
    exact ⟨EReal.zero_ne_top, EReal.zero_ne_bot⟩
  | coe r =>
    rw [← EReal.coe_sub, Ideal.exp_coe]
    exact ⟨EReal.coe_ne_top _, EReal.coe_ne_bot _⟩
  | top => exact absurd rfl ha

/-- Moving the reference point from `m` to `m'` multiplies `exp (a − m)` by `exp (m − m')`. -/
theorem exp_sub_rescale (a : EReal) (ha : a ≠ ⊤) (m m' : ℝ) :
    Ideal.exp ((m : EReal) - m') * Ideal.exp (a - m) = Ideal.exp (a - m') := by
  induction a with
  | bot => rw [EReal.bot_sub, EReal.bot_sub, Ideal.exp_bot, mul_zero]
  | coe r =>
    rw [← EReal.coe_sub, ← EReal.coe_sub, ← EReal.coe_sub, Ideal.exp_coe, Ideal.exp_coe, Ideal.exp_coe,
      ← EReal.coe_mul, ← Real.exp_add]
    congr 2
    ring
  | top => exact absurd rfl ha

theorem one_real : (1 : EReal) ≠ ⊤ ∧ (1 : EReal) ≠ ⊥ := by
  rw [← EReal.coe_one]
  exact ⟨EReal.coe_ne_top 1, EReal.coe_ne_bot 1⟩

/-- `exp (a − m)` is never negative. -/
theorem exp_sub_coe_nonneg (a : EReal) (m : ℝ) : 0 ≤ Ideal.exp (a - m) := by
  induction a with
  | bot => rw [EReal.bot_sub, Ideal.exp_bot]
  | coe r =>
    rw [← EReal.coe_sub, Ideal.exp_coe]
    exact EReal.coe_nonneg.mpr (Real.exp_pos _).le
  | top => rw [EReal.top_sub_coe, Ideal.exp_top]; exact le_top

/-- `exp (r − m)` is positive at a real score `r`. -/
theorem exp_sub_coe_pos (r m : ℝ) : 0 < Ideal.exp ((r : EReal) - m) := by
  rw [← EReal.coe_sub, Ideal.exp_coe]
  exact EReal.coe_pos.mpr (Real.exp_pos _)

/-- A finite sum of real numbers is a real number. -/
theorem sum_real {ι : Type} (t : Finset ι) (f : ι → EReal) (hf : ∀ j ∈ t, f j ≠ ⊤ ∧ f j ≠ ⊥) :
    ∑ j ∈ t, f j ≠ ⊤ ∧ ∑ j ∈ t, f j ≠ ⊥ := by
  have h1 : ∀ j ∈ t, f j = ((f j).toReal : EReal) :=
    fun j hj => (EReal.coe_toReal (hf j hj).1 (hf j hj).2).symm
  rw [Finset.sum_congr rfl h1, ← coe_sum]
  exact ⟨EReal.coe_ne_top _, EReal.coe_ne_bot _⟩

/-! ## The positions below `n` -/

section Row

variable {N : ℕ} (s : Fin N → EReal) (v : Fin N → EReal)

theorem mem_below (n : ℕ) (j : Fin N) : j ∈ below N n ↔ j.val < n := by
  simp [below]

theorem below_zero : below N 0 = ∅ := by
  ext j
  simp [mem_below]

theorem below_self : below N N = Finset.univ := by
  ext j
  simp [mem_below]

theorem blk_injective (n B : ℕ) (h : n + B ≤ N) : Function.Injective (blk n B h) := by
  intro p q hpq
  have := congrArg Fin.val hpq
  simp only [blk] at this
  exact Fin.ext (by omega)

/-- The positions below `n + B` are those below `n` and the block that starts at `n`. -/
theorem below_add (n B : ℕ) (h : n + B ≤ N) :
    below N (n + B) = below N n ∪ Finset.univ.image (blk n B h) := by
  ext j
  simp only [mem_below, Finset.mem_union, Finset.mem_image, Finset.mem_univ, true_and]
  constructor
  · intro hj
    by_cases hjn : j.val < n
    · exact Or.inl hjn
    · refine Or.inr ⟨⟨j.val - n, by omega⟩, ?_⟩
      apply Fin.ext
      simp only [blk]
      omega
  · rintro (hj | ⟨jj, rfl⟩)
    · omega
    · have := jj.isLt
      simp only [blk]
      omega

theorem below_disjoint (n B : ℕ) (h : n + B ≤ N) :
    Disjoint (below N n) (Finset.univ.image (blk n B h)) := by
  rw [Finset.disjoint_left]
  intro j hj hj'
  rw [mem_below] at hj
  obtain ⟨jj, -, rfl⟩ := Finset.mem_image.mp hj'
  simp only [blk] at hj
  omega

/-- A sum over the positions below `n + B` is the sum below `n` plus the block's. -/
theorem sum_below_add (n B : ℕ) (h : n + B ≤ N) (f : Fin N → EReal) :
    ∑ j ∈ below N (n + B), f j = ∑ j ∈ below N n, f j + ∑ jj : Fin B, f (blk n B h jj) := by
  rw [below_add n B h, Finset.sum_union (below_disjoint n B h),
    Finset.sum_image (fun p _ q _ hpq => blk_injective n B h hpq)]

/-! ## The running quantities before the first position -/

theorem pmax_zero : pmax s 0 = ⊥ := by
  rw [pmax, below_zero, Finset.fold_empty]

theorem pden_zero : pden s 0 = 0 := by
  rw [pden, below_zero, Finset.sum_empty]

theorem pacc_zero : pacc s v 0 = 0 := by
  rw [pacc, below_zero, Finset.sum_empty]

/-! ## The running maximum after one more block -/

theorem pmax_add (n B : ℕ) (h : n + B ≤ N) : pmax s (n + B) = max (pmax s n) (bmax s n B h) := by
  have hu := Finset.fold_union_inter (op := max) (f := s) (s₁ := below N n)
    (s₂ := Finset.univ.image (blk n B h)) (b₁ := (⊥ : EReal)) (b₂ := (⊥ : EReal))
  rw [Finset.disjoint_iff_inter_eq_empty.mp (below_disjoint n B h), Finset.fold_empty,
    max_eq_left bot_le,
    Finset.fold_image (fun p _ q _ hpq => blk_injective n B h hpq)] at hu
  rw [pmax, below_add n B h, hu]
  rfl

/-! ## The running maximum: never `+∞`, above every score seen, growing -/

theorem pmax_ne_top (hs : ∀ j, s j ≠ ⊤) (n : ℕ) : pmax s n ≠ ⊤ := by
  rw [← lt_top_iff_ne_top, pmax, Finset.fold_max_lt]
  exact ⟨bot_lt_top, fun j _ => lt_top_iff_ne_top.mpr (hs j)⟩

theorem le_pmax (n : ℕ) (j : Fin N) (hj : j ∈ below N n) : s j ≤ pmax s n := by
  rw [pmax, Finset.le_fold_max]
  exact Or.inr ⟨j, hj, le_rfl⟩

theorem pmax_mono (n B : ℕ) (h : n + B ≤ N) : pmax s n ≤ pmax s (n + B) := by
  rw [pmax_add s n B h]
  exact le_max_left _ _

/-- While the running maximum is `−∞`, so is every score seen. -/
theorem eq_bot_of_pmax_eq_bot (n : ℕ) (hM : pmax s n = ⊥) (j : Fin N) (hj : j ∈ below N n) : s j = ⊥ := by
  have := le_pmax s n j hj
  rw [hM] at this
  exact le_bot_iff.mp this

/-- A running maximum that is neither infinity is a real number. -/
theorem pmax_eq_coe (hs : ∀ j, s j ≠ ⊤) (n : ℕ) (hM : pmax s n ≠ ⊥) : ∃ m : ℝ, pmax s n = (m : EReal) :=
  ⟨(pmax s n).toReal, (EReal.coe_toReal (pmax_ne_top s hs n) hM).symm⟩

/-! ## Rescaling the earlier terms to the later maximum -/

/-- The terms below `n` taken against the maximum after the block are the terms taken against the maximum
    before it, times `exp (old maximum − new maximum)`; `w` is any real weight. -/
theorem rescale_sum (hs : ∀ j, s j ≠ ⊤) (w : Fin N → EReal) (hw : ∀ j, w j ≠ ⊤ ∧ w j ≠ ⊥)
    (n B : ℕ) (h : n + B ≤ N) :
    ∑ j ∈ below N n, Ideal.exp (s j - pmax s (n + B)) * w j
      = Ideal.exp (pmax s n - pmax s (n + B)) * ∑ j ∈ below N n, Ideal.exp (s j - pmax s n) * w j := by
  by_cases hM : pmax s n = ⊥
  · -- every score so far is `−∞`: both sides are zero
    have h0 : ∀ j ∈ below N n, Ideal.exp (s j - pmax s (n + B)) * w j = 0 := by
      intro j hj
      rw [eq_bot_of_pmax_eq_bot s n hM j hj, EReal.bot_sub, Ideal.exp_bot, zero_mul]
    rw [Finset.sum_eq_zero h0, hM, EReal.bot_sub, Ideal.exp_bot, zero_mul]
  · -- both maxima are real numbers
    have hM' : pmax s (n + B) ≠ ⊥ := by
      intro h'
      have := pmax_mono s n B h
      rw [h'] at this
      exact hM (le_bot_iff.mp this)
    obtain ⟨m, hm⟩ := pmax_eq_coe s hs n hM
    obtain ⟨m', hm'⟩ := pmax_eq_coe s hs (n + B) hM'
    rw [hm, hm', real_mul_sum _ _ (exp_sub_coe_real _ (EReal.coe_ne_top m) m') _
      (fun j _ => mul_real (exp_sub_coe_real _ (hs j) m) (hw j))]
    apply Finset.sum_congr rfl
    intro j _
    rw [← mul_assoc, exp_sub_rescale _ (hs j)]

/-! ## The running sums after one more block -/

theorem pden_add (hs : ∀ j, s j ≠ ⊤) (n B : ℕ) (h : n + B ≤ N) :
    pden s (n + B) = Ideal.exp (pmax s n - pmax s (n + B)) * pden s n
      + ∑ jj : Fin B, Ideal.exp (s (blk n B h jj) - pmax s (n + B)) := by
  have hr := rescale_sum s hs (fun _ => (1 : EReal)) (fun _ => one_real) n B h
  simp only [mul_one] at hr
  unfold pden
  rw [sum_below_add n B h, hr]

theorem pacc_add (hs : ∀ j, s j ≠ ⊤) (hv : ∀ j, v j ≠ ⊤ ∧ v j ≠ ⊥) (n B : ℕ) (h : n + B ≤ N) :
    pacc s v (n + B) = Ideal.exp (pmax s n - pmax s (n + B)) * pacc s v n
      + ∑ jj : Fin B, Ideal.exp (s (blk n B h jj) - pmax s (n + B)) * v (blk n B h jj) := by
  unfold pacc
  rw [sum_below_add n B h, rescale_sum s hs v hv n B h]

/-! ## After the whole row: the quotient of the two sums is the softmax-weighted sum -/

theorem softmax_whole (hs : ∀ j, s j ≠ ⊤) (hv : ∀ j, v j ≠ ⊤ ∧ v j ≠ ⊥) (ho : ∃ j, s j ≠ ⊥) (c : EReal) :
    Ideal.div (pacc s v N) (if 0 < pden s N then pden s N else c)
      = ∑ j, Ideal.div (Ideal.exp (s j - Finset.univ.fold max ⊥ s))
          (∑ j', Ideal.exp (s j' - Finset.univ.fold max ⊥ s)) * v j := by
  obtain ⟨j0, hj0⟩ := ho
  -- some score is real, so the maximum of the whole row is a real number `m`
  have hMb : pmax s N ≠ ⊥ := by
    intro h'
    exact hj0 (eq_bot_of_pmax_eq_bot s N h' j0 (by rw [below_self]; exact Finset.mem_univ _))
  obtain ⟨m, hm⟩ := pmax_eq_coe s hs N hMb
  have hfold : Finset.univ.fold max ⊥ s = (m : EReal) := by
    rw [← hm, pmax, below_self]
  -- every term `exp (s j − m)` is a real number `e j ≥ 0`, and every weight a real number `w j`
  obtain ⟨e, he⟩ : ∃ e : Fin N → ℝ, ∀ j, Ideal.exp (s j - (m : EReal)) = (e j : EReal) :=
    ⟨fun j => (Ideal.exp (s j - (m : EReal))).toReal, fun j =>
      (EReal.coe_toReal (exp_sub_coe_real _ (hs j) m).1 (exp_sub_coe_real _ (hs j) m).2).symm⟩
  obtain ⟨w, rfl⟩ : ∃ w : Fin N → ℝ, v = fun j => (w j : EReal) :=
    ⟨fun j => (v j).toReal, funext fun j => (EReal.coe_toReal (hv j).1 (hv j).2).symm⟩
  have he0 : ∀ j, 0 ≤ e j := by
    intro j
    have := exp_sub_coe_nonneg (s j) m
    rw [he j] at this
    exact EReal.coe_nonneg.mp this
  -- the term of the real score is positive, so the sum `D` of all terms is
  have hpos : 0 < e j0 := by
    obtain ⟨r, hr⟩ : ∃ r : ℝ, s j0 = (r : EReal) := ⟨(s j0).toReal, (EReal.coe_toReal (hs j0) hj0).symm⟩
    have := exp_sub_coe_pos r m
    rw [← hr, he j0] at this
    exact EReal.coe_pos.mp this
  have hD : 0 < ∑ j, e j := Finset.sum_pos' (fun j _ => he0 j) ⟨j0, Finset.mem_univ _, hpos⟩
  have hsum : ∑ j', Ideal.exp (s j' - (m : EReal)) = ((∑ j', e j' : ℝ) : EReal) := by
    rw [coe_sum]
    exact Finset.sum_congr rfl (fun j' _ => he j')
  have hden : pden s N = ((∑ j, e j : ℝ) : EReal) := by
    rw [pden, below_self, hm, hsum]
  have hacc : pacc s (fun j => (w j : EReal)) N = ((∑ j, e j * w j : ℝ) : EReal) := by
    rw [pacc, below_self, hm, coe_sum]
    apply Finset.sum_congr rfl
    intro j _
    rw [he j, EReal.coe_mul]
  -- both sides are now real: `(Σ e j · w j) · (1 / D) = Σ e j · (1 / D) · w j`
  have hrhs : ∀ j, Ideal.div (Ideal.exp (s j - (m : EReal))) (∑ j', Ideal.exp (s j' - (m : EReal))) * (w j : EReal)
      = ((e j * (1 / ∑ j', e j') * w j : ℝ) : EReal) := by
    intro j
    rw [hsum, Ideal.div_coe hD.ne', he j, ← EReal.coe_mul, ← EReal.coe_mul]
  rw [hacc, hden, if_pos (EReal.coe_pos.mpr hD), Ideal.div_coe hD.ne', hfold,
    Finset.sum_congr rfl (fun j _ => hrhs j), ← coe_sum, ← EReal.coe_mul, Finset.sum_mul]
  congr 1
  apply Finset.sum_congr rfl
  intro j _
  ring

end Row

/-! ## The two sides of the statement

Under `Finite x` the sum of squares of a row is a non-negative real, its square root a real, the small constant a
real, so the row's length is a real number; the normalised entries and the similarities are then reals, and a
masked score is `−∞` or a real.  A row with an unmasked pair has a real score, and the running quantities after
the whole row give the softmax of the whole row. -/

variable (x : Fin 8192 → Fin 512 → EReal) (a : Fin 8192 → Fin 8192 → BitVec 32)

/-- The small constant is a real number (the pattern has exponent field `87`, not all ones). -/
theorem eps_real : ∃ ε : ℝ, Ideal.ofBits .f32 0x2B8CBCCC#32 = (ε : EReal) := by
  have h1 : ((0x2B8CBCCC#32).extractLsb' 23 8).toNat = 87 := by decide
  unfold Ideal.ofBits Ideal.ieee
  simp only [h1]
  norm_num

theorem rowNorm_real (hx : Finite x) (i : Fin 8192) : ∃ ρ : ℝ, rowNorm x i = (ρ : EReal) := by
  obtain ⟨ε, hε⟩ := eps_real
  have h1 : ∀ d ∈ (Finset.univ : Finset (Fin 512)),
      x i d * x i d = (((x i d).toReal * (x i d).toReal : ℝ) : EReal) := by
    intro d _
    rw [EReal.coe_mul, EReal.coe_toReal (hx i d).1 (hx i d).2]
  rw [rowNorm, Finset.sum_congr rfl h1, ← coe_sum, Ideal.sqrt_coe,
    if_neg (not_lt.mpr (Finset.sum_nonneg (fun d _ => mul_self_nonneg _))), hε]
  rcases max_choice ((Real.sqrt (∑ d, (x i d).toReal * (x i d).toReal) : ℝ) : EReal) (ε : EReal) with h | h
  · exact ⟨_, h⟩
  · exact ⟨_, h⟩

theorem nrm_real (hx : Finite x) (i : Fin 8192) (d : Fin 512) : nrm x i d ≠ ⊤ ∧ nrm x i d ≠ ⊥ := by
  obtain ⟨ρ, hρ⟩ := rowNorm_real x hx i
  rw [nrm, hρ, ← EReal.coe_inv]
  exact mul_real (hx i d) ⟨EReal.coe_ne_top _, EReal.coe_ne_bot _⟩

theorem score_real (hx : Finite x) (i j : Fin 8192) : score x i j ≠ ⊤ ∧ score x i j ≠ ⊥ := by
  rw [score]
  exact sum_real _ _ (fun d _ => mul_real (nrm_real x hx i d) (nrm_real x hx j d))

theorem masked_ne_top (hx : Finite x) (i j : Fin 8192) : masked x a i j ≠ ⊤ := by
  rw [masked]
  split_ifs
  · exact bot_ne_top
  · exact (score_real x hx i j).1

theorem kerOut_eq_refOut (hx : Finite x) (ha : RowsOpen a) (i : Fin 8192) (d : Fin 512) :
    kerOut x a i d = refOut x a i d := by
  have ho : ∃ j, masked x a i j ≠ ⊥ := by
    obtain ⟨j, hj⟩ := ha i
    refine ⟨j, ?_⟩
    rw [masked, if_neg (not_lt.mpr hj)]
    exact (score_real x hx i j).2
  rw [kerOut, refOut, softmax_whole (masked x a i) (fun j => x j d) (masked_ne_top x a hx i)
    (fun j => hx j d) ho]

end Cert.Spec

end
-- ==== Proof.KI.Step.lean ====
/-
  One key block of the idealized kernel, entry by entry.

  Fix a query row `i`.  The kernel keeps, in three scratch rows, the running maximum of the masked scores of row `i`, the
  running sum of `exp (score − maximum)` and the same sum weighted by the value rows.  One step of the body, read at an
  entry, is exactly the block step of the running softmax (`pmax_add`, `pden_add`, `pacc_add`): from the closed forms
  over the first `n₀` columns to those over the first `n₀ + 512`.  At the last block the stored result is
  `2·x − (weighted sum)/(sum)` over the whole row.
-/
import proofs.«402759_j45397804319035_3_alg».proof.Proof.KI.Payload
import proofs.«402759_j45397804319035_3_alg».proof.Proof.OnlineSoftmax

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.Spec

/-! ## One key block, entry by entry -/

section Step

variable (q : Vec Ideal S2048x512 .bf16) (k vv : Vec Ideal S512x512 .bf16) (aj : Vec Ideal S2048x512 .i32)
variable (x : Fin 8192 → Fin 512 → EReal) (a : Fin 8192 → Fin 8192 → BitVec 32)
variable (i : Fin 8192) (n0 : ℕ) (h : n0 + 512 ≤ 8192) (r : Fin 2048)

/-- The masked score the body computes at column `jj` of the block is the specification's, at column `n₀ + jj`. -/
theorem pay7_masked (hq : ∀ e, q (ix2 r e) = nrm x i e) (hk : ∀ jj e, k (ix2 jj e) = nrm x (blk n0 512 h jj) e)
    (haj : ∀ jj, aj (ix2 r jj) = a i (blk n0 512 h jj)) (jj : Fin 512) :
    k0_pay7 (F := Ideal) q k aj (ix2 r jj) = masked x a i (blk n0 512 h jj) := by
  rw [pay7_apply (q := q) (k := k) (aj := aj) (r := r) (jj := jj)]
  unfold masked score
  rw [haj jj]
  simp only [hq, hk]

variable (hq : ∀ e, q (ix2 r e) = nrm x i e) (hk : ∀ jj e, k (ix2 jj e) = nrm x (blk n0 512 h jj) e)
  (haj : ∀ jj, aj (ix2 r jj) = a i (blk n0 512 h jj))

include hq hk haj in
/-- The running maximum after the block. -/
theorem step_max (mo : Vec Ideal S2048x1 .f32) (hm : mo (ix2 r (0 : Fin 1)) = pmax (masked x a i) n0) :
    k0_pay8 (F := Ideal) q k aj mo (ix2 r (0 : Fin 1)) = pmax (masked x a i) (n0 + 512) := by
  rw [pay8_apply (q := q) (k := k) (aj := aj) (mo := mo) (r := r), hm, pmax_add (masked x a i) n0 512 h]
  unfold bmax
  simp only [pay7_masked q k aj x a i n0 h r hq hk haj]

include hq hk haj in
/-- The running sum after the block: the old one rescaled, plus the block's terms. -/
theorem step_den (hx : Finite x) (mo lo : Vec Ideal S2048x1 .f32) (hm : mo (ix2 r (0 : Fin 1)) = pmax (masked x a i) n0)
    (hl : lo (ix2 r (0 : Fin 1)) = pden (masked x a i) n0) :
    k0_pay11 (F := Ideal) q k aj mo mo lo (ix2 r (0 : Fin 1)) = pden (masked x a i) (n0 + 512) := by
  rw [pay11_apply (q := q) (k := k) (aj := aj) (mo := mo) (mo' := mo) (lo := lo) (r := r),
    pay9_apply (q := q) (k := k) (aj := aj) (mo := mo) (mo' := mo) (r := r),
    step_max q k aj x a i n0 h r hq hk haj mo hm, hm, hl,
    pden_add (masked x a i) (fun j => masked_ne_top x a hx i j) n0 512 h]
  congr 1
  refine Finset.sum_congr rfl fun jj _ => ?_
  rw [pay10_apply (q := q) (k := k) (aj := aj) (mo := mo) (r := r) (jj := jj),
    pay7_masked q k aj x a i n0 h r hq hk haj jj, step_max q k aj x a i n0 h r hq hk haj mo hm]

include hq hk haj in
/-- The running weighted sum after the block. -/
theorem step_acc (hx : Finite x) (hvv : ∀ jj d, vv (ix2 jj d) = x (blk n0 512 h jj) d)
    (mo : Vec Ideal S2048x1 .f32) (acc : Vec Ideal S2048x512 .f32) (hm : mo (ix2 r (0 : Fin 1)) = pmax (masked x a i) n0)
    (d : Fin 512) (ha : acc (ix2 r d) = pacc (masked x a i) (fun j => x j d) n0) :
    k0_pay1 (F := Ideal) (k0_pay10 (F := Ideal) q k aj mo) acc (k0_pay12 (F := Ideal) q k aj mo mo) vv (ix2 r d)
      = pacc (masked x a i) (fun j => x j d) (n0 + 512) := by
  rw [pay1_apply (p := k0_pay10 (F := Ideal) q k aj mo) (acc := acc) (abc := k0_pay12 (F := Ideal) q k aj mo mo) (vv := vv) (r := r) (d := d),
    pay12_apply (q := q) (k := k) (aj := aj) (mo := mo) (mo' := mo) (r := r) (d := d),
    pay9_apply (q := q) (k := k) (aj := aj) (mo := mo) (mo' := mo) (r := r),
    step_max q k aj x a i n0 h r hq hk haj mo hm, hm, ha,
    pacc_add (masked x a i) (fun j => x j d) (fun j => masked_ne_top x a hx i j) (fun j => hx j d) n0 512 h]
  congr 1
  refine Finset.sum_congr rfl fun jj _ => ?_
  rw [pay10_apply (q := q) (k := k) (aj := aj) (mo := mo) (r := r) (jj := jj),
    pay7_masked q k aj x a i n0 h r hq hk haj jj, step_max q k aj x a i n0 h r hq hk haj mo hm, hvv jj d]

end Step

/-- The stored result from the sums over the whole row. -/
theorem final_out (x : Fin 8192 → Fin 512 → EReal) (a : Fin 8192 → Fin 8192 → BitVec 32) (i : Fin 8192) (r : Fin 2048) (d : Fin 512)
    (lo' : Vec Ideal S2048x1 .f32) (acc' xq : Vec Ideal S2048x512 .f32)
    (hl' : lo' (ix2 r (0 : Fin 1)) = pden (masked x a i) 8192)
    (ha' : acc' (ix2 r d) = pacc (masked x a i) (fun j => x j d) 8192) (hxq : xq (ix2 r d) = x i d) :
    k0_pay3 (F := Ideal) lo' lo' acc' xq (ix2 r d) = kerOut x a i d := by
  rw [pay3_apply (lo := lo') (lo' := lo') (acc := acc') (xq := xq) (r := r) (d := d), hl', ha', hxq]
  rfl

end Cert.KernelIdeal.Hand

end
-- ==== Proof.KI.Pieces.lean ====
/-
  What the three runs found, as terms over the named payloads.  Every load and store of the body goes through the
  whole of its buffer, so a buffer's contents after a case are the payload of the last store into it, and every loaded
  value is the contents of its buffer at that moment: an input block, what the point before left in a scratch operand,
  or — in the first key block, which resets the three scratch operands before it updates them — the reset value.
  A middle key block leaves the new running maximum, the rescaled running sum plus the block's sum, and the rescaled
  weighted sum plus the block's product; the last key block leaves the same three and, from the UPDATED sums, the
  output block.
-/
import proofs.«402759_j45397804319035_3_alg».proof.Proof.KI.Frame
import Idealize.ShloMosaic.Lib.Pipeline.Value

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The origin of a rank-two buffer, as the stores and loads spell it, is the zero offset. -/
private theorem origin2 : (![0, 0] : Fin 2 → Nat) = fun _ => 0 := funext fun a => by fin_cases a <;> rfl

/-! ## A middle key block -/

/-- A middle key block leaves in the running maximum the larger of what it held and the block's row maxima. -/
theorem sout0_B_0_eq (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : ¬cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) :
    sout0_B_0 c i arg2 harg2 arg3 harg3 arg4 harg4 arg5 harg5 arg6 harg6 arg7 harg7 arg8 harg8 arg9 harg9 arg10 harg10 hc0 hc1 x0 x1 x2 x3 x4 xs0 xs1 xs2 = k0_pay2 (k0_pay8 x0 x2 x4 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero origin2]
  simp only [View.readAt_eq_ld, harg2.read_unread, harg3.read_unread, harg4.read_unread, harg5.read_unread, harg6.read_unread, harg7.read_unread, harg8.read_unread, harg9.read_unread, harg10.read_unread, View.ld_unit_zero (S := S2048x512) origin2, View.ld_unit_zero (S := S512x512) origin2, View.ld_unit_zero (S := S2048x1) origin2]

/-- A middle key block leaves in the running sum what it held, rescaled to the new maximum, plus the block's row sums. -/
theorem sout0_B_1_eq (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : ¬cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) :
    sout0_B_1 c i arg2 harg2 arg3 harg3 arg4 harg4 arg5 harg5 arg6 harg6 arg7 harg7 arg8 harg8 arg9 harg9 arg10 harg10 hc0 hc1 x0 x1 x2 x3 x4 xs0 xs1 xs2 = k0_pay11 x0 x2 x4 xs0 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero origin2]
  simp only [View.readAt_eq_ld, harg2.read_unread, harg3.read_unread, harg4.read_unread, harg5.read_unread, harg6.read_unread, harg7.read_unread, harg8.read_unread, harg9.read_unread, harg10.read_unread, View.ld_unit_zero (S := S2048x512) origin2, View.ld_unit_zero (S := S512x512) origin2, View.ld_unit_zero (S := S2048x1) origin2]

/-- A middle key block leaves in the running weighted sum what it held, rescaled to the new maximum, plus the block's
    weights times the value block. -/
theorem sout0_B_2_eq (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : ¬cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) :
    sout0_B_2 c i arg2 harg2 arg3 harg3 arg4 harg4 arg5 harg5 arg6 harg6 arg7 harg7 arg8 harg8 arg9 harg9 arg10 harg10 hc0 hc1 x0 x1 x2 x3 x4 xs0 xs1 xs2 = k0_pay1 (k0_pay10 x0 x2 x4 xs0) xs2 (k0_pay12 x0 x2 x4 xs0 xs0) x3 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero origin2]
  simp only [View.readAt_eq_ld, harg2.read_unread, harg3.read_unread, harg4.read_unread, harg5.read_unread, harg6.read_unread, harg7.read_unread, harg8.read_unread, harg9.read_unread, harg10.read_unread, View.ld_unit_zero (S := S2048x512) origin2, View.ld_unit_zero (S := S512x512) origin2, View.ld_unit_zero (S := S2048x1) origin2]

/-! ## The last key block -/

/-- The last key block leaves in the running maximum what a middle one does. -/
theorem sout0_C_0_eq (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) :
    sout0_C_0 c i arg2 harg2 arg3 harg3 arg4 harg4 arg5 harg5 arg6 harg6 arg7 harg7 arg8 harg8 arg9 harg9 arg10 harg10 hc0 hc1 x0 x1 x2 x3 x4 xs0 xs1 xs2 = k0_pay2 (k0_pay8 x0 x2 x4 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero origin2]
  simp only [View.readAt_eq_ld, harg2.read_unread, harg3.read_unread, harg4.read_unread, harg5.read_unread, harg6.read_unread, harg7.read_unread, harg8.read_unread, harg9.read_unread, harg10.read_unread, View.ld_unit_zero (S := S2048x512) origin2, View.ld_unit_zero (S := S512x512) origin2, View.ld_unit_zero (S := S2048x1) origin2]

/-- The last key block leaves in the running sum what a middle one does. -/
theorem sout0_C_1_eq (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) :
    sout0_C_1 c i arg2 harg2 arg3 harg3 arg4 harg4 arg5 harg5 arg6 harg6 arg7 harg7 arg8 harg8 arg9 harg9 arg10 harg10 hc0 hc1 x0 x1 x2 x3 x4 xs0 xs1 xs2 = k0_pay11 x0 x2 x4 xs0 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero origin2]
  simp only [View.readAt_eq_ld, harg2.read_unread, harg3.read_unread, harg4.read_unread, harg5.read_unread, harg6.read_unread, harg7.read_unread, harg8.read_unread, harg9.read_unread, harg10.read_unread, View.ld_unit_zero (S := S2048x512) origin2, View.ld_unit_zero (S := S512x512) origin2, View.ld_unit_zero (S := S2048x1) origin2]

/-- The last key block leaves in the running weighted sum what a middle one does. -/
theorem sout0_C_2_eq (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) :
    sout0_C_2 c i arg2 harg2 arg3 harg3 arg4 harg4 arg5 harg5 arg6 harg6 arg7 harg7 arg8 harg8 arg9 harg9 arg10 harg10 hc0 hc1 x0 x1 x2 x3 x4 xs0 xs1 xs2 = k0_pay1 (k0_pay10 x0 x2 x4 xs0) xs2 (k0_pay12 x0 x2 x4 xs0 xs0) x3 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero origin2]
  simp only [View.readAt_eq_ld, harg2.read_unread, harg3.read_unread, harg4.read_unread, harg5.read_unread, harg6.read_unread, harg7.read_unread, harg8.read_unread, harg9.read_unread, harg10.read_unread, View.ld_unit_zero (S := S2048x512) origin2, View.ld_unit_zero (S := S512x512) origin2, View.ld_unit_zero (S := S2048x1) origin2]

/-- The last key block's output block: the UPDATED weighted sum divided by the UPDATED running sum (by one where that
    is not positive), taken from twice the input block; the two sums it loads are the ones this same block has just
    stored. -/
theorem out0_C_5_eq (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : ¬cond0_0 i) (hc1 : cond0_1 i)
    (x0 : Vec F S2048x512 .bf16) (x1 : Vec F S2048x512 .f32) (x2 : Vec F S512x512 .bf16) (x3 : Vec F S512x512 .bf16) (x4 : Vec F S2048x512 .i32) (xs0 : Vec F S2048x1 .f32) (xs1 : Vec F S2048x1 .f32) (xs2 : Vec F S2048x512 .f32) :
    out0_C_5 c i arg2 harg2 arg3 harg3 arg4 harg4 arg5 harg5 arg6 harg6 arg7 harg7 arg8 harg8 arg9 harg9 arg10 harg10 hc0 hc1 x0 x1 x2 x3 x4 xs0 xs1 xs2 = k0_pay3 (k0_pay11 x0 x2 x4 xs0 xs0 xs1) (k0_pay11 x0 x2 x4 xs0 xs0 xs1) (k0_pay1 (k0_pay10 x0 x2 x4 xs0) xs2 (k0_pay12 x0 x2 x4 xs0 xs0) x3) x1 := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero origin2]
  simp only [View.readAt_eq_ld, harg2.read_unread, harg3.read_unread, harg4.read_unread, harg5.read_unread, harg6.read_unread, harg7.read_unread, harg8.read_unread, harg9.read_unread, harg10.read_unread, View.readCov_unit_zero (S := S2048x1) _ origin2, View.readCov_unit_zero (S := S2048x512) _ origin2, View.ld_unit_zero (S := S2048x512) origin2, View.ld_unit_zero (S := S512x512) origin2, View.ld_unit_zero (S := S2048x1) origin2]

/-! ## The first key block -/

/-- The first key block resets the running maximum to `−∞` and then updates it from that reset value: the later store
    covers the earlier one, and the maximum it loads is the reset value. -/
theorem sout0_A_0_eq (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : cond0_0 i) (hc1 : ¬cond0_1 i)
    (x0 : Vec F S2048x512 .bf16) (x1 : Vec F S2048x512 .f32) (x2 : Vec F S512x512 .bf16) (x3 : Vec F S512x512 .bf16) (x4 : Vec F S2048x512 .i32) :
    sout0_A_0 c i arg2 harg2 arg3 harg3 arg4 harg4 arg5 harg5 arg6 harg6 arg7 harg7 arg8 harg8 arg9 harg9 arg10 harg10 hc0 hc1 x0 x1 x2 x3 x4 = k0_pay2 (k0_pay8 x0 x2 x4 k0_pay4) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero origin2]
  simp only [View.readAt_eq_ld, harg2.read_unread, harg3.read_unread, harg4.read_unread, harg5.read_unread, harg6.read_unread, harg7.read_unread, harg8.read_unread, harg9.read_unread, harg10.read_unread, View.readCov_unit_zero (S := S2048x1) _ origin2, View.readCov_unit_zero (S := S2048x512) _ origin2, View.ld_unit_zero (S := S2048x512) origin2, View.ld_unit_zero (S := S512x512) origin2, View.ld_unit_zero (S := S2048x1) origin2]

/-- The first key block resets the running sum to zero and then updates it from the reset maximum and the reset sum. -/
theorem sout0_A_1_eq (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : cond0_0 i) (hc1 : ¬cond0_1 i)
    (x0 : Vec F S2048x512 .bf16) (x1 : Vec F S2048x512 .f32) (x2 : Vec F S512x512 .bf16) (x3 : Vec F S512x512 .bf16) (x4 : Vec F S2048x512 .i32) :
    sout0_A_1 c i arg2 harg2 arg3 harg3 arg4 harg4 arg5 harg5 arg6 harg6 arg7 harg7 arg8 harg8 arg9 harg9 arg10 harg10 hc0 hc1 x0 x1 x2 x3 x4 = k0_pay11 x0 x2 x4 k0_pay4 k0_pay4 k0_pay5 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero origin2]
  simp only [View.readAt_eq_ld, harg2.read_unread, harg3.read_unread, harg4.read_unread, harg5.read_unread, harg6.read_unread, harg7.read_unread, harg8.read_unread, harg9.read_unread, harg10.read_unread, View.readCov_unit_zero (S := S2048x1) _ origin2, View.readCov_unit_zero (S := S2048x512) _ origin2, View.ld_unit_zero (S := S2048x512) origin2, View.ld_unit_zero (S := S512x512) origin2, View.ld_unit_zero (S := S2048x1) origin2]

/-- The first key block resets the running weighted sum to zero and then updates it from the reset maximum and the
    reset weighted sum. -/
theorem sout0_A_2_eq (c : Dev nD) (i : grid0.Coords) (arg2 : Memref sig .tc .vmem S2048x512 .bf16) (harg2 : arg2.IsWhole) (arg3 : Memref sig .tc .vmem S2048x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .i32) (harg6 : arg6.IsWhole) (arg7 : Memref sig .tc .vmem S2048x512 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x512 .f32) (harg10 : arg10.IsWhole) (hc0 : cond0_0 i) (hc1 : ¬cond0_1 i)
    (x0 : Vec F S2048x512 .bf16) (x1 : Vec F S2048x512 .f32) (x2 : Vec F S512x512 .bf16) (x3 : Vec F S512x512 .bf16) (x4 : Vec F S2048x512 .i32) :
    sout0_A_2 c i arg2 harg2 arg3 harg3 arg4 harg4 arg5 harg5 arg6 harg6 arg7 harg7 arg8 harg8 arg9 harg9 arg10 harg10 hc0 hc1 x0 x1 x2 x3 x4 = k0_pay1 (k0_pay10 x0 x2 x4 k0_pay4) k0_pay6 (k0_pay12 x0 x2 x4 k0_pay4 k0_pay4) x3 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero origin2]
  simp only [View.readAt_eq_ld, harg2.read_unread, harg3.read_unread, harg4.read_unread, harg5.read_unread, harg6.read_unread, harg7.read_unread, harg8.read_unread, harg9.read_unread, harg10.read_unread, View.readCov_unit_zero (S := S2048x1) _ origin2, View.readCov_unit_zero (S := S2048x512) _ origin2, View.ld_unit_zero (S := S2048x512) origin2, View.ld_unit_zero (S := S512x512) origin2, View.ld_unit_zero (S := S2048x1) origin2]

end Cert.KernelIdeal.Hand

end
-- ==== Proof.KI.Blocks.lean ====
/-
  From blocks to arrays.  The grid has 64 points; point `t` is query block `t / 16` and key block `t % 16`.  Each
  window's block at a point is a rectangle of its array: an element of the block sits in the array, on each axis, at
  the block's index times the block's size plus its own coordinate.  The index maps are decided once over the 64
  points, and with them every input block is read as the rows (and, for the mask, the columns) of its array that it
  holds.  The output array is written back once per query block, at that block's last key block, and those four
  blocks of 2048 rows tile its 8192 rows: so after the run it is ONE function of its index.
-/
import proofs.«402759_j45397804319035_3_alg».proof.Proof.KI.Frame
import Idealize.ShloMosaic.Lib.ValueIdx
import Idealize.ShloMosaic.Lib.Pipeline.Value

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The index maps over the grid -/

/-- A point of the grid is below 64. -/
theorem point_lt (t : Fin cfg0.N) : t.val < 64 := lt_of_lt_of_eq t.isLt N_0

/-- The printed index maps, decided over the 64 points: windows 0, 1, 5 (query rows) and the mask's rows move with
    the query block `t / 16`; windows 2, 3 (key rows) and the mask's columns with the key block `t % 16`; every other
    axis stays at block 0. -/
theorem idx_facts : ∀ t : Fin cfg0.N,
    win0_0.index t (0 : Fin 2) = t.val / 16 ∧ win0_0.index t (1 : Fin 2) = 0
    ∧ win0_1.index t (0 : Fin 2) = t.val / 16 ∧ win0_1.index t (1 : Fin 2) = 0
    ∧ win0_2.index t (0 : Fin 2) = t.val % 16 ∧ win0_2.index t (1 : Fin 2) = 0
    ∧ win0_3.index t (0 : Fin 2) = t.val % 16 ∧ win0_3.index t (1 : Fin 2) = 0
    ∧ win0_4.index t (0 : Fin 2) = t.val / 16 ∧ win0_4.index t (1 : Fin 2) = t.val % 16
    ∧ win0_5.index t (0 : Fin 2) = t.val / 16 ∧ win0_5.index t (1 : Fin 2) = 0 :=
  (by decide +kernel : ∀ t : Fin grid0.N, _)

/-! ## The input blocks, element by element -/

/-- Key block `t % 16` of the normalised rows: its row `jj` is row `512 · (t % 16) + jj` of the array. -/
theorem iblk2_apply (c : Dev nD) (t : Fin cfg0.N) (jj e : Fin 512) :
    iblk V c 2 t (ix2 jj e)
      = V c main_v10 (ix2 (⟨512 * (t.val % 16) + jj.val, by have := jj.isLt; omega⟩ : Fin 8192) e) := by
  obtain ⟨-, -, -, -, e0, e1, -⟩ := idx_facts t
  show V c main_v10 (((cfg0.win 2).blk t).view.emb (ix2 jj e)) = V c main_v10 _
  refine congrArg _ ?_
  funext a; apply Fin.ext
  match a with
  | ⟨0, _⟩ => show win0_2.index t (0 : Fin 2) * 512 + 1 * jj.val = 512 * (t.val % 16) + jj.val; omega
  | ⟨1, _⟩ => show win0_2.index t (1 : Fin 2) * 512 + 1 * e.val = e.val; omega

/-- Query block `t / 16` of the normalised rows: its row `r` is row `2048 · (t / 16) + r` of the array. -/
theorem iblk0_apply (c : Dev nD) (t : Fin cfg0.N) (r : Fin 2048) (e : Fin 512) :
    iblk V c 0 t (ix2 r e)
      = V c main_v10 (ix2 (⟨2048 * (t.val / 16) + r.val, by have := r.isLt; have := point_lt t; omega⟩ : Fin 8192) e) := by
  obtain ⟨e0, e1, -⟩ := idx_facts t
  show V c main_v10 (((cfg0.win 0).blk t).view.emb (ix2 r e)) = V c main_v10 _
  refine congrArg _ ?_
  funext a; apply Fin.ext
  match a with
  | ⟨0, _⟩ => show win0_0.index t (0 : Fin 2) * 2048 + 1 * r.val = 2048 * (t.val / 16) + r.val; omega
  | ⟨1, _⟩ => show win0_0.index t (1 : Fin 2) * 512 + 1 * e.val = e.val; omega

/-- Query block `t / 16` of the rows themselves: its row `r` is row `2048 · (t / 16) + r` of the array. -/
theorem iblk1_apply (c : Dev nD) (t : Fin cfg0.N) (r : Fin 2048) (d : Fin 512) :
    iblk V c 1 t (ix2 r d)
      = V c main_arg0 (ix2 (⟨2048 * (t.val / 16) + r.val, by have := r.isLt; have := point_lt t; omega⟩ : Fin 8192) d) := by
  obtain ⟨-, -, e0, e1, -⟩ := idx_facts t
  show V c main_arg0 (((cfg0.win 1).blk t).view.emb (ix2 r d)) = V c main_arg0 _
  refine congrArg _ ?_
  funext a; apply Fin.ext
  match a with
  | ⟨0, _⟩ => show win0_1.index t (0 : Fin 2) * 2048 + 1 * r.val = 2048 * (t.val / 16) + r.val; omega
  | ⟨1, _⟩ => show win0_1.index t (1 : Fin 2) * 512 + 1 * d.val = d.val; omega

/-- Key block `t % 16` of the rows in the narrow format: its row `jj` is row `512 · (t % 16) + jj` of the array. -/
theorem iblk3_apply (c : Dev nD) (t : Fin cfg0.N) (jj d : Fin 512) :
    iblk V c 3 t (ix2 jj d)
      = V c main_v11 (ix2 (⟨512 * (t.val % 16) + jj.val, by have := jj.isLt; omega⟩ : Fin 8192) d) := by
  obtain ⟨-, -, -, -, -, -, e0, e1, -⟩ := idx_facts t
  show V c main_v11 (((cfg0.win 3).blk t).view.emb (ix2 jj d)) = V c main_v11 _
  refine congrArg _ ?_
  funext a; apply Fin.ext
  match a with
  | ⟨0, _⟩ => show win0_3.index t (0 : Fin 2) * 512 + 1 * jj.val = 512 * (t.val % 16) + jj.val; omega
  | ⟨1, _⟩ => show win0_3.index t (1 : Fin 2) * 512 + 1 * d.val = d.val; omega

/-- Block (`t / 16`, `t % 16`) of the mask: its entry (`r`, `jj`) is entry (`2048 · (t / 16) + r`, `512 · (t % 16) + jj`)
    of the array. -/
theorem iblk4_apply (c : Dev nD) (t : Fin cfg0.N) (r : Fin 2048) (jj : Fin 512) :
    iblk V c 4 t (ix2 r jj)
      = V c main_arg1 (ix2 (⟨2048 * (t.val / 16) + r.val, by have := r.isLt; have := point_lt t; omega⟩ : Fin 8192)
          (⟨512 * (t.val % 16) + jj.val, by have := jj.isLt; omega⟩ : Fin 8192)) := by
  obtain ⟨-, -, -, -, -, -, -, -, e0, e1, -⟩ := idx_facts t
  show V c main_arg1 (((cfg0.win 4).blk t).view.emb (ix2 r jj)) = V c main_arg1 _
  refine congrArg _ ?_
  funext a; apply Fin.ext
  match a with
  | ⟨0, _⟩ => show win0_4.index t (0 : Fin 2) * 2048 + 1 * r.val = 2048 * (t.val / 16) + r.val; omega
  | ⟨1, _⟩ => show win0_4.index t (1 : Fin 2) * 512 + 1 * jj.val = 512 * (t.val % 16) + jj.val; omega

/-! ## The output array after the run -/

/-- The last key block of the query block that holds row `i` is a point of the grid. -/
theorem lastKey_lt (i : Fin 8192) : 16 * (i.val / 2048) + 15 < cfg0.N := by
  rw [show cfg0.N = 64 from N_0]; have := i.isLt; omega

/-- What the body leaves after a position depends on the position alone, not on how it is shown to be in the grid. -/
theorem outsAt0_congr (c : Dev nD) {n n' : ℕ} (h : n = n') (hn : n < cfg0.N) (hn' : n' < cfg0.N) :
    outsAt0 V c n hn = outsAt0 V c n' hn' := by subst h; rfl

/-- the output array after the run, as ONE function of its index: row i of query block i / 2048 is row i % 2048 of what
    the body stored at that block's last key block -/
def outG (c : Dev nD) : S8192x512.Idx → Elt F .f32 := fun ix =>
  (outsAt0 V c (16 * ((ix 0).val / 2048) + 15) (lastKey_lt (ix 0))).1
    (ix2 (⟨(ix 0).val % 2048, Nat.mod_lt _ (by decide)⟩ : Fin 2048) (ix 1))

/-- `outG` at an index whose row is row `y 0` of the block written back at point `t`, in column `y 1`. -/
theorem outG_apply_of (c : Dev nD) (i : S8192x512.Idx) (t : Fin cfg0.N) (y : S2048x512.Idx)
    (hn : 16 * ((i 0).val / 2048) + 15 = t.val) (h0 : (i 0).val % 2048 = (y 0).val) (h1 : (i 1).val = (y 1).val) :
    outG V c i = (outsAt0 V c t.val t.isLt).1 y := by
  show (outsAt0 V c (16 * ((i 0).val / 2048) + 15) (lastKey_lt (i 0))).1
      (ix2 (⟨(i 0).val % 2048, Nat.mod_lt _ (by decide)⟩ : Fin 2048) (i 1)) = _
  rw [outsAt0_congr V c hn (lastKey_lt (i 0)) t.isLt]
  refine congrArg _ ?_
  funext a; apply Fin.ext
  match a with
  | ⟨0, _⟩ => exact h0
  | ⟨1, _⟩ => exact h1

/-- WHAT A POINT WRITES BACK: at a point of the last key block, `t % 16 = 15`, the block the body stored is block `t`
    of `outG` — its row `y 0` is row `2048 · (t / 16) + y 0` of the array, whose query block's last key block is `t`. -/
theorem flushed5_eq (c : Dev nD) (t : Fin cfg0.N) (hf : (cfg0.win 5).flush t = true) :
    (dats V 0 c).flushed 5 t = ((cfg0.win 5).blk t).view.read (Elt F) (outG V c) := by
  have h15 : t.val % 16 = 15 := (flush0_5 t).mp hf
  have ht := point_lt t
  obtain ⟨-, -, -, -, -, -, -, -, -, -, e0, e1⟩ := idx_facts t
  show (cfg0.win 5).cut (grid0.coords t) ((dats V 0 c).after 5 t) = _
  rw [after0_5]
  funext y
  show (outsAt0 V c t.val t.isLt).1 y = outG V c (((cfg0.win 5).blk t).view.emb y)
  have hy0 : (y 0).val < 2048 := (y 0).isLt
  have hrow : ((((cfg0.win 5).blk t).view.emb y) 0).val = 2048 * (t.val / 16) + (y 0).val := by
    show win0_5.index t (0 : Fin 2) * 2048 + 1 * (y 0).val = _; omega
  have hcol : ((((cfg0.win 5).blk t).view.emb y) 1).val = (y 1).val := by
    show win0_5.index t (1 : Fin 2) * 512 + 1 * (y 1).val = _; omega
  exact (outG_apply_of V c _ t y (by rw [hrow]; omega) (by rw [hrow]; omega) hcol).symm

/-- An index of the output array is in point `t`'s block iff each coordinate is in the block's range on its axis. -/
theorem mem_blk5 (t : Fin cfg0.N) (i : S8192x512.Idx) :
    i ∈ ((cfg0.win 5).blk t).view.set ↔ ∀ a : Fin 2, win0_5.index t a * S2048x512.size a ≤ (i a).val ∧ (i a).val < win0_5.index t a * S2048x512.size a + S2048x512.size a := by
  show i ∈ ((View.whole main_v12).slice (win0_5.rect t)).set ↔ _
  rw [View.set_slice_whole, Rect.mem_set_unit]
  exact Iff.rfl

/-- EVERY ROW IS WRITTEN BACK: row `i` lies in the block of the point `16 · (i / 2048) + 15`, the last key block of
    its query block, and that point writes its block back. -/
theorem cover5 (i : S8192x512.Idx) :
    ∃ t : Fin cfg0.N, (cfg0.win 5).flush t = true ∧ i ∈ ((cfg0.win 5).blk t).view.set := by
  have hi0 : (i 0).val < 8192 := (i 0).isLt
  have hi1 : (i 1).val < 512 := (i 1).isLt
  obtain ⟨t, ht⟩ : ∃ t : Fin cfg0.N, t.val = 16 * ((i 0).val / 2048) + 15 := ⟨⟨_, lastKey_lt (i 0)⟩, rfl⟩
  obtain ⟨-, -, -, -, -, -, -, -, -, -, e0, e1⟩ := idx_facts t
  refine ⟨t, (flush0_5 t).mpr (by omega), ?_⟩
  rw [mem_blk5]
  intro a
  match a with
  | ⟨0, _⟩ => show win0_5.index t (0 : Fin 2) * 2048 ≤ (i 0).val ∧ (i 0).val < win0_5.index t (0 : Fin 2) * 2048 + 2048; omega
  | ⟨1, _⟩ => show win0_5.index t (1 : Fin 2) * 512 ≤ (i 1).val ∧ (i 1).val < win0_5.index t (1 : Fin 2) * 512 + 512; omega

/-- THE OUTPUT ARRAY after the run is `outG`: the four blocks written back tile it. -/
theorem arrAt5 (c : Dev nD) : (dats V 0 c).arrAt 5 cfg0.N = outG V c :=
  (dats V 0 c).arrAt_eq_of_cover 5 (outG V c) (fun t hf => flushed5_eq V c t hf) cover5

/-- An input window's array is never written: after the run it is as the region found it. -/
theorem arrAt_in (c : Dev nD) (w : Fin 6) (hw : w ≠ 5) : (dats V 0 c).arrAt w cfg0.N = V c (Pipeline.arrRef spec0 w) := by
  have hin : (cfg0.win w).isOut = false := by
    fin_cases w
    · rfl
    · rfl
    · rfl
    · rfl
    · rfl
    · exact absurd rfl hw
  exact ((dats V 0 c).arrAt_in w hin _).trans (A_eq V c w)

end Cert.KernelIdeal.Hand

end
-- ==== Proof.KI.Value.lean ====
/-
  The idealized kernel's result, in closed form.

  A grid point is a query block `qi` and a key block `k`.  The windows' blocks at a point are entries of the arrays at
  the global indices (rows `2048·qi + r`, columns `512·k + jj`), so one body step at the point is the block step of the
  running softmax of each row of the query block.  The first key block starts from the reset values, which are the
  closed forms over no column at all; every later one starts from what the point before left.  By induction along the
  64 points, after key block `k` the three scratch operands hold the closed forms over the first `512·(k+1)` columns,
  and the block stored at the last key block is the specification's running form over the whole row.
-/
import proofs.«402759_j45397804319035_3_alg».proof.Proof.KI.Step
import proofs.«402759_j45397804319035_3_alg».proof.Proof.KI.Pieces
import proofs.«402759_j45397804319035_3_alg».proof.Proof.KI.Blocks

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.Spec

/-! ## Along the grid -/

section Grid

variable (V : (c : Dev nD) → (b : Ref sig .tc) → Buf (Elt Ideal) ((c : Thread nD τ).loc b)) (c : Dev nD)

/-- The argument `x` and the integer array, as the region finds them, as plain functions of the indices. -/
abbrev xOf : Fin 8192 → Fin 512 → EReal := fun i d => V c main_arg0 (ix2 i d)
abbrev aOf : Fin 8192 → Fin 8192 → BitVec 32 := fun i j => V c main_arg1 (ix2 i j)

/-- Row `r` of the query block of point `n`, as a row of the whole array. -/
def rowOf (n : ℕ) (hn : n < cfg0.N) (r : Fin 2048) : Fin 8192 :=
  ⟨2048 * (n / 16) + r.val, by have : cfg0.N = 64 := N_0; have := r.isLt; omega⟩

variable (hV0 : V c main_v10 = hostNrm (F := Ideal) (V c main_arg0)) (hV3 : V c main_v11 = hostVal (F := Ideal) (V c main_arg0))

include hV0 in
theorem blkq (t : Fin cfg0.N) (r : Fin 2048) (e : Fin 512) :
    iblk V c 0 t (ix2 r e) = nrm (xOf V c) (rowOf t.val t.isLt r) e := by
  rw [iblk0_apply V c t r e, hV0, hostNrm_apply]; rfl

include hV0 in
theorem blkk (t : Fin cfg0.N) (h : 512 * (t.val % 16) + 512 ≤ 8192) (jj e : Fin 512) :
    iblk V c 2 t (ix2 jj e) = nrm (xOf V c) (blk (512 * (t.val % 16)) 512 h jj) e := by
  rw [iblk2_apply V c t jj e, hV0, hostNrm_apply]; rfl

include hV3 in
theorem blkv (t : Fin cfg0.N) (h : 512 * (t.val % 16) + 512 ≤ 8192) (jj d : Fin 512) :
    iblk V c 3 t (ix2 jj d) = xOf V c (blk (512 * (t.val % 16)) 512 h jj) d := by
  rw [iblk3_apply V c t jj d, hV3, hostVal_apply]; rfl

theorem blka (t : Fin cfg0.N) (h : 512 * (t.val % 16) + 512 ≤ 8192) (r : Fin 2048) (jj : Fin 512) :
    iblk V c 4 t (ix2 r jj) = aOf V c (rowOf t.val t.isLt r) (blk (512 * (t.val % 16)) 512 h jj) := by
  rw [iblk4_apply V c t r jj]; rfl

theorem blkx (t : Fin cfg0.N) (r : Fin 2048) (d : Fin 512) :
    iblk V c 1 t (ix2 r d) = xOf V c (rowOf t.val t.isLt r) d := by
  rw [iblk1_apply V c t r d]; rfl

end Grid

/-! ## The scratch rows after every point -/

section Invariant

variable (V : (c : Dev nD) → (b : Ref sig .tc) → Buf (Elt Ideal) ((c : Thread nD τ).loc b)) (c : Dev nD)
variable (hV0 : V c main_v10 = hostNrm (F := Ideal) (V c main_arg0)) (hV3 : V c main_v11 = hostVal (F := Ideal) (V c main_arg0))
variable (hx : Finite (xOf V c))

/-- The three closed forms of row `rowOf n r` over the first `N` columns, as a statement about a triple of scratch
    contents. -/
def RowsAt (n : ℕ) (hn : n < cfg0.N) (N : ℕ) (mo lo : Vec Ideal S2048x1 .f32) (acc : Vec Ideal S2048x512 .f32) : Prop :=
  ∀ r : Fin 2048,
    mo (ix2 r (0 : Fin 1)) = pmax (masked (xOf V c) (aOf V c) (rowOf n hn r)) N
    ∧ lo (ix2 r (0 : Fin 1)) = pden (masked (xOf V c) (aOf V c) (rowOf n hn r)) N
    ∧ ∀ d : Fin 512, acc (ix2 r d) = pacc (masked (xOf V c) (aOf V c) (rowOf n hn r)) (fun j => xOf V c j d) N

include hV0 hV3 hx in
/-- One body step at point `t`: from the closed forms over the first `512·k` columns to those over `512·(k+1)`. -/
theorem rows_step (t : Fin cfg0.N) (mo lo : Vec Ideal S2048x1 .f32) (acc : Vec Ideal S2048x512 .f32)
    (hprev : RowsAt V c t.val t.isLt (512 * (t.val % 16)) mo lo acc) :
    RowsAt V c t.val t.isLt (512 * (t.val % 16 + 1))
      (k0_pay2 (F := Ideal) (k0_pay8 (F := Ideal) (iblk V c 0 t) (iblk V c 2 t) (iblk V c 4 t) mo))
      (k0_pay11 (F := Ideal) (iblk V c 0 t) (iblk V c 2 t) (iblk V c 4 t) mo mo lo)
      (k0_pay1 (F := Ideal) (k0_pay10 (F := Ideal) (iblk V c 0 t) (iblk V c 2 t) (iblk V c 4 t) mo) acc
        (k0_pay12 (F := Ideal) (iblk V c 0 t) (iblk V c 2 t) (iblk V c 4 t) mo mo) (iblk V c 3 t)) := by
  have hN : cfg0.N = 64 := N_0
  have h : 512 * (t.val % 16) + 512 ≤ 8192 := by have := Nat.mod_lt t.val (show 0 < 16 by decide); omega
  have e : 512 * (t.val % 16 + 1) = 512 * (t.val % 16) + 512 := by ring
  intro r
  obtain ⟨hm, hl, ha⟩ := hprev r
  rw [e]
  refine ⟨?_, ?_, fun d => ?_⟩
  · rw [pay2_apply]
    exact step_max _ _ _ _ _ _ _ h r (blkq V c hV0 t r) (blkk V c hV0 t h) (blka V c t h r) mo hm
  · exact step_den _ _ _ _ _ _ _ h r (blkq V c hV0 t r) (blkk V c hV0 t h) (blka V c t h r) hx mo lo hm hl
  · exact step_acc _ _ _ _ _ _ _ _ h r (blkq V c hV0 t r) (blkk V c hV0 t h) (blka V c t h r) hx (blkv V c hV3 t h) mo acc hm d (ha d)

/-- The reset values are the closed forms over no column. -/
theorem rows_reset (n : ℕ) (hn : n < cfg0.N) :
    RowsAt V c n hn 0 (k0_pay4 (F := Ideal)) (k0_pay5 (F := Ideal)) (k0_pay6 (F := Ideal)) := fun r =>
  ⟨by rw [pay4_apply, pmax_zero], by rw [pay5_apply, pden_zero], fun d => by rw [pay6_apply, pacc_zero]⟩

include hV0 hV3 hx in
/-- After the body at point `n` the three scratch operands hold the closed forms over the first `512·(n % 16 + 1)`
    columns, for the rows of the point's query block. -/
theorem rows_after : ∀ (n : ℕ) (hn : n < cfg0.N),
    RowsAt V c n hn (512 * (n % 16 + 1)) (outsAt0 V c n hn).2.1 (outsAt0 V c n hn).2.2.1 (outsAt0 V c n hn).2.2.2 := by
  have hN : cfg0.N = 64 := N_0
  intro n
  induction n with
  | zero =>
    intro hn
    have hA := outsAt0_A V c ⟨0, hn⟩ (Nat.zero_mod _) (show ¬ (0 : ℕ) % 16 = 15 by decide)
    have hs := rows_step V c hV0 hV3 hx ⟨0, hn⟩ (k0_pay4 (F := Ideal)) (k0_pay5 (F := Ideal)) (k0_pay6 (F := Ideal)) (rows_reset V c 0 hn)
    rw [show outsAt0 V c 0 hn = _ from hA]
    dsimp only
    rw [sout0_A_0_eq, sout0_A_1_eq, sout0_A_2_eq]
    exact hs
  | succ n ih =>
    intro hn
    have ihn := ih (Nat.lt_of_succ_lt hn)
    by_cases h0 : (n + 1) % 16 = 0
    · have h1 : ¬ (n + 1) % 16 = 15 := by omega
      have hA := outsAt0_A V c ⟨n + 1, hn⟩ h0 h1
      have hs := rows_step V c hV0 hV3 hx ⟨n + 1, hn⟩ (k0_pay4 (F := Ideal)) (k0_pay5 (F := Ideal)) (k0_pay6 (F := Ideal))
        (by rw [show (⟨n + 1, hn⟩ : Fin cfg0.N).val % 16 = 0 from h0]; exact rows_reset V c (n + 1) hn)
      rw [show outsAt0 V c (n + 1) hn = _ from hA]
      dsimp only
      rw [sout0_A_0_eq, sout0_A_1_eq, sout0_A_2_eq]
      exact hs
    · -- the point before is in the same query block, one key block earlier
      have eq1 : (n + 1) / 16 = n / 16 := by omega
      have eq2 : (n + 1) % 16 = n % 16 + 1 := by omega
      have hprev : RowsAt V c (n + 1) hn (512 * ((n + 1) % 16)) (outsAt0 V c n (Nat.lt_of_succ_lt hn)).2.1
          (outsAt0 V c n (Nat.lt_of_succ_lt hn)).2.2.1 (outsAt0 V c n (Nat.lt_of_succ_lt hn)).2.2.2 := by
        intro r
        have hrow : rowOf (n + 1) hn r = rowOf n (Nat.lt_of_succ_lt hn) r := Fin.ext (by unfold rowOf; simp only [eq1])
        rw [hrow, eq2]
        exact ihn r
      have hs := rows_step V c hV0 hV3 hx ⟨n + 1, hn⟩ _ _ _ hprev
      by_cases h1 : (n + 1) % 16 = 15
      · have hC := outsAt0_C V c ⟨n + 1, hn⟩ h0 h1
        rw [show outsAt0 V c (n + 1) hn = _ from hC]
        dsimp only
        rw [sout0_C_0_eq, sout0_C_1_eq, sout0_C_2_eq]
        exact hs
      · have hB := outsAt0_B V c ⟨n + 1, hn⟩ h0 h1
        rw [show outsAt0 V c (n + 1) hn = _ from hB]
        dsimp only
        rw [sout0_B_0_eq, sout0_B_1_eq, sout0_B_2_eq]
        exact hs

include hV0 hV3 hx in
/-- At the last key block of a query block the stored result is the specification's running form over the whole row. -/
theorem out_after (n : ℕ) (hn : n < cfg0.N) (h15 : n % 16 = 15) (r : Fin 2048) (d : Fin 512) :
    (outsAt0 V c n hn).1 (ix2 r d) = kerOut (xOf V c) (aOf V c) (rowOf n hn r) d := by
  have hN : cfg0.N = 64 := N_0
  obtain ⟨k, rfl⟩ : ∃ k, n = k + 1 := ⟨n - 1, by omega⟩
  have h0 : ¬ (k + 1) % 16 = 0 := by omega
  have hrows := rows_after V c hV0 hV3 hx (k + 1) hn r
  have hC := outsAt0_C V c ⟨k + 1, hn⟩ h0 h15
  rw [show outsAt0 V c (k + 1) hn = _ from hC] at hrows ⊢
  dsimp only at hrows ⊢
  rw [sout0_C_1_eq, sout0_C_2_eq] at hrows
  rw [out0_C_5_eq]
  have e8 : 512 * ((k + 1) % 16 + 1) = 8192 := by omega
  rw [e8] at hrows
  exact final_out _ _ _ r d _ _ _ hrows.2.1 (hrows.2.2 d) (blkx V c ⟨k + 1, hn⟩ r d)

include hV0 hV3 hx in
/-- The output array after the run, entry by entry. -/
theorem outG_apply (i : Fin 8192) (d : Fin 512) : outG V c (ix2 i d) = kerOut (xOf V c) (aOf V c) i d := by
  have hN : cfg0.N = 64 := N_0
  unfold outG
  have hi := i.isLt
  have h15 : (16 * (i.val / 2048) + 15) % 16 = 15 := by omega
  have := out_after V c hV0 hV3 hx (16 * (i.val / 2048) + 15) (by omega) h15 ⟨i.val % 2048, Nat.mod_lt _ (by decide)⟩ d
  refine this.trans (congrArg (fun j => kerOut (xOf V c) (aOf V c) j d) (Fin.ext ?_))
  show 2048 * ((16 * (i.val / 2048) + 15) / 16) + i.val % 2048 = i.val
  omega

end Invariant

end Cert.KernelIdeal.Hand

end
-- ==== Proof.RefValue.lean ====
/-
  The reference's result, read off its run one operation at a time, is the softmax-of-a-whole-row form of the
  specification.
-/
import proofs.«402759_j45397804319035_3_alg».proof.Proof.RefRun
import proofs.«402759_j45397804319035_3_alg».proof.Proof.RefRead
import proofs.«402759_j45397804319035_3_alg».proof.Proof.Spec

noncomputable section

namespace Cert.RefValue

open Cert.ReferenceIdeal Cert.ReferenceIdeal.Read Idealize.ShloMosaic Idealize.ShloMosaic.ValueIdx
open Idealize.ShloMosaic.TcCoe Idealize.SL.Sem

/-! ## The words the reference carries -/

/-- The small constant under the row length is a positive real. -/
theorem eps_pos : (0 : EReal) < Ideal.ofBits .f32 0x2B8CBCCC#32 := by
  simp [Ideal.ofBits, Ideal.ieee, -EReal.coe_mul]

/-- The word of one is one. -/
theorem one_word : Ideal.ofBits .f32 0x3F800000#32 = 1 := by
  simp [Ideal.ofBits, Ideal.ieee, -EReal.coe_mul]; norm_num

/-- The word of minus infinity is the bottom element. -/
theorem neg_inf_word : Ideal.ofBits .f32 0xFF800000#32 = ⊥ := by
  simp [Ideal.ofBits, Ideal.ieee]

/-- Dividing by one changes nothing. -/
theorem div_one' (x : EReal) : Ideal.div x 1 = x := by
  have h := Ideal.div_coe (y := 1) one_ne_zero x
  rw [EReal.coe_one] at h
  rw [h]; simp

/-- The mask's threshold is a real strictly between zero and one, so an integer exceeds it exactly when the integer
    is positive. -/
theorem thr_lt_iff (n : ℤ) : Ideal.ofBits .f32 0x3727C5AC#32 < ((n : ℝ) : EReal) ↔ 0 < n := by
  have hw : Ideal.ofBits .f32 0x3727C5AC#32 = (((10995116 : ℝ) * (2 ^ 40)⁻¹ : ℝ) : EReal) := by
    simp [Ideal.ofBits, Ideal.ieee, -EReal.coe_mul]
  rw [hw, EReal.coe_lt_coe_iff]
  constructor
  · intro h
    by_contra hn
    have h1 : (n : ℝ) ≤ 0 := by exact_mod_cast not_lt.mp hn
    have h2 : (0 : ℝ) < 10995116 * (2 ^ 40)⁻¹ := by positivity
    linarith
  · intro h
    have h1 : (1 : ℝ) ≤ n := by exact_mod_cast h
    have h2 : (10995116 : ℝ) * (2 ^ 40)⁻¹ < 1 := by norm_num
    linarith

/-! ## The reference, stage by stage -/

section Stages

variable (X : (⟨S8192x512, .f32⟩ : BufTy).Contents (Elt Ideal)) (A : (⟨S8192x8192, .i32⟩ : BufTy).Contents (Elt Ideal))

/-- The first argument as a function of row and column. -/
abbrev xf : Fin 8192 → Fin 512 → EReal := fun i d => X (ix2 i d)

/-- The second argument as a function of row and column. -/
abbrev af : Fin 8192 → Fin 8192 → BitVec 32 := fun i j => A (ix2 i j)

/-- The sum of the squares along row p from zero, its square root, and the small constant under it: the row's
    length. -/
theorem norm_at (p : Fin 8192) :
    val_main_v5 (F := Ideal) X (ix2 p (0 : Fin 1)) = Spec.rowNorm (xf X) p := by
  have e1 : idx_main_v2 (ix2 p (0 : Fin 1)) = ix1 p :=
    funext fun a => Fin.ext (by match a with | ⟨0, _⟩ => rfl)
  have e2 : ∀ k : Fin 512, idx_main_v1 (ix1 p) k = ix2 p k := fun k =>
    funext fun a => Fin.ext (by match a with | ⟨0, _⟩ => rfl | ⟨1, _⟩ => rfl)
  rw [val_main_v5_apply, val_main_v3_apply, val_main_v2_apply, e1, val_main_v1_apply, val_main_v4_apply,
    val_main_cst_0_apply, val_main_cst_apply]
  simp only [e2, val_main_v0_apply, Ideal.ofBits_def, Ideal.mulf_def, Ideal.maximumf_def, Ideal.hostUnary_sqrt_def,
    Ideal.ofBits_zero_f32, zero_add]
  rfl

/-- A row's length is not zero: it is at least the small positive constant. -/
theorem rowNorm_ne_zero (x : Fin 8192 → Fin 512 → EReal) (p : Fin 8192) : Spec.rowNorm x p ≠ 0 :=
  (lt_of_lt_of_le eps_pos (le_max_right _ _)).ne'

/-- The quotient of an entry by its row's length, which is not zero, is the product with the inverse: the row
    scaled to unit length. -/
theorem nrm_at (p : Fin 8192) (q : Fin 512) :
    val_main_v7 (F := Ideal) X (ix2 p q) = Spec.nrm (xf X) p q := by
  have e1 : idx_main_v6 (ix2 p q) = ix2 p (0 : Fin 1) :=
    funext fun a => Fin.ext (by match a with | ⟨0, _⟩ => rfl | ⟨1, _⟩ => rfl)
  rw [val_main_v7_apply, val_main_v6_apply, e1, norm_at, Ideal.hostDivf_def, Ideal.div,
    if_neg (rowNorm_ne_zero _ p)]
  rfl

/-- The contraction of the scaled rows with their transpose, divided by one: the similarity of rows p and q. -/
theorem score_at (p q : Fin 8192) :
    val_main_v11 (F := Ideal) X (ix2 p q) = Spec.score (xf X) p q := by
  have el : ∀ k : Fin 512, lidx_main_v9 (ix2 p q) k = ix2 p k := fun k =>
    funext fun a => Fin.ext (by match a with | ⟨0, _⟩ => rfl | ⟨1, _⟩ => rfl)
  have er : ∀ k : Fin 512, idx_main_v8 (ridx_main_v9 (ix2 p q) k) = ix2 q k := fun k =>
    funext fun a => Fin.ext (by match a with | ⟨0, _⟩ => rfl | ⟨1, _⟩ => rfl)
  rw [val_main_v11_apply, val_main_v10_apply, val_main_cst_1_apply, val_main_v9_apply]
  simp only [val_main_v8_apply, el, er, nrm_at, Ideal.ofBits_def, Ideal.hostDivf_def, one_word, div_one']
  rfl

/-- The integer entry, read exactly, exceeds the threshold exactly when it is positive; there the select takes minus
    infinity, elsewhere the similarity. -/
theorem masked_at (p q : Fin 8192) :
    val_main_v15 (F := Ideal) X A (ix2 p q) = Spec.masked (xf X) (af A) p q := by
  rw [val_main_v15_apply, val_main_v14_apply, val_main_v12_apply, val_main_v13_apply, val_main_cst_2_apply,
    val_main_call0_v1_apply, val_main_call0_v0_apply, val_main_cst_3_apply, score_at]
  have hc : FloatOps.cmpf (F := Ideal) .ogt (FloatOps.sitofp (F := Ideal) .f32 (A (ix2 p q)))
      (FloatOps.ofBits .f32 0x3727C5AC#32) = BitVec.ofBool (decide (0 < (A (ix2 p q)).toInt)) := by
    show BitVec.ofBool (decide (Ideal.ofBits .f32 0x3727C5AC#32 < (((A (ix2 p q)).toInt : ℝ) : EReal))) = _
    simp only [thr_lt_iff]
  rw [hc, Ideal.ofBits_def, neg_inf_word]
  unfold Spec.masked
  by_cases h : 0 < (A (ix2 p q)).toInt
  · rw [if_pos h, decide_eq_true h]; exact select_one _ _
  · rw [if_neg h, decide_eq_false h]; exact select_zero _ _

/-- The fold of the maximum along row p from minus infinity, then the maximum with minus infinity again: the largest
    masked similarity of the row. -/
theorem rowmax_at (p : Fin 8192) :
    val_main_v18 (F := Ideal) X A (ix1 p) = Finset.univ.fold max ⊥ (Spec.masked (xf X) (af A) p) := by
  have h : S8192x8192.Reduces [1] S8192 := by decide
  have hl : ∀ k : Fin (S8192x8192.size 1), h.lift (ix1 p) k = ix2 p (⟨k.val, k.isLt⟩ : Fin 8192) := fun k => by
    funext c; apply Fin.ext; fin_cases c <;> rfl
  have hf : (val_main_v15 (F := Ideal) X A ∘ h.lift (ix1 p)) = fun k : Fin 8192 => Spec.masked (xf X) (af A) p k :=
    funext fun k => (congrArg (val_main_v15 (F := Ideal) X A) (hl k)).trans (masked_at X A p _)
  rw [val_main_v18_apply, val_main_v17_apply, val_main_cst_5_apply]
  unfold val_main_v16
  rw [Host.reduce_eq_fold_single FloatOps.maximumf _ _ _ h, val_main_cst_4_apply]
  show max (Ideal.ofBits .f32 0xFF800000#32) (Finset.fold max (Ideal.ofBits .f32 0xFF800000#32)
    (val_main_v15 (F := Ideal) X A ∘ h.lift (ix1 p)) (Finset.univ : Finset (Fin 8192))) = _
  rw [hf, neg_inf_word, max_bot_left]
  rfl

/-- The exponential of a masked similarity less its row's largest. -/
theorem exp_at (p q : Fin 8192) :
    val_main_v22 (F := Ideal) X A (ix2 p q)
      = Ideal.exp (Spec.masked (xf X) (af A) p q - Finset.univ.fold max ⊥ (Spec.masked (xf X) (af A) p)) := by
  have e1 : idx_main_v19 (idx_main_v20 (ix2 p q)) = ix1 p :=
    funext fun a => Fin.ext (by match a with | ⟨0, _⟩ => rfl)
  rw [val_main_v22_apply, val_main_v21_apply, val_main_v20_apply, val_main_v19_apply, e1, rowmax_at, masked_at,
    Ideal.hostUnary_exp_def, Ideal.subf_def]

/-- The sum of those exponentials along row p, from zero. -/
theorem den_at (p : Fin 8192) :
    val_main_v23 (F := Ideal) X A (ix1 p)
      = ∑ j : Fin 8192, Ideal.exp (Spec.masked (xf X) (af A) p j - Finset.univ.fold max ⊥ (Spec.masked (xf X) (af A) p)) := by
  have e : ∀ k : Fin 8192, idx_main_v23 (ix1 p) k = ix2 p k := fun k =>
    funext fun a => Fin.ext (by match a with | ⟨0, _⟩ => rfl | ⟨1, _⟩ => rfl)
  rw [val_main_v23_apply, val_main_cst_6_apply]
  simp only [e, exp_at, Ideal.ofBits_def, Ideal.ofBits_zero_f32, zero_add]

/-- An exponential over its row's sum: the softmax of row p at column q. -/
theorem prob_at (p q : Fin 8192) :
    val_main_v26 (F := Ideal) X A (ix2 p q)
      = Ideal.div (Ideal.exp (Spec.masked (xf X) (af A) p q - Finset.univ.fold max ⊥ (Spec.masked (xf X) (af A) p)))
          (∑ j : Fin 8192, Ideal.exp (Spec.masked (xf X) (af A) p j - Finset.univ.fold max ⊥ (Spec.masked (xf X) (af A) p))) := by
  have e1 : idx_main_v24 (idx_main_v25 (ix2 p q)) = ix1 p :=
    funext fun a => Fin.ext (by match a with | ⟨0, _⟩ => rfl)
  rw [val_main_v26_apply, val_main_v25_apply, val_main_v24_apply, e1, den_at, exp_at, Ideal.hostDivf_def]

/-- The contraction of the softmax with the rows: the weighted sum of the rows at column d. -/
theorem agg_at (p : Fin 8192) (d : Fin 512) :
    val_main_v27 (F := Ideal) X A (ix2 p d)
      = ∑ j : Fin 8192,
          Ideal.div (Ideal.exp (Spec.masked (xf X) (af A) p j - Finset.univ.fold max ⊥ (Spec.masked (xf X) (af A) p)))
            (∑ j' : Fin 8192, Ideal.exp (Spec.masked (xf X) (af A) p j' - Finset.univ.fold max ⊥ (Spec.masked (xf X) (af A) p)))
            * xf X j d := by
  have el : ∀ k : Fin 8192, lidx_main_v27 (ix2 p d) k = ix2 p k := fun k =>
    funext fun a => Fin.ext (by match a with | ⟨0, _⟩ => rfl | ⟨1, _⟩ => rfl)
  have er : ∀ k : Fin 8192, ridx_main_v27 (ix2 p d) k = ix2 k d := fun k =>
    funext fun a => Fin.ext (by match a with | ⟨0, _⟩ => rfl | ⟨1, _⟩ => rfl)
  rw [val_main_v27_apply]
  simp only [el, er, prob_at]

end Stages

/-! ## The two deliverables -/

/-- the reference's last stage is the specification's whole-row form, index by index -/
theorem ref_eq (X : (⟨Cert.ReferenceIdeal.S8192x512, .f32⟩ : BufTy).Contents (Elt Ideal))
    (A : (⟨Cert.ReferenceIdeal.S8192x8192, .i32⟩ : BufTy).Contents (Elt Ideal)) :
    Cert.ReferenceIdeal.Read.val_main_v32 (F := Ideal) X A
      = fun ix => Cert.Spec.refOut (fun i d => X (ValueIdx.ix2 i d)) (fun i j => A (ValueIdx.ix2 i j)) (ix 0) (ix 1) := by
  funext ix
  obtain ⟨p, q, rfl⟩ : ∃ (p : Fin 8192) (q : Fin 512), ix = ix2 p q := ⟨ix 0, ix 1, eq_ix2 ix⟩
  rw [val_main_v32_apply, val_main_v29_apply, val_main_v28_apply, val_main_cst_7_apply, val_main_v31_apply,
    val_main_v30_apply, val_main_cst_8_apply, agg_at]
  rfl

/-- the reference runs, ends at that function of its arguments, and leaves them unchanged -/
theorem run_ref [Cert.ReferenceIdeal.Facts]
    (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
      r.2.mem ((c.tc : Thread Cert.ReferenceIdeal.nD Cert.ReferenceIdeal.τ).loc Cert.ReferenceIdeal.main_v32)
          = (fun ix => Cert.Spec.refOut
              (fun i d => m ((c.tc : Thread _ _).loc Cert.ReferenceIdeal.main_arg0) (ValueIdx.ix2 i d))
              (fun i j => m ((c.tc : Thread _ _).loc Cert.ReferenceIdeal.main_arg1) (ValueIdx.ix2 i j)) (ix 0) (ix 1))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)) :=
  (θ_run _ _ _).mono
    (fun _ h c => ⟨((h c).1.trans (val_main_v32_eq m c)).trans (ref_eq _ _), (h c).2⟩)
    (Cert.ReferenceIdeal.Value.run (F := Ideal) m g)

end Cert.RefValue

end
-- ==== Proof.PreDecode.lean ====
/-
  The precondition, read back as two facts about the inputs.

  The printed precondition is a conjunction of two one-bit words.  The first is an "and" taken over every entry
  of the float array of the bit |x| < +∞; the second is an "and", over the rows of the integer array, of an "or"
  taken along each row of the bit a ≤ 0 (signed).  The claim says the conjunction is 1.

  An "and" that came out 1 met only 1s, so every entry has |x| < +∞: at the extended reals |x| is max x (−x) and
  the pattern 0x7F800000 is +∞, hence x is neither +∞ nor −∞.  An "or" that came out 1 and started from 0 met a 1
  somewhere: a fold by "or" over one-bit words is 1 only if it started at 1 or one of the words folded in is 1.
  So every row has an index whose comparison bit is set; a set bit of a signed "≤" against the zero word says the
  entry, read signed, is at most 0; and the index, dropping to row p, is (p, its own column).
-/
import proofs.«402759_j45397804319035_3_alg».proof.Pre_finite_inputs
import proofs.«402759_j45397804319035_3_alg».proof.Proof.Spec
import Idealize.ShloMosaic.Lib.ValueIdx
import Idealize.ShloMosaic.Lib.ReduceAll

namespace Cert.PreDecode

open Idealize.ShloMosaic

/-! ## A reduction by "or" that is 1 -/

/-- A left fold by "or" over one-bit words that came out 1 started at 1 or met a 1. -/
theorem foldl_ori_eq_one {ι : Type} (f : ι → BitVec 1) :
    ∀ (l : List ι) (init : BitVec 1), l.foldl (fun r n => IntOp.ori r (f n)) init = 1#1 →
      init = 1#1 ∨ ∃ n ∈ l, f n = 1#1
  | [], _, h => Or.inl h
  | a :: l, init, h => by
    rcases foldl_ori_eq_one f l _ h with h1 | ⟨n, hn, hf⟩
    · rcases IntOp.ori_eq_one.1 h1 with hi | ha
      · exact Or.inl hi
      · exact Or.inr ⟨a, List.mem_cons_self, ha⟩
    · exact Or.inr ⟨n, List.mem_cons_of_mem _ hn, hf⟩

/-- A reduction by "or" from an initial word that is not 1, which is 1 at the result index j, had a 1 at some
    operand index that reduces into j. -/
theorem reduce_ori_eq_one {s t u : Shape} {axes : List (Fin s.rank)} (x : s.Idx → BitVec 1) (init : u.Idx → BitVec 1)
    (h : s.ReducesTo axes t) (hu : 0 < u.numel) (j : t.Idx) (e : Host.reduce IntOp.ori x init h hu j = 1#1)
    (hinit : init (Shape.Idx.first hu) ≠ 1#1) : ∃ i : s.Idx, h.drop i = j ∧ x i = 1#1 := by
  rw [Host.reduce_eq_foldl] at e
  rcases foldl_ori_eq_one x _ _ e with h1 | ⟨i, hi, hx⟩
  · exact absurd h1 hinit
  · exact ⟨i, of_decide_eq_true (List.mem_filter.1 hi).2, hx⟩

/-! ## The two element facts -/

/-- |x| < +∞ at the extended reals: x is a real number. -/
theorem real_of_abs_lt_inf (x : EReal)
    (e : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at e
  have hlt : max x (-x) < ⊤ := by
    by_contra hn
    simp [Ideal.cmp, hn] at e
  obtain ⟨h1, h2⟩ := max_lt_iff.1 hlt
  refine ⟨ne_of_lt h1, fun hb => ?_⟩
  subst hb
  simp at h2

/-- A set bit of the signed comparison a ≤ 0 says the word, read signed, is at most 0. -/
theorem toInt_le_zero_of_sle (a : BitVec 32) (e : IntOp.cmpi .sle a 0#32 = 1#1) : a.toInt ≤ 0 := by
  have := IntOp.cmpi_sle.1 e
  rwa [show (0#32 : BitVec 32).toInt = 0 from by decide] at this

/-! ## The precondition decoded -/

/-- The rank-zero shape has one index. -/
instance : Subsingleton Cert.Pre_finite_inputs.S_.Idx := ⟨fun _ _ => funext fun d => d.elim0⟩

theorem decode [Cert.Pre_finite_inputs.Facts] (X : FVec Ideal Cert.Pre_finite_inputs.S8192x512 .f32)
    (A : IVec Cert.Pre_finite_inputs.S8192x8192 32)
    (h : Cert.Pre_finite_inputs.fn (F := Ideal) X A = fun _ => 1#1) :
    Cert.Spec.Finite (fun i d => X (ValueIdx.ix2 i d)) ∧ Cert.Spec.RowsOpen (fun i j => A (ValueIdx.ix2 i j)) := by
  have e := congrFun h ValueIdx.ix0
  dsimp only [Cert.Pre_finite_inputs.fn] at e
  obtain ⟨e1, e2⟩ := IntOp.andi_eq_one.1 e
  refine ⟨fun i d => ?_, fun p => ?_⟩
  · -- the "and" over every entry was 1, so this entry's bit is
    exact real_of_abs_lt_inf _ (Host.reduce_andi_all _ _ _ _ _ e1 (ValueIdx.ix2 i d))
  · -- the "and" over the rows was 1, so row p's "or" is; it started from 0, so some index of the row has its bit set
    have ep := Host.reduce_andi_all _ _ _ _ _ e2 (ValueIdx.ix1 p)
    obtain ⟨i, hi, hx⟩ := reduce_ori_eq_one _ _ _ _ _ ep
      (fun hh => absurd (show (0#1 : BitVec 1) = 1#1 from hh) (by decide))
    -- that index drops to row p: its first coordinate is p
    have h0 : (i 0).val = p.val := by
      have hv := Shape.ReducesTo.drop_apply_val_of_eq Cert.Pre_finite_inputs.Facts.reducesTo_S8192x8192_S8192_d1 i 0 0
      rw [hi] at hv
      exact hv.symm
    have hij : ValueIdx.ix2 (n0 := 8192) (n1 := 8192) p (i 1) = i := by
      funext b
      match b with
      | ⟨0, _⟩ => exact Fin.ext h0.symm
      | ⟨1, _⟩ => rfl
    -- so the entry at (p, that column) is the entry whose bit is set
    exact ⟨i 1, le_of_eq_of_le (congrArg (fun k => (A k).toInt) hij) (toInt_le_zero_of_sle _ hx)⟩

end Cert.PreDecode
-- ==== Proof.Claims.lean ====
/-
  The five claims.

  The three frames: both kernels from their body obligation through the launch (the program leaves its two arguments as
  it found them: each is the array of an input window, and an input's array is never written); the reference from its
  run.  The idealized kernel is the sanctioned idealization of the word-level one: its one rewritten constant, the
  finite stand-in for −∞ that fills masked scores, is named −∞.  And the two idealized programs compute one function:
  the kernel's output array is the running softmax form of the specification (read off the 64 grid points), the
  reference's is the whole-row form (read off its run), and under the precondition — every entry of `x` a real number,
  every row of the integer array with at least one entry that is not masked — the two forms are equal: the running
  maximum ends at the row's maximum, which is a real number because some score is not masked, the running sums end
  at the whole sums, the plain one positive, and dividing the weighted sum by it is summing the quotients.
-/
import proofs.«402759_j45397804319035_3_alg».proof.Defs
import proofs.«402759_j45397804319035_3_alg».proof.Proof.Gen.Kernel
import proofs.«402759_j45397804319035_3_alg».proof.Proof.Gen.KernelIdeal
import proofs.«402759_j45397804319035_3_alg».proof.Proof.Gen.ReferenceIdeal
import proofs.«402759_j45397804319035_3_alg».proof.Proof.Gen.Pre_finite_inputs
import proofs.«402759_j45397804319035_3_alg».proof.Proof.K.Frame
import proofs.«402759_j45397804319035_3_alg».proof.Proof.K.Launch
import proofs.«402759_j45397804319035_3_alg».proof.Proof.KI.Frame
import proofs.«402759_j45397804319035_3_alg».proof.Proof.KI.Launch
import proofs.«402759_j45397804319035_3_alg».proof.Proof.KI.LaunchHost
import proofs.«402759_j45397804319035_3_alg».proof.Proof.KI.Value
import proofs.«402759_j45397804319035_3_alg».proof.Proof.RefValue
import proofs.«402759_j45397804319035_3_alg».proof.Proof.PreDecode
import proofs.«402759_j45397804319035_3_alg».proof.Proof.OnlineSoftmax
import Idealize.ShloMosaic.PureOps.IdealRules

set_option maxRecDepth 16384

noncomputable section

namespace Cert.Proof.Parts

open Idealize.ShloMosaic Idealize.ShloMosaic.TcCoe Idealize.ShloMosaic.ValueIdx Idealize.SL.Sem

/-- The word-level kernel runs and leaves its arguments unchanged. -/
theorem frame_k : Cert.frame_Kernel := fun m ρ _ =>
  Cert.Kernel.Hand.frame_of_body m ρ (Cert.Kernel.Hand.dats (Cert.Kernel.Hand.V m))
    (fun c w => Cert.Kernel.Hand.q_eq _ c w) (fun c => (Cert.Kernel.Hand.body_obligation _ c).loose) (fun _ _ => rfl)
    (fun c w => Cert.Kernel.Hand.A_eq _ c w) (fun c => Cert.Kernel.Hand.hin _ c) (fun c => Cert.Kernel.Hand.hout _ c)

/-- So does the idealized kernel. -/
theorem frame_ki : Cert.frame_KernelIdeal := fun m ρ _ =>
  Cert.KernelIdeal.Hand.frame_of_body m ρ (Cert.KernelIdeal.Hand.dats (Cert.KernelIdeal.Hand.V m))
    (fun c w => Cert.KernelIdeal.Hand.q_eq _ c w) (fun c => (Cert.KernelIdeal.Hand.body_obligation _ c).loose) (fun _ _ => rfl)
    (fun c w => Cert.KernelIdeal.Hand.A_eq _ c w) (fun c => Cert.KernelIdeal.Hand.hin _ c) (fun c => Cert.KernelIdeal.Hand.hout _ c)

/-- And the reference: its run with the result dropped. -/
theorem frame_r : Cert.frame_ReferenceIdeal := fun m ρ _ =>
  (θ_run Cert.ReferenceIdeal.defs _ _).mono (fun _ h c => (h c).2) (Cert.RefValue.run_ref m ρ)

/-- The one rewritten constant: the finite fill of masked scores is named −∞. -/
theorem preserves : Cert.preserves_Kernel_KernelIdeal :=
  IdealRules.named_const.statement Cert.KernelIdeal.κ "neg_big" .f32 0xFF333332#32 ⊥ rfl

/-- The idealized kernel's run with its result array in the whole-row form, under the precondition. -/
theorem run_ki (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v12)
          = (fun ix => Cert.Spec.refOut (fun i d => m ((c.tc : Thread Cert.KernelIdeal.nD Cert.KernelIdeal.τ).loc Cert.KernelIdeal.main_arg0) (ix2 i d))
              (fun i j => m ((c.tc : Thread Cert.KernelIdeal.nD Cert.KernelIdeal.τ).loc Cert.KernelIdeal.main_arg1) (ix2 i j)) (ix 0) (ix 1))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) := by
  open Cert.KernelIdeal Cert.KernelIdeal.Gen Cert.KernelIdeal.Hand in
  refine (θ_run Cert.KernelIdeal.defs _ _).mono (fun r h c => ?_)
    (Cert.KernelIdeal.Hand.run_of_body m ρ (dats (V m))
      (fun c w => q_eq _ c w) (fun c => (body_obligation _ c).loose) (fun _ _ => rfl)
      (fun c w => A_eq _ c w) (fun c => hin _ c) (fun c => hout _ c))
  obtain ⟨harr, -⟩ := h c
  have hdec := Cert.PreDecode.decode _ _ (hpre c)
  have e0 : V m c main_arg0 = m ((c.tc : Thread nD τ).loc main_arg0) := V_main_arg0 m c
  have e1 : V m c main_arg1 = m ((c.tc : Thread nD τ).loc main_arg1) := V_main_arg1 m c
  have hV0 : V m c main_v10 = hostNrm (F := Ideal) (V m c main_arg0) := by rw [e0]; exact V_main_v10 m c
  have hV3 : V m c main_v11 = hostVal (F := Ideal) (V m c main_arg0) := by rw [e0]; exact V_main_v11 m c
  have hx : Cert.Spec.Finite (xOf (V m) c) := by unfold xOf; rw [e0]; exact hdec.1
  have ha : Cert.Spec.RowsOpen (aOf (V m) c) := by unfold aOf; rw [e1]; exact hdec.2
  refine ⟨?_, ?_, ?_⟩
  · refine (harr 5).trans ((arrAt5 (V m) c).trans ?_)
    funext ix
    obtain ⟨i, d, rfl⟩ : ∃ (i : Fin 8192) (d : Fin 512), ix = ix2 i d := ⟨ix 0, ix 1, eq_ix2 ix⟩
    refine (outG_apply (V m) c hV0 hV3 hx i d).trans ?_
    rw [Cert.Spec.kerOut_eq_refOut _ _ hx ha]
    unfold xOf aOf
    rw [e0, e1]
    rfl
  · exact (harr 1).trans (((dats (V m) 0 c).arrAt_in 1 rfl _).trans ((A_eq (V m) c 1).trans e0))
  · exact (harr 4).trans (((dats (V m) 0 c).arrAt_in 4 rfl _).trans ((A_eq (V m) c 4).trans e1))

/-- The two idealized programs, from memories agreeing on the arguments, end with equal results. -/
theorem algebraic : Cert.algebraic_KernelIdeal_ReferenceIdeal := by
  intro m ρ m' ρ' hpre hagree
  refine ⟨_, run_ki m ρ hpre, ?_⟩
  refine (θ_run Cert.ReferenceIdeal.defs _ _).mono (fun r h c => ?_) (Cert.RefValue.run_ref m' ρ')
  obtain ⟨h1, h2, h3⟩ := h c
  refine ⟨h1.trans ?_, h2, h3⟩
  rw [(hagree c).1, (hagree c).2]
  rfl

end Cert.Proof.Parts

end
-- ==== Proof.lean ====
/-
  The certificate: the programs' stated side conditions hold (the generated facts), and the five claims
  (proof/Proof/Claims.lean): both kernels and the reference run to the end and leave their arguments unchanged, the
  idealized kernel is the word-level kernel's sanctioned idealization, and the idealized kernel and the idealized
  reference compute the same array, `2·x − softmax(masked similarities)·x`, entry by entry over the extended reals.
-/
import proofs.«402759_j45397804319035_3_alg».proof.Defs
import proofs.«402759_j45397804319035_3_alg».proof.Proof.Gen.Kernel
import proofs.«402759_j45397804319035_3_alg».proof.Proof.Gen.Kernel.Skeleton
import proofs.«402759_j45397804319035_3_alg».proof.Proof.Gen.Kernel.Launch
import proofs.«402759_j45397804319035_3_alg».proof.Proof.Gen.Kernel.Points
import proofs.«402759_j45397804319035_3_alg».proof.Proof.Gen.KernelIdeal
import proofs.«402759_j45397804319035_3_alg».proof.Proof.Gen.KernelIdeal.Skeleton
import proofs.«402759_j45397804319035_3_alg».proof.Proof.Gen.KernelIdeal.Launch
import proofs.«402759_j45397804319035_3_alg».proof.Proof.Gen.KernelIdeal.Points
import proofs.«402759_j45397804319035_3_alg».proof.Proof.Gen.ReferenceIdeal
import proofs.«402759_j45397804319035_3_alg».proof.Proof.Gen.Pre_finite_inputs
import proofs.«402759_j45397804319035_3_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Parts.frame_k, Parts.frame_ki, Parts.frame_r, Parts.preserves, Parts.algebraic⟩

end Cert.Proof

end
